-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x2048 : Shape := ⟨3, ![64, 128, 2048]⟩
abbrev S64x128 : Shape := ⟨2, ![64, 128]⟩
abbrev S4096x2 : Shape := ⟨2, ![4096, 2]⟩
abbrev S2 : Shape := ⟨1, ![2]⟩
abbrev S_ : Shape := ⟨0, ![]⟩

class Facts : Prop where
  bcast_S_S64x128x2048 : S_.BroadcastsInDim S64x128x2048 (![] : Fin 0 → Fin S64x128x2048.rank)
  reducesTo_S64x128x2048_S_d0_1_2 : S64x128x2048.ReducesTo [0, 1, 2] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S2 : S_.BroadcastsInDim S2 (![] : Fin 0 → Fin S2.rank)
  reducesTo_S2_S_d0 : S2.ReducesTo [0] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg1 : IVec S64x128 32) (main_v13 : IVec S_ 1) (main_v15 : IVec S64x128 1) (main_c_5 : IVec S_ 32) : IVec S_ 1 :=
  let main_v16 : IVec S64x128 32 := broadcastInDim S64x128 ![] bcast_S_S64x128 main_c_5
  let main_v17 : IVec S64x128 1 := cmpi .eq main_arg1 main_v16
  let main_v18 : IVec S64x128 1 := ori main_v15 main_v17
  let main_c_6 : IVec S_ 1 := constantI S_ 1 1#1
  let main_v19 : IVec S_ 1 := (fun x v => Host.reduce IntOp.andi x v reducesTo_S64x128_S_d0_1 h_S_) main_v18 main_c_6
  let main_v20 : IVec S_ 1 := andi main_v13 main_v19
  main_v20

def fn {F : FTy → Type} [FloatOps F] (main_arg0 : FVec F S64x128x2048 .f32) (main_arg1 : IVec S64x128 32) (main_arg2 : FVec F S4096x2 .f32) (main_arg3 : FVec F S2 .f32) : IVec S_ 1 :=
  let main_v0 : FVec F S64x128x2048 .f32 := Host.absf main_arg0
  let main_cst : FVec F S_ .f32 := constant S_ .f32 0x7F800000#32
  let main_v1 : FVec F S64x128x2048 .f32 := broadcastInDim S64x128x2048 ![] bcast_S_S64x128x2048 main_cst
  let main_v2 : IVec S64x128x2048 1 := cmpf .olt main_v0 main_v1
  let main_c : IVec S_ 1 := constantI S_ 1 1#1
  let main_v3 : IVec S_ 1 := (fun x v => Host.reduce IntOp.andi x v reducesTo_S64x128x2048_S_d0_1_2 h_S_) main_v2 main_c
  let main_v4 : FVec F S4096x2 .f32 := Host.absf main_arg2
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_c_4 : IVec S_ 32 := constantI S_ 32 0#32
  let main_v14 : IVec S64x128 32 := broadcastInDim S64x128 ![] bcast_S_S64x128 main_c_4
  let main_v15 : IVec S64x128 1 := cmpi .eq main_arg1 main_v14
  let main_c_5 : IVec S_ 32 := constantI S_ 32 1#32
  fn_part1 (F := F) main_arg1 main_v13 main_v15 main_c_5
-- ==== Kernel.lean ====
abbrev S64x128x2048 : Shape := ⟨3, ![64, 128, 2048]⟩
abbrev S64x128 : Shape := ⟨2, ![64, 128]⟩
abbrev S4096x2 : Shape := ⟨2, ![4096, 2]⟩
abbrev S2 : Shape := ⟨1, ![2]⟩
abbrev S_ : Shape := ⟨0, ![]⟩
abbrev S64 : Shape := ⟨1, ![64]⟩
abbrev S2048x2 : Shape := ⟨2, ![2048, 2]⟩
abbrev S64x1x128 : Shape := ⟨3, ![64, 1, 128]⟩
abbrev S1x128x2048 : Shape := ⟨3, ![1, 128, 2048]⟩
abbrev S1x1x128 : Shape := ⟨3, ![1, 1, 128]⟩
abbrev S1 : Shape := ⟨1, ![1]⟩
abbrev S128x2048 : Shape := ⟨2, ![128, 2048]⟩
abbrev S128x2 : Shape := ⟨2, ![128, 2]⟩
abbrev S2x128 : Shape := ⟨2, ![2, 128]⟩
abbrev S128x1 : Shape := ⟨2, ![128, 1]⟩
abbrev S1x128 : Shape := ⟨2, ![1, 128]⟩
abbrev S128x128 : Shape := ⟨2, ![128, 128]⟩
abbrev S128 : Shape := ⟨1, ![128]⟩

abbrev nBuf : Space → Nat
  | .hbm => 23
  | .vmem => 7
  | .smem => 1
  | _ => 0

abbrev bufTy : (tb : Table) → Fin (tcTables nBuf tb) → BufTy
  | .hbm, ⟨0, _⟩ => ⟨S64x128x2048, .f32⟩
  | .hbm, ⟨1, _⟩ => ⟨S64x128, .i32⟩
  | .hbm, ⟨2, _⟩ => ⟨S4096x2, .f32⟩
  | .hbm, ⟨3, _⟩ => ⟨S2, .f32⟩
  | .hbm, ⟨4, _⟩ => ⟨S_, .i32⟩
  | .hbm, ⟨5, _⟩ => ⟨S2048x2, .f32⟩
  | .hbm, ⟨6, _⟩ => ⟨S2048x2, .f32⟩
  | .hbm, ⟨7, _⟩ => ⟨S64x1x128, .f32⟩
  | .hbm, ⟨8, _⟩ => ⟨S_, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x128x2048, .f32⟩
  | .local _ .vmem, ⟨1, _⟩ => ⟨S1x128x2048, .f32⟩
  | .local _ .vmem, ⟨2, _⟩ => ⟨S2048x2, .f32⟩
  | .local _ .vmem, ⟨3, _⟩ => ⟨S2048x2, .f32⟩
  | .local _ .vmem, ⟨4, _⟩ => ⟨S2, .f32⟩
  | .local _ .vmem, ⟨5, _⟩ => ⟨S1x1x128, .f32⟩
  | .local _ .vmem, ⟨6, _⟩ => ⟨S1x1x128, .f32⟩
  | .local _ .smem, ⟨0, _⟩ => ⟨S64, .i32⟩
  | _, _ => ⟨S64x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S64x128_S64_d1 : S64x128.ReducesTo [1] S64
  h_S_ : 0 < S_.numel
  slices_S4096x2_S2048x2_0_0 : S4096x2.Slices ![0, 0] S2048x2
  slices_S4096x2_S2048x2_2048_0 : S4096x2.Slices ![2048, 0] S2048x2
  numel1_S1 : S1.numel = 1
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  inb_S2_S2_0 : ∀ a, (![0] : Fin 1 → Nat) a + S2.size a ≤ S2.size a
  h_S2 : 0 < S2.numel
  slices_S2_o0_S1 : S2.Slices ![0] S1
  inpos_S1_p0 : ∀ a, (![0] : Fin 1 → Nat) a < S1.size a
  slices_S2_o1_S1 : S2.Slices ![1] S1
  slices_S128x2_o0_0_S128x1 : S128x2.Slices ![0, 0] S128x1
  slices_S128x2_o0_1_S128x1 : S128x2.Slices ![0, 1] S128x1
  slices_S2x128_o0_0_S1x128 : S2x128.Slices ![0, 0] S1x128
  slices_S2x128_o1_0_S1x128 : S2x128.Slices ![1, 0] S1x128
  broadcasts_S128x1_S128x128 : S128x1.Broadcasts S128x128
  broadcasts_S1x128_S128x128 : S1x128.Broadcasts S128x128
  iota_S128x128_d0_w32 : S128x128.Iotas .tc 32 [0]
  iota_S128x128_d1_w32 : S128x128.Iotas .tc 32 [1]
  reduces_S128x128_S128 : S128x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S64x1x128_S_d0_1_2 : S64x1x128.ReducesTo [0, 1, 2] S_
  bcast_S_S64 : S_.BroadcastsInDim S64 (![] : Fin 0 → Fin S64.rank)
  reducesTo_S64_S_d0 : S64.ReducesTo [0] S_
  dot_S128x2048_S2048x2_S128x2_1_0_0_1_n_n_wf : DotDims.WF S128x2048 S2048x2 S128x2 [1] [0] [0] [1] [] []
  dot_S2048x2_S128x2048_S2x128_0_1_1_0_n_n_wf : DotDims.WF S2048x2 S128x2048 S2x128 [0] [1] [1] [0] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S64x128x2048.size a
  hwx0_0 : ∀ i : grid0.Coords, EltTy.bits .f32 = 32 ∨ (Rect.block (s := S64x128x2048) S1x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S2048x2.size a
  hwx0_1 : ∀ i : grid0.Coords, EltTy.bits .f32 = 32 ∨ (Rect.block (s := S2048x2) S2048x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2.size a ≤ S2048x2.size a
  hwx0_2 : ∀ i : grid0.Coords, EltTy.bits .f32 = 32 ∨ (Rect.block (s := S2048x2) S2048x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2.size a ≤ S2.size a
  hwx0_3 : ∀ i : grid0.Coords, EltTy.bits .f32 = 32 ∨ (Rect.block (s := S2) S2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S64x1x128.size a
  hwx0_4 : ∀ i : grid0.Coords, EltTy.bits .f32 = 32 ∨ (Rect.block (s := S64x1x128) S1x1x128.size (cc0_transform_4 i) (hinb0_4 i)).WholeWords (EltTy.packing .f32)

variable [Facts₀]

def dot_S128x2048_S2048x2_S128x2_1_0_0_1_n_n : DotDims S128x2048 S2048x2 S128x2 where
  lhsContracting := [1]
  rhsContracting := [0]
  lhsNonContracting := [0]
  rhsNonContracting := [1]
  lhsBatch := []
  rhsBatch := []
  wf := dot_S128x2048_S2048x2_S128x2_1_0_0_1_n_n_wf
def dot_S2048x2_S128x2048_S2x128_0_1_1_0_n_n : DotDims S2048x2 S128x2048 S2x128 where
  lhsContracting := [0]
  rhsContracting := [1]
  lhsNonContracting := [1]
  rhsNonContracting := [0]
  lhsBatch := []
  rhsBatch := []
  wf := dot_S2048x2_S128x2048_S2x128_0_1_1_0_n_n_wf

abbrev spec0_0 : Pipeline.WinSpec sig grid0.rank :=
  Pipeline.WinSpec.ofSpec (Memref.whole main_arg0) S1x128x2048.size reads0_0 false false 2 stage0_0 sem0_0 nbuf0_0 hstage0_0

abbrev spec0_1 : Pipeline.WinSpec sig grid0.rank :=
  Pipeline.WinSpec.ofSpec (Memref.whole main_v1) S2048x2.size reads0_1 false true 1 stage0_1 sem0_1 nbuf0_1 hstage0_1

abbrev spec0_2 : Pipeline.WinSpec sig grid0.rank :=
  Pipeline.WinSpec.ofSpec (Memref.whole main_v2) S2048x2.size reads0_2 false true 1 stage0_2 sem0_2 nbuf0_2 hstage0_2

abbrev spec0_3 : Pipeline.WinSpec sig grid0.rank :=
  Pipeline.WinSpec.ofSpec (Memref.whole main_arg3) S2.size reads0_3 false true 1 stage0_3 sem0_3 nbuf0_3 hstage0_3

abbrev spec0_4 : Pipeline.WinSpec sig grid0.rank :=
  Pipeline.WinSpec.ofSpec (Memref.whole main_v3) S1x1x128.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S64x128x2048 : Shape := ⟨3, ![64, 128, 2048]⟩
abbrev S64x128 : Shape := ⟨2, ![64, 128]⟩
abbrev S4096x2 : Shape := ⟨2, ![4096, 2]⟩
abbrev S2 : Shape := ⟨1, ![2]⟩
abbrev S_ : Shape := ⟨0, ![]⟩
abbrev S64 : Shape := ⟨1, ![64]⟩
abbrev S2048x2 : Shape := ⟨2, ![2048, 2]⟩
abbrev S64x128x2 : Shape := ⟨3, ![64, 128, 2]⟩
abbrev S64x128x1x2 : Shape := ⟨4, ![64, 128, 1, 2]⟩
abbrev S64x1x128x2 : Shape := ⟨4, ![64, 1, 128, 2]⟩
abbrev S64x128x128x2 : Shape := ⟨4, ![64, 128, 128, 2]⟩
abbrev S1x1x1x2 : Shape := ⟨4, ![1, 1, 1, 2]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S64x1x1 : Shape := ⟨3, ![64, 1, 1]⟩
abbrev S1x128x1 : Shape := ⟨3, ![1, 128, 1]⟩
abbrev S64x128x1 : Shape := ⟨3, ![64, 128, 1]⟩
abbrev S1x128x128 : Shape := ⟨3, ![1, 128, 128]⟩
abbrev S64x128x128 : Shape := ⟨3, ![64, 128, 128]⟩
abbrev S64x128x128x1 : Shape := ⟨4, ![64, 128, 128, 1]⟩
abbrev S1x128x128x1 : Shape := ⟨4, ![1, 128, 128, 1]⟩
abbrev S64x128x128x1x1 : Shape := ⟨5, ![64, 128, 128, 1, 1]⟩
abbrev S1 : Shape := ⟨1, ![1]⟩
abbrev S1x1x1x1x1 : Shape := ⟨5, ![1, 1, 1, 1, 1]⟩

abbrev nBuf : Space → Nat
  | .hbm => 95
  | .vmem => 0
  | .smem => 0
  | _ => 0

abbrev bufTy : (tb : Table) → Fin (tcTables nBuf tb) → BufTy
  | .hbm, ⟨0, _⟩ => ⟨S64x128x2048, .f32⟩
  | .hbm, ⟨1, _⟩ => ⟨S64x128, .i32⟩
  | .hbm, ⟨2, _⟩ => ⟨S4096x2, .f32⟩
  | .hbm, ⟨3, _⟩ => ⟨S2, .f32⟩
  | .hbm, ⟨4, _⟩ => ⟨S_, .i32⟩
  | .hbm, ⟨5, _⟩ => ⟨S64, .i32⟩
  | .hbm, ⟨6, _⟩ => ⟨S2048x2, .f32⟩
  | .hbm, ⟨7, _⟩ => ⟨S64x128x2, .f32⟩
  | .hbm, ⟨8, _⟩ => ⟨S2048x2, .f32⟩
  | .hbm, ⟨9, _⟩ => ⟨S64x128x2, .f32⟩
  | .hbm, ⟨10, _⟩ => ⟨S64x128x1x2, .f32⟩
  | .hbm, ⟨11, _⟩ => ⟨S64x1x128x2, .f32⟩
  | .hbm, ⟨12, _⟩ => ⟨S64x128x128x2, .f32⟩
  | .hbm, ⟨13, _⟩ => ⟨S64x128x128x2, .f32⟩
  | .hbm, ⟨14, _⟩ => ⟨S64x128x128x2, .f32⟩
  | .hbm, ⟨15, _⟩ => ⟨S1x1x1x2, .f32⟩
  | .hbm, ⟨16, _⟩ => ⟨S64x128x128x2, .f32⟩
  | .hbm, ⟨17, _⟩ => ⟨S64x128x128x2, .f32⟩
  | .hbm, ⟨18, _⟩ => ⟨S128, .i32⟩
  | .hbm, ⟨19, _⟩ => ⟨S128x1, .i32⟩
  | .hbm, ⟨20, _⟩ => ⟨S128, .i32⟩
  | .hbm, ⟨21, _⟩ => ⟨S1x128, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S64x1x1, .i32⟩
  | .hbm, ⟨26, _⟩ => ⟨S1x128x1, .i32⟩
  | .hbm, ⟨27, _⟩ => ⟨S64x128x1, .i32⟩
  | .hbm, ⟨28, _⟩ => ⟨S64x128x1, .i32⟩
  | .hbm, ⟨29, _⟩ => ⟨S64x128x1, .i1⟩
  | .hbm, ⟨30, _⟩ => ⟨S1x128x128, .i1⟩
  | .hbm, ⟨31, _⟩ => ⟨S64x128x128, .i1⟩
  | .hbm, ⟨32, _⟩ => ⟨S64x128x128, .i1⟩
  | .hbm, ⟨33, _⟩ => ⟨S64x128x128, .i1⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S128x128, .i32⟩
  | .hbm, ⟨41, _⟩ => ⟨S_, .f32⟩
  | .hbm, ⟨42, _⟩ => ⟨S64x128x128, .f32⟩
  | .hbm, ⟨43, _⟩ => ⟨S_, .f32⟩
  | .hbm, ⟨44, _⟩ => ⟨S64x128x128, .f32⟩
  | .hbm, ⟨45, _⟩ => ⟨S64x128x128, .f32⟩
  | .hbm, ⟨46, _⟩ => ⟨S64x128x128x1, .f32⟩
  | .hbm, ⟨47, _⟩ => ⟨S64x128x128x2, .f32⟩
  | .hbm, ⟨48, _⟩ => ⟨S64x128x128x2, .f32⟩
  | .hbm, ⟨49, _⟩ => ⟨S64x128x128x2, .f32⟩
  | .hbm, ⟨50, _⟩ => ⟨S_, .f32⟩
  | .hbm, ⟨51, _⟩ => ⟨S64x128x128, .f32⟩
  | .hbm, ⟨52, _⟩ => ⟨S64x128x128x1, .f32⟩
  | .hbm, ⟨53, _⟩ => ⟨S64x128x128x1, .f32⟩
  | .hbm, ⟨54, _⟩ => ⟨S64x128x128x2, .f32⟩
  | .hbm, ⟨55, _⟩ => ⟨S64x128x128x2, .f32⟩
  | .hbm, ⟨56, _⟩ => ⟨S1x128x128x1, .i32⟩
  | .hbm, ⟨57, _⟩ => ⟨S64x128x128x1, .i32⟩
  | .hbm, ⟨58, _⟩ => ⟨S_, .i32⟩
  | .hbm, ⟨59, _⟩ => ⟨S64x128x128x1, .i32⟩
  | .hbm, ⟨60, _⟩ => ⟨S64x128x128x1, .i1⟩
  | .hbm, ⟨61, _⟩ => ⟨S_, .i32⟩
  | .hbm, ⟨62, _⟩ => ⟨S64x128x128x1, .i32⟩
  | .hbm, ⟨63, _⟩ => ⟨S64x128x128x1, .i32⟩
  | .hbm, ⟨64, _⟩ => ⟨S64x128x128x1, .i32⟩
  | .hbm, ⟨65, _⟩ => ⟨S64x128x128x1x1, .i32⟩
  | .hbm, ⟨66, _⟩ => ⟨S1, .i32⟩
  | .hbm, ⟨67, _⟩ => ⟨S_, .i32⟩
  | .hbm, ⟨68, _⟩ => ⟨S64x128x128x1x1, .i32⟩
  | .hbm, ⟨69, _⟩ => ⟨S64x128x128x1x1, .i1⟩
  | .hbm, ⟨70, _⟩ => ⟨S1x1x1x1x1, .i32⟩
  | .hbm, ⟨71, _⟩ => ⟨S64x128x128x1x1, .i32⟩
  | .hbm, ⟨72, _⟩ => ⟨S64x128x128x1x1, .i1⟩
  | .hbm, ⟨73, _⟩ => ⟨S64x128x128x1x1, .i1⟩
  | .hbm, ⟨74, _⟩ => ⟨S_, .i1⟩
  | .hbm, ⟨75, _⟩ => ⟨S64x128x128x1, .i1⟩
  | .hbm, ⟨76, _⟩ => ⟨S64x128x128x1, .f32⟩
  | .hbm, ⟨77, _⟩ => ⟨S_, .f32⟩
  | .hbm, ⟨78, _⟩ => ⟨S64x128x128x1, .f32⟩
  | .hbm, ⟨79, _⟩ => ⟨S64x128x128x1, .f32⟩
  | .hbm, ⟨80, _⟩ => ⟨S64x128x128, .f32⟩
  | .hbm, ⟨81, _⟩ => ⟨S64x128x128, .f32⟩
  | .hbm, ⟨82, _⟩ => ⟨S64x128x128, .i32⟩
  | .hbm, ⟨83, _⟩ => ⟨S_, .i32⟩
  | .hbm, ⟨84, _⟩ => ⟨S_, .i32⟩
  | .hbm, ⟨85, _⟩ => ⟨S_, .f32⟩
  | .hbm, ⟨86, _⟩ => ⟨S_, .f32⟩
  | .hbm, ⟨87, _⟩ => ⟨S64x128x128, .f32⟩
  | .hbm, ⟨88, _⟩ => ⟨S64x128x128, .f32⟩
  | .hbm, ⟨89, _⟩ => ⟨S_, .f32⟩
  | .hbm, ⟨90, _⟩ => ⟨S_, .f32⟩
  | .hbm, ⟨91, _⟩ => ⟨S_, .i32⟩
  | .hbm, ⟨92, _⟩ => ⟨S_, .i32⟩
  | .hbm, ⟨93, _⟩ => ⟨S_, .f32⟩
  | .hbm, ⟨94, _⟩ => ⟨S_, .f32⟩
  | _, _ => ⟨S64x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c_0 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_cst : Ref sig .tc := ⟨.hbm, 41, rfl⟩
abbrev main_call0_v0 : Ref sig .tc := ⟨.hbm, 42, rfl⟩
abbrev main_call0_cst_0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_cst_1 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_cst : Ref sig .tc := ⟨.hbm, 77, rfl⟩
abbrev main_call1_v14 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_c_1 : Ref sig .tc := ⟨.hbm, 83, rfl⟩
abbrev main_v42 : Ref sig .tc := ⟨.hbm, 84, rfl⟩
abbrev main_cst : Ref sig .tc := ⟨.hbm, 85, rfl⟩
abbrev main_call2_v0 : Ref sig .tc := ⟨.hbm, 86, rfl⟩
abbrev main_call2_v1 : Ref sig .tc := ⟨.hbm, 87, rfl⟩
abbrev main_v43 : Ref sig .tc := ⟨.hbm, 88, rfl⟩
abbrev main_cst_2 : Ref sig .tc := ⟨.hbm, 89, rfl⟩
abbrev main_v44 : Ref sig .tc := ⟨.hbm, 90, rfl⟩
abbrev main_c_3 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩

abbrev nD : Nat := 1
abbrev τ : Topo := Topo.v7x

variable {F : FTy → Type} [FloatOps F]

class Facts₀ : Prop where
  reducesTo_S64x128_S64_d1 : S64x128.ReducesTo [1] S64
  h_S_ : 0 < S_.numel
  slices_S4096x2_S2048x2_0_0 : S4096x2.Slices ![0, 0] S2048x2
  slices_S4096x2_S2048x2_2048_0 : S4096x2.Slices ![2048, 0] S2048x2
  bcast_S64x128x2_S64x128x1x2_0_1_3 : S64x128x2.BroadcastsInDim S64x128x1x2 (![0, 1, 3] : Fin 3 → Fin S64x128x1x2.rank)
  bcast_S64x128x2_S64x1x128x2_0_2_3 : S64x128x2.BroadcastsInDim S64x1x128x2 (![0, 2, 3] : Fin 3 → Fin S64x1x128x2.rank)
  bcast_S64x128x1x2_S64x128x128x2_0_1_2_3 : S64x128x1x2.BroadcastsInDim S64x128x128x2 (![0, 1, 2, 3] : Fin 4 → Fin S64x128x128x2.rank)
  bcast_S64x1x128x2_S64x128x128x2_0_1_2_3 : S64x1x128x2.BroadcastsInDim S64x128x128x2 (![0, 1, 2, 3] : Fin 4 → Fin S64x128x128x2.rank)
  bcast_S2_S1x1x1x2_3 : S2.BroadcastsInDim S1x1x1x2 (![3] : Fin 1 → Fin S1x1x1x2.rank)
  bcast_S1x1x1x2_S64x128x128x2_0_1_2_3 : S1x1x1x2.BroadcastsInDim S64x128x128x2 (![0, 1, 2, 3] : Fin 4 → Fin S64x128x128x2.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S128x1_S128x128_0_1 : S128x1.BroadcastsInDim S128x128 (![0, 1] : Fin 2 → Fin S128x128.rank)
  bcast_S64_S64x1x1_0 : S64.BroadcastsInDim S64x1x1 (![0] : Fin 1 → Fin S64x1x1.rank)
  bcast_S128x1_S1x128x1_1_2 : S128x1.BroadcastsInDim S1x128x1 (![1, 2] : Fin 2 → Fin S1x128x1.rank)
  bcast_S1x128x1_S64x128x1_0_1_2 : S1x128x1.BroadcastsInDim S64x128x1 (![0, 1, 2] : Fin 3 → Fin S64x128x1.rank)
  bcast_S64x1x1_S64x128x1_0_1_2 : S64x1x1.BroadcastsInDim S64x128x1 (![0, 1, 2] : Fin 3 → Fin S64x128x1.rank)
  bcast_S128x128_S1x128x128_1_2 : S128x128.BroadcastsInDim S1x128x128 (![1, 2] : Fin 2 → Fin S1x128x128.rank)
  bcast_S1x128x128_S64x128x128_0_1_2 : S1x128x128.BroadcastsInDim S64x128x128 (![0, 1, 2] : Fin 3 → Fin S64x128x128.rank)
  bcast_S64x128x1_S64x128x128_0_1_2 : S64x128x1.BroadcastsInDim S64x128x128 (![0, 1, 2] : Fin 3 → Fin S64x128x128.rank)
  bcast_S_S128x1 : S_.BroadcastsInDim S128x1 (![] : Fin 0 → Fin S128x1.rank)
  natLt_1_32 : 1 < 32
  reducesTo_S64x128x128x2_S64x128x128_d3 : S64x128x128x2.ReducesTo [3] S64x128x128
  bcast_S_S64x128x128 : S_.BroadcastsInDim S64x128x128 (![] : Fin 0 → Fin S64x128x128.rank)
  bcast_S64x128x128_S64x128x128x1_0_1_2 : S64x128x128.BroadcastsInDim S64x128x128x1 (![0, 1, 2] : Fin 3 → Fin S64x128x128x1.rank)
  bcast_S64x128x128x1_S64x128x128x2_0_1_2_3 : S64x128x128x1.BroadcastsInDim S64x128x128x2 (![0, 1, 2, 3] : Fin 4 → Fin S64x128x128x2.rank)
  bcast_S128x128_S1x128x128x1_1_2 : S128x128.BroadcastsInDim S1x128x128x1 (![1, 2] : Fin 2 → Fin S1x128x128x1.rank)
  bcast_S1x128x128x1_S64x128x128x1_0_1_2_3 : S1x128x128x1.BroadcastsInDim S64x128x128x1 (![0, 1, 2, 3] : Fin 4 → Fin S64x128x128x1.rank)
  bcast_S_S64x128x128x1 : S_.BroadcastsInDim S64x128x128x1 (![] : Fin 0 → Fin S64x128x128x1.rank)
  shapeCasts_S64x128x128x1_S64x128x128x1x1 : S64x128x128x1.ShapeCasts S64x128x128x1x1
  bcast_S_S64x128x128x1x1 : S_.BroadcastsInDim S64x128x128x1x1 (![] : Fin 0 → Fin S64x128x128x1x1.rank)
  bcast_S1_S1x1x1x1x1_4 : S1.BroadcastsInDim S1x1x1x1x1 (![4] : Fin 1 → Fin S1x1x1x1x1.rank)
  bcast_S1x1x1x1x1_S64x128x128x1x1_0_1_2_3_4 : S1x1x1x1x1.BroadcastsInDim S64x128x128x1x1 (![0, 1, 2, 3, 4] : Fin 5 → Fin S64x128x128x1x1.rank)
  reducesTo_S64x128x128x1x1_S64x128x128x1_d4 : S64x128x128x1x1.ReducesTo [4] S64x128x128x1
  shapeCasts_S64x128x128x1_S64x128x128 : S64x128x128x1.ShapeCasts S64x128x128
  reducesTo_S64x128x128_S_d0_1_2 : S64x128x128.ReducesTo [0, 1, 2] S_
  dot_S64x128x2048_S2048x2_S64x128x2_2_0_01_1_n_n_wf : DotDims.WF S64x128x2048 S2048x2 S64x128x2 [2] [0] [0, 1] [1] [] []
  gather_S64x128x128x2_S64x128x128x1x1_S64x128x128x1_n_3_012_012_3_4_1111_wf : GatherDims.WF S64x128x128x2 S64x128x128x1x1 S64x128x128x1 [] [3] [0, 1, 2] [3] [0, 1, 2] 4 ![1, 1, 1, 1]

variable [Facts₀]

def dot_S64x128x2048_S2048x2_S64x128x2_2_0_01_1_n_n : DotDims S64x128x2048 S2048x2 S64x128x2 where
  lhsContracting := [2]
  rhsContracting := [0]
  lhsNonContracting := [0, 1]
  rhsNonContracting := [1]
  lhsBatch := []
  rhsBatch := []
  wf := dot_S64x128x2048_S2048x2_S64x128x2_2_0_01_1_n_n_wf
def gather_S64x128x128x2_S64x128x128x1x1_S64x128x128x1_n_3_012_012_3_4_1111 : GatherDims S64x128x128x2 S64x128x128x1x1 S64x128x128x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S64x128x128x2_S64x128x128x1x1_S64x128x128x1_n_3_012_012_3_4_1111_wf

class Facts : Prop extends Facts₀ where

variable [Facts]
-- ==== Proof.KBody.lean ====
/-
  The body of the one pallas_call of `Kernel`, at every grid point, for any float values: the proof data of the
  pipeline and its body obligation.

  The call runs over the 64 batches. Its windows: 0 the batch's [1, 128, 2048] block of the encoder output, 1 and 2
  the two [2048, 2] halves of the weights, 3 the bias, each fetched and only read; 4 the batch's [1, 1, 128] row of
  the result, written whole by the body's one store. The turn lengths are a prefetched table in scalar memory, of
  which the body loads the batch's word; the region hands the body the table whole and takes it back unchanged.
  The body also loads the output's staging buffer before it stores into it and uses nothing of what it read, so the
  buffer may hold anything on entry.

  Stated at a PARAMETER `V`, the TensorCore's buffer contents when the region is entered: what each input's staging
  buffer holds at a point is the window's block of `V`'s array there, and what the body leaves in the output's is the
  read-back of the pieces its run stores.
-/
import proofs.«404593_j6614249636365_1_alg».proof.Proof.Gen.Kernel.Launch
import proofs.«404593_j6614249636365_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The prefetched table and the pipeline at its contents -/

/-- The table's contents when the region is entered (there is one device). -/
def tbl : pre0.Contents (Elt F) := fun j => V (0 : Dev nD) (pre0.ref j)

/-- On every device the table holds those contents. -/
theorem V_pre (c : Dev nD) (j : Fin 1) : V c (pre0.ref j) = tbl V j := by
  obtain rfl : c = 0 := Subsingleton.elim _ _; rfl

/-- No index map reads the table, so every contents is admissible. -/
abbrev adm0 : (pcfg0 (F := F)).Adm := ⟨tbl V, trivial⟩
/-- The pipeline at the table's contents. -/
abbrev cfgM : Pipeline.Cfg sig Λ₀ := cfg0 (adm0 V)

/-- The table as the body is handed it: its whole buffer as a memref. -/
abbrev tbM : Memref sig .tc .smem S64 .i32 := Memref.whole main_v0
abbrev htbM : tbM.IsWhole := Memref.isWhole_whole _
abbrev TbBuf (c : Dev nD) : Type := Buf (Elt F) (tbM.view.loc (c : Thread nD τ))
/-- The table's buffer on core `c`, whole at the full share, at `f`. -/
abbrev tbPt (c : Dev nD) (f : TbBuf (F := F) c) : sProp 𝕄 :=
  tbM.view.loc (c : Thread nD τ) ↦{fullShare} f

/-- The table held whole, as the one points-to it is. -/
theorem prefHeld_eq (c : Dev nD) :
    (Pipeline.prefHeld (Ix := Unit) (Name := ℕ) (U := UR sig nD τ) (Lvl := ℕ) pre0 c (fun _ => fullShare) (tbl V) : sProp 𝕄)
      = tbPt c (tbl V 0) := by
  unfold Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM V).W) (t : Fin (cfgM V).N) :
    (((cfgM V).win w).xblock ((cfgM V).grid.coords t)).Idx → Elt F ((cfgM V).win w).elt :=
  (((cfgM V).win w).blk t).view.read (Elt F) (V c (Pipeline.arrRef spec0 w))

/-- An input window's current staging buffer holds its block at every point, fetched there or not: where it is not
    fetched its block index has not moved. -/
theorem before_of_0 {c : Dev nD} (dat : Dat τ (Elt F) Unit ℕ (UR sig nD τ) ℕ (cfgM V) c) (hA : dat.A 0 = V c (Pipeline.arrRef spec0 0))
    (hafter : ∀ t, dat.after 0 t = iblk V c 0 t) (t : Fin (cfgM V).N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ (cfgM V) c) (hA : dat.A 1 = V c (Pipeline.arrRef spec0 1))
    (hafter : ∀ t, dat.after 1 t = iblk V c 1 t) (t : Fin (cfgM V).N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ (cfgM V) c) (hA : dat.A 2 = V c (Pipeline.arrRef spec0 2))
    (hafter : ∀ t, dat.after 2 t = iblk V c 2 t) (t : Fin (cfgM V).N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ (cfgM V) c) (hA : dat.A 3 = V c (Pipeline.arrRef spec0 3))
    (hafter : ∀ t, dat.after 3 t = iblk V c 3 t) (t : Fin (cfgM V).N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, and the body as the pipeline calls it there -/

abbrev ms0 (t : Fin (cfgM V).N) : Memref sig .tc .vmem S1x128x2048 .f32 := spec0_0.stage ((cfgM V).slots t 0)
abbrev hs0 (t : Fin (cfgM V).N) : (ms0 V t).IsWhole := hstage0_0 (((cfgM V).slots t 0).cast nbuf0_0)
abbrev ms1 (t : Fin (cfgM V).N) : Memref sig .tc .vmem S2048x2 .f32 := spec0_1.stage ((cfgM V).slots t 1)
abbrev hs1 (t : Fin (cfgM V).N) : (ms1 V t).IsWhole := hstage0_1 (((cfgM V).slots t 1).cast nbuf0_1)
abbrev ms2 (t : Fin (cfgM V).N) : Memref sig .tc .vmem S2048x2 .f32 := spec0_2.stage ((cfgM V).slots t 2)
abbrev hs2 (t : Fin (cfgM V).N) : (ms2 V t).IsWhole := hstage0_2 (((cfgM V).slots t 2).cast nbuf0_2)
abbrev ms3 (t : Fin (cfgM V).N) : Memref sig .tc .vmem S2 .f32 := spec0_3.stage ((cfgM V).slots t 3)
abbrev hs3 (t : Fin (cfgM V).N) : (ms3 V t).IsWhole := hstage0_3 (((cfgM V).slots t 3).cast nbuf0_3)
abbrev ms4 (t : Fin (cfgM V).N) : Memref sig .tc .vmem S1x1x128 .f32 := spec0_4.stage ((cfgM V).slots t 4)
abbrev hs4 (t : Fin (cfgM V).N) : (ms4 V t).IsWhole := hstage0_4 (((cfgM V).slots t 4).cast nbuf0_4)

/-- The kernel body at point `t`, on what the pipeline calls it with. -/
abbrev bodyAt (t : Fin (cfgM V).N) : Prog (TpuEff nD τ sig (Elt F) Λ₀ .tc) PUnit :=
  cc0__loss_kernel (grid0.coords t) (Memref.whole main_v0) (Memref.isWhole_whole _) (ms0 V t) (hs0 V t) (ms1 V t) (hs1 V t) (ms2 V t) (hs2 V t) (ms3 V t) (hs3 V t) (ms4 V t) (hs4 V t)

/-! ## The body's run on any staging memrefs -/

/-- One staging buffer of the output window, through which its contents are stated (the choice does not matter). -/
abbrev VO : View sig .tc .vmem S1x1x128 .f32 := (Memref.whole cc0_stg4_0 : Memref sig .tc .vmem S1x1x128 .f32).view

set_option maxHeartbeats 4000000 in
/-- The pieces the body's stores leave in the output's staging memref, WITH the proof that on whole staging memrefs — the
    four inputs' at their contents, the output's at anything, the table whole at its contents — the body runs to the
    continuation holding the inputs' and the table as they were and the output's buffer with those pieces written. -/
noncomputable def kernelRun (c : Dev nD) (i : grid0.Coords)
    (arg2 : Memref sig .tc .vmem S1x128x2048 .f32) (harg2 : arg2.IsWhole) (arg3 : Memref sig .tc .vmem S2048x2 .f32) (harg3 : arg3.IsWhole)
    (arg4 : Memref sig .tc .vmem S2048x2 .f32) (harg4 : arg4.IsWhole) (arg5 : Memref sig .tc .vmem S2 .f32) (harg5 : arg5.IsWhole)
    (arg6 : Memref sig .tc .vmem S1x1x128 .f32) (harg6 : arg6.IsWhole)
    (x0 : Vec F S1x128x2048 .f32) (x1 : Vec F S2048x2 .f32) (x2 : Vec F S2048x2 .f32) (x3 : Vec F S2 .f32) (xt : TbBuf (F := F) c) :
    { L : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ tbPt c xt
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L) ∗ tbPt c xt) -∗ K ⟨⟩))
          ⊢ wp frame (wpE (defs₀ (F := F)) Variants.none c none) E (cc0__loss_kernel i tbM htbM arg2 harg2 arg3 harg3 arg4 harg4 arg5 harg5 arg6 harg6) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, HT, Hk⟩
    obtain rfl := harg2.eq_unread hf0
    obtain rfl := harg3.eq_unread hf1
    obtain rfl := harg4.eq_unread hf2
    obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexact HT

/-- The run's pieces include a store of the whole block, so they cover it. -/
theorem cover (c : Dev nD) (i : grid0.Coords)
    (arg2 : Memref sig .tc .vmem S1x128x2048 .f32) (harg2 : arg2.IsWhole) (arg3 : Memref sig .tc .vmem S2048x2 .f32) (harg3 : arg3.IsWhole)
    (arg4 : Memref sig .tc .vmem S2048x2 .f32) (harg4 : arg4.IsWhole) (arg5 : Memref sig .tc .vmem S2 .f32) (harg5 : arg5.IsWhole)
    (arg6 : Memref sig .tc .vmem S1x1x128 .f32) (harg6 : arg6.IsWhole)
    (x0 : Vec F S1x128x2048 .f32) (x1 : Vec F S2048x2 .f32) (x2 : Vec F S2048x2 .f32) (x3 : Vec F S2 .f32) (xt : TbBuf (F := F) c) (y : S1x1x128.Idx) :
    ∃ pc ∈ (kernelRun c i arg2 harg2 arg3 harg3 arg4 harg4 arg5 harg5 arg6 harg6 x0 x1 x2 x3 xt).1, y ∈ pc.1.set :=
  View.cover_of_wholeMem (kernelRun c i arg2 harg2 arg3 harg3 arg4 harg4 arg5 harg5 arg6 harg6 x0 x1 x2 x3 xt).1 (by sl_whole_mem) y

/-- What the run leaves in the output's staging buffer: its pieces read back over anything. -/
def outBlk (c : Dev nD) (i : grid0.Coords)
    (arg2 : Memref sig .tc .vmem S1x128x2048 .f32) (harg2 : arg2.IsWhole) (arg3 : Memref sig .tc .vmem S2048x2 .f32) (harg3 : arg3.IsWhole)
    (arg4 : Memref sig .tc .vmem S2048x2 .f32) (harg4 : arg4.IsWhole) (arg5 : Memref sig .tc .vmem S2 .f32) (harg5 : arg5.IsWhole)
    (arg6 : Memref sig .tc .vmem S1x1x128 .f32) (harg6 : arg6.IsWhole)
    (x0 : Vec F S1x128x2048 .f32) (x1 : Vec F S2048x2 .f32) (x2 : Vec F S2048x2 .f32) (x3 : Vec F S2 .f32) (xt : TbBuf (F := F) c) : Vec F S1x1x128 .f32 :=
  VO.read (Elt F) (VO.writes (Elt F) VO.junk (kernelRun c i arg2 harg2 arg3 harg3 arg4 harg4 arg5 harg5 arg6 harg6 x0 x1 x2 x3 xt).1)

/-! ## What the output holds after each point, and the proof data -/

/-- What the output's staging buffer holds after the body at point `t`: the run's contents at the point's memrefs, the
    input windows' blocks there and the table. -/
def outsAt (c : Dev nD) (t : Fin (cfgM V).N) : Vec F S1x1x128 .f32 :=
  outBlk c (grid0.coords t) (ms0 V t) (hs0 V t) (ms1 V t) (hs1 V t) (ms2 V t) (hs2 V t) (ms3 V t) (hs3 V t) (ms4 V t) (hs4 V t)
    (iblk V c 0 t) (iblk V c 1 t) (iblk V c 2 t) (iblk V c 3 t) (tbl V 0)

/-- The proof data of the pipeline on core `c`: the arrays as the region finds them; after the body at point `t` each
    input's buffer at its block and the output's at `outsAt`; the invariant: the scoped rest, the generator register and
    the table whole; nothing owed; full shares. -/
def dat0 (c : Dev nD) : Dat τ (Elt F) Unit ℕ (UR sig nD τ) ℕ (cfgM V) c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outsAt V c t
  Φ _ := iprop(Pipeline.ΦA spec0 c ∗ tbPt c (tbl V 0))
  q _ := fullShare
  owed _ := 0

theorem A_eq (c : Dev nD) (w : Fin (cfgM V).W) : (dat0 V c).A w = V c (Pipeline.arrRef spec0 w) := by
  dsimp only [dat0]

theorem after_0 (c : Dev nD) (t : Fin (cfgM V).N) : (dat0 V c).after 0 t = iblk V c 0 t := by dsimp only [dat0]; try rfl
theorem after_1 (c : Dev nD) (t : Fin (cfgM V).N) : (dat0 V c).after 1 t = iblk V c 1 t := by dsimp only [dat0]; try rfl
theorem after_2 (c : Dev nD) (t : Fin (cfgM V).N) : (dat0 V c).after 2 t = iblk V c 2 t := by dsimp only [dat0]; try rfl
theorem after_3 (c : Dev nD) (t : Fin (cfgM V).N) : (dat0 V c).after 3 t = iblk V c 3 t := by dsimp only [dat0]; try rfl
theorem after_4 (c : Dev nD) (t : Fin (cfgM V).N) : (dat0 V c).after 4 t = outsAt V c t := by dsimp only [dat0]; try rfl

theorem before_0 (c : Dev nD) (t : Fin (cfgM V).N) (d) : (dat0 V c).before 0 t d = iblk V c 0 t :=
  before_of_0 V (dat0 V c) (A_eq V c 0) (after_0 V c) t d
theorem before_1 (c : Dev nD) (t : Fin (cfgM V).N) (d) : (dat0 V c).before 1 t d = iblk V c 1 t :=
  before_of_1 V (dat0 V c) (A_eq V c 1) (after_1 V c) t d
theorem before_2 (c : Dev nD) (t : Fin (cfgM V).N) (d) : (dat0 V c).before 2 t d = iblk V c 2 t :=
  before_of_2 V (dat0 V c) (A_eq V c 2) (after_2 V c) t d
theorem before_3 (c : Dev nD) (t : Fin (cfgM V).N) (d) : (dat0 V c).before 3 t d = iblk V c 3 t :=
  before_of_3 V (dat0 V c) (A_eq V c 3) (after_3 V c) t d

/-! ## The body obligation, at a generic point -/

/-- What the body is called with at point `t`, the windows one by one, -/
def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d))
    ∗ (∃ d, owns (c : Thread nD τ) (ms2 V t) fullShare ((dat0 V c).before 2 t d))
    ∗ (∃ d, owns (c : Thread nD τ) (ms3 V t) fullShare ((dat0 V c).before 3 t d))
    ∗ (∃ d, owns (c : Thread nD τ) (ms4 V t) fullShare ((dat0 V c).before 4 t d)))

/-- and what it returns. -/
def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t)
    ∗ owns (c : Thread nD τ) (ms2 V t) fullShare ((dat0 V c).after 2 t)
    ∗ owns (c : Thread nD τ) (ms3 V t) fullShare ((dat0 V c).after 3 t)
    ∗ owns (c : Thread nD τ) (ms4 V t) fullShare ((dat0 V c).after 4 t))

/-- The body at any point: the inputs' memrefs hold their blocks, so the run applies; the scoped rest, the generator
    register and the core's dues pass through unread; the table goes in and comes back. -/
theorem sound_body (c : Dev nD) (t : Fin (cfgM V).N) :
    bodyPre V c t ⊢ wp frame (wpE (defs₀ (F := F)) Variants.none c none) Set.univ (bodyAt V t) (fun _ => bodyPost V c t) := by
  unfold bodyPre bodyPost bodyAt
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4]
  rw [show (dat0 V c).Φ t.castSucc = iprop(Pipeline.ΦA spec0 c ∗ tbPt c (tbl V 0)) from rfl]
  unfold outsAt
  unfold outBlk
  iintro ⟨⟨HΦ, HT⟩, Ho, ⟨%d0, H0⟩, ⟨%d1, H1⟩, ⟨%d2, H2⟩, ⟨%d3, H3⟩, ⟨%d4, H4⟩⟩
  iapply ((kernelRun c (grid0.coords t) _ _ _ _ _ _ _ _ _ _ (iblk V c 0 t) (iblk V c 1 t) (iblk V c 2 t) (iblk V c 3 t) (tbl V 0)).2 Set.univ _)
  isplitl [H0]; · iexact H0
  isplitl [H1]; · iexact H1
  isplitl [H2]; · iexact H2
  isplitl [H3]; · iexact H3
  isplitl [H4]; · iexists _; iexact H4
  isplitl [HT]; · iexact HT
  iintro ⟨H0, H1, H2, H3, ⟨%e4, H4⟩, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover c _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.KRun.lean ====
/-
  The run of `Kernel`'s @main, for any float values: four host operations (the turn lengths, the two halves of the
  weights), the pallas_call, fifteen host operations (the sum of the kernel's rows, the normaliser, their quotient).

  @main is read as three segments. Between them the core holds every unscoped buffer whole at a named valuation: the
  launch contents; after the first stretch; after the region, whose output array holds what its write-backs leave and
  every other buffer what it held (the table of turn lengths goes into the region whole and comes back unchanged, so
  the stretch after the region reads it again); after the second stretch. The conclusion names every unscoped buffer's
  final contents by that last valuation; the arguments' buffers are read back through it to their launch contents.
-/
import proofs.«404593_j6614249636365_1_alg».proof.Proof.KBody
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the first stretch of host operations (the region's entry). -/
abbrev W1 : Dev nD → Valuation τ sig (Elt F) := fun c => StableHlo.after hostOps0 (W0 m c)
/-- The same read at the TensorCore's references (what the region's proof data take). -/
abbrev V1 : (c : Dev nD) → (b : Ref sig .tc) → Buf (Elt F) ((c : Thread nD τ).loc b) := fun c b => W1 m c b
/-- At the region's exit: its arrays at what the pipeline leaves, every other buffer as entered. -/
def W2 (c : Dev nD) : Valuation τ sig (Elt F) :=
  Pipeline.withArrays spec0 c (W1 m c) fun w => (dat0 (V1 m) c).arrAt w (cfgM (V1 m)).N
theorem W2_arr (c : Dev nD) (w : Fin (cfgM (V1 m)).W) :
    W2 m c (Proc.devRef .tc (Pipeline.arrRef spec0 w)) = (dat0 (V1 m) c).arrAt w (cfgM (V1 m)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF (c : Dev nD) (w : Fin (cfgM (V1 m)).W) : (dat0 (V1 m) c).arrAt w (cfgM (V1 m)).N = V2 m c (Pipeline.arrRef spec0 w) :=
  (W2_arr m c w).symm
theorem hrest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second stretch of host operations (the return). -/
abbrev W3 : Dev nD → Valuation τ sig (Elt F) := fun c => StableHlo.after hostOps1 (W2 m c)

/-! ## The proof data family and the thread state -/

/-- The prefetched table's admissible contents: what it holds when the region is entered. -/
abbrev adm : (p : Fin 1) → (pcfgs (F := F) p).Adm := fun _ => adm0 (V1 m)
/-- The one pipeline's proof data, at its region's entry contents. -/
def pdats : (p : Fin 1) → (c : Dev nD) → Dat τ (Elt F) Unit ℕ (UR sig nD τ) ℕ (Pipeline.pin (pcfgs (F := F)) (adm m) p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register at some state. -/
abbrev Tₙ (c : Dev nD) : sProp 𝕄 := iprop(StableHlo.held (c : Thread nD τ) (Pipeline.ucRefs τ sig) (W3 m c) ∗ ∃ r, prngReg c r)

/-- The table's words on core `c` when the region is entered are the admissible contents. -/
theorem hpf (c : Dev nD) : (fun k => V1 m c (pre0.ref k)) = tbl (V1 m) := funext (V_pre (V1 m) c)

/-! ## The region as a segment -/

set_option backward.isDefEq.respectTransparency.types false in
/-- The region over the thread state: entered from every unscoped buffer at `W1`, left at `W2`. Its arrays are split
    out of the unscoped buffers and put back at the exit contents; the table goes into the invariant whole beside the
    generator register and comes back; every other unscoped buffer bypasses the region. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop((∃ r, prngReg c r) ∗ tbPt c (tbl (V1 m) 0))
  Z c := Pipeline.unscopedRestP (Ix := Unit) (Name := ℕ) (U := UR sig nD τ) (Lvl := ℕ) pre0 spec0 c (V1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (V1 m c) fun _ => rfl
    rw [Pipeline.unscopedBufs_held, Pipeline.unscopedRest_split (launch0 (F := F)).pre c (V1 m c), hpf m c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ tbPt c (tbl (V1 m) 0)) from rfl, prefHeld_eq]; unfold Pipeline.ΦA
    iintro ⟨Hp, Ht, Hr⟩
    isplitr [Ht]
    · isplitl [Hr]; · iexact Hr
      iexact Hp
    · iexact Ht
  hout c := by
    rw [Pipeline.ownSems0_none, show (pdats m 0 c).Φ (Fin.last _) = iprop(Pipeline.ΦA spec0 c ∗ tbPt c (tbl (V1 m) 0)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (V1 m c) (V2 m c) ((pdats m 0 c).arrAt · (cfgM (V1 m)).N) (hF m c) (hrest m c)
    rw [Pipeline.unscopedBufs_held, Pipeline.unscopedRest_split (launch0 (F := F)).pre c (V1 m c), hpf m c, prefHeld_eq] at hjoin
    iintro ⟨Ha, HO, ⟨Hp, Ht⟩, Hrest⟩
    imodintro
    isplitl [Ha Hrest Ht]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) (adm m) (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- At the compiled mesh, for any float values, from any memory with zero counters: every weakly fair execution of
    @main on the TensorCores terminates, nothing faulting, and every final state has every unscoped buffer at the last
    valuation `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) (adm m) (pdats m) () (cellOf_inj (adm m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (StableHlo.after hostOps1 (W2 m c)) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.Spec.lean ====
/-
  The value both programs compute, as ONE function of the argument arrays over the extended reals.

  Shapes: the encoder output `x : [64, 128, 2048]`, the weights `w : [4096, 2]` (rows 0–2047 act on the
  row `j` of a pair, rows 2048–4095 on the row `k`), the bias `β : [2]`, and the per-batch turn lengths
  `tl : [64]` (words; each is the sum of a row of the mask).

  For a batch `b` and a pair of rows `(j, k)` the two logits are
    `logit b j k c = (∑ d, x b j d · w d c) + (∑ d, x b k d · w (2048 + d) c) + β c`,   c = 0, 1,
  the pair's loss is the negative log-probability of its label under the two-way softmax — label 1 exactly
  when `k = j - 1`, label 0 otherwise —, written with the log-sum-exp shifted by the maximum,
    `lse l₀ l₁ = max l₀ l₁ + log (exp (l₀ - max l₀ l₁) + exp (l₁ - max l₀ l₁))`,
  and a pair counts when `k < j` and `j` is below the batch's turn length (signed comparison of words).
  The result is the sum of the counted pairs' losses divided by `max (∑ b, t_b (t_b - 1) / 2) 1`, where `t_b` is the
  turn length read as a signed integer: for `0 ≤ t_b ≤ 128` the number of counted pairs of batch `b`.
-/
import Idealize.ShloMosaic.PureOps.Ideal
import Idealize.ShloMosaic.Lib.ValueIdx

noncomputable section

namespace Cert.Spec

open Idealize.ShloMosaic Idealize.ShloMosaic.ValueIdx

abbrev SX : Shape := ⟨3, ![64, 128, 2048]⟩
abbrev SW : Shape := ⟨2, ![4096, 2]⟩
abbrev SB : Shape := ⟨1, ![2]⟩
abbrev ST : Shape := ⟨1, ![64]⟩

/-- Row `d` of the first half of the weights, and of the second half. -/
abbrev wlo (d : Fin 2048) : Fin 4096 := ⟨d.val, by have := d.isLt; omega⟩
abbrev whi (d : Fin 2048) : Fin 4096 := ⟨2048 + d.val, by have := d.isLt; omega⟩

/-- The projection of row `j` of batch `b` by the first half of the weights, onto class `c`. -/
def left (x : SX.Idx → EReal) (w : SW.Idx → EReal) (b : Fin 64) (j : Fin 128) (c : Fin 2) : EReal :=
  ∑ d : Fin 2048, x (ix3 b j d) * w (ix2 (wlo d) c)

/-- The projection of row `k` of batch `b` by the second half of the weights, onto class `c`. -/
def right (x : SX.Idx → EReal) (w : SW.Idx → EReal) (b : Fin 64) (k : Fin 128) (c : Fin 2) : EReal :=
  ∑ d : Fin 2048, x (ix3 b k d) * w (ix2 (whi d) c)

/-- The logit of class `c` for the pair `(j, k)` of batch `b`. -/
def logit (x : SX.Idx → EReal) (w : SW.Idx → EReal) (β : SB.Idx → EReal) (b : Fin 64) (j k : Fin 128) (c : Fin 2) : EReal :=
  left x w b j c + right x w b k c + β (ix1 c)

/-- The log-sum-exp of two numbers, shifted by their maximum. -/
def lse (l₀ l₁ : EReal) : EReal :=
  max l₀ l₁ + Ideal.log (Ideal.exp (l₀ - max l₀ l₁) + Ideal.exp (l₁ - max l₀ l₁))

/-- The loss of the pair `(j, k)`: minus the log-probability of its label, which is 1 exactly when `k = j - 1`. -/
def nll (x : SX.Idx → EReal) (w : SW.Idx → EReal) (β : SB.Idx → EReal) (b : Fin 64) (j k : Fin 128) : EReal :=
  if k.val + 1 = j.val then 0 - (logit x w β b j k 1 - lse (logit x w β b j k 0) (logit x w β b j k 1))
  else 0 - (logit x w β b j k 0 - lse (logit x w β b j k 0) (logit x w β b j k 1))

/-- The pair `(j, k)` counts for a batch of turn length `t`: `k < j`, and `j` below `t` as signed words. -/
def counted (t : BitVec 32) (j k : Fin 128) : Prop := k.val < j.val ∧ (BitVec.ofNat 32 j.val).slt t = true

instance (t : BitVec 32) (j k : Fin 128) : Decidable (counted t j k) := by unfold counted; infer_instance

/-- The pair's contribution to the sum: its loss when it counts, else zero. -/
def term (x : SX.Idx → EReal) (w : SW.Idx → EReal) (β : SB.Idx → EReal) (tl : ST.Idx → BitVec 32) (b : Fin 64) (j k : Fin 128) : EReal :=
  if counted (tl (ix1 b)) j k then nll x w β b j k else 0

/-- The sum of the counted pairs' losses, over the batches, then the second row `k`, then the first row `j`. -/
def num (x : SX.Idx → EReal) (w : SW.Idx → EReal) (β : SB.Idx → EReal) (tl : ST.Idx → BitVec 32) : EReal :=
  ∑ b : Fin 64, ∑ k : Fin 128, ∑ j : Fin 128, term x w β tl b j k

/-- A batch's turn length as a number. -/
def tlen (tl : ST.Idx → BitVec 32) (b : Fin 64) : EReal := (((tl (ix1 b)).toInt : ℝ) : EReal)

/-- The normaliser: `∑ b, t_b (t_b - 1) / 2`, at least 1. -/
def den (tl : ST.Idx → BitVec 32) : EReal :=
  max (∑ b : Fin 64, tlen tl b * (tlen tl b - 1) * (((1 / 2 : ℝ)) : EReal)) 1

end Cert.Spec

end
-- ==== Proof.KerDen.lean ====
/-
  The normaliser. After the kernel call, the kernel program's host operations turn the turn lengths `tl : [64]`
  into `max (∑ b, t_b · (t_b - 1) · ½) 1`: each word read as a signed integer, one subtracted, the product halved,
  the 64 values summed from zero, and the maximum with one taken. Over the extended reals no operation rounds, so the
  chain is the specification's `den`.
-/
import proofs.«404593_j6614249636365_1_alg».proof.Proof.Spec
import Idealize.ShloMosaic.PureOps.Ideal
import Idealize.ShloMosaic.PureOps.Ideal.Laws
import Idealize.ShloMosaic.Lib.ValueIdx

noncomputable section

namespace Cert.KerDen

open Idealize.ShloMosaic Idealize.ShloMosaic.ValueIdx

abbrev S_ : Shape := ⟨0, ![]⟩
abbrev S64 : Shape := ⟨1, ![64]⟩

/-- The pattern `0x3F800000` (sign 0, exponent 127, fraction 0) denotes `1`. -/
theorem ofBits_one : Ideal.ofBits .f32 0x3F800000#32 = 1 := by
  simp [Ideal.ofBits, Ideal.ieee, -EReal.coe_mul]; norm_num

/-- The pattern `0x3F000000` (sign 0, exponent 126, fraction 0) denotes `1/2`. -/
theorem ofBits_half : Ideal.ofBits .f32 0x3F000000#32 = (((1 / 2 : ℝ)) : EReal) := by
  simp [Ideal.ofBits, Ideal.ieee, -EReal.coe_mul]; norm_num

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host chain after the kernel call is the specification's normaliser. -/
theorem ker_den (hb : S_.BroadcastsInDim S64 (![] : Fin 0 → Fin S64.rank)) (hr : S64.ReducesTo [0] S_) (h0 : 0 < S_.numel)
    (tl : IVec S64 32) :
    maximumf (F := Ideal)
      (Host.reduceAdd (F := Ideal)
        (mulf (mulf (sitofp (F := Ideal) .f32 tl)
                (subf (sitofp (F := Ideal) .f32 tl)
                  (broadcastInDim S64 ![] hb (constant (F := Ideal) S_ .f32 0x3F800000#32))))
              (broadcastInDim S64 ![] hb (constant (F := Ideal) S_ .f32 0x3F000000#32)))
        (constant (F := Ideal) S_ .f32 0x00000000#32) hr h0)
      (constant (F := Ideal) S_ .f32 0x3F800000#32)
    = fun _ => Cert.Spec.den tl := by
  funext j
  rw [maximumf_apply, constant_apply, ofBits_one]
  have hsum : Host.reduceAdd (F := Ideal)
        (mulf (mulf (sitofp (F := Ideal) .f32 tl)
                (subf (sitofp (F := Ideal) .f32 tl)
                  (broadcastInDim S64 ![] hb (constant (F := Ideal) S_ .f32 0x3F800000#32))))
              (broadcastInDim S64 ![] hb (constant (F := Ideal) S_ .f32 0x3F000000#32)))
        (constant (F := Ideal) S_ .f32 0x00000000#32) hr h0 j
      = ∑ b : Fin 64, Cert.Spec.tlen tl b * (Cert.Spec.tlen tl b - 1) * (((1 / 2 : ℝ)) : EReal) := by
    simp only [Host.reduceAdd, Ideal.hostReduceAdd_def]
    rw [Ideal.hostReduceAdd_total hr (fun b => b.elim0), constant_apply, Ideal.ofBits_zero_f32, zero_add, sum_idx1]
    refine Finset.sum_congr rfl fun b _ => ?_
    rw [mulf_apply, mulf_apply, subf_apply, sitofp_apply]
    show _ * (_ - Ideal.ofBits .f32 0x3F800000#32) * Ideal.ofBits .f32 0x3F000000#32 = _
    rw [ofBits_one, ofBits_half]
    rfl
  rw [hsum]
  rfl

end Cert.KerDen

end
-- ==== Proof.KTail.lean ====
/-
  The host operations of the kernel program's @main around its one region, as values.

  Before the region: the turn lengths are the row sums of the mask, the two windows of the weights are its two halves,
  and no operation writes an argument. Across the region: the table of turn lengths and the arguments come back as they
  went in, and the output array holds what the pipeline's write-backs leave. After the region: the result is the sum of
  the output array divided by the normaliser computed from the turn lengths; over the extended reals the normaliser is
  the specification's. The arguments' buffers end as launched.
-/
import proofs.«404593_j6614249636365_1_alg».proof.Proof.KRun
import proofs.«404593_j6614249636365_1_alg».proof.Proof.KerDen
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Values

variable (m : (ℓ : Loc nD τ sig) → Buf (Elt F) ℓ) (c : Dev nD)

/-! ## Before the region -/

/-- The turn lengths: the mask's rows summed from zero. -/
theorem W1_v0 : W1 m c (Proc.devRef .tc main_v0)
    = Host.reduce IntOp.addi (m ((c : Thread nD τ).loc main_arg1)) (constantI S_ 32 0#32) reducesTo_S64x128_S64_d1 h_S_ := by
  show StableHlo.after hostOps0 (fun b => m (c, b)) (Proc.devRef .tc main_v0) = _
  after_results

/-- The first half of the weights. -/
theorem W1_v1 : W1 m c (Proc.devRef .tc main_v1)
    = extractStridedSlice S2048x2 ![0, 0] (m ((c : Thread nD τ).loc main_arg2)) slices_S4096x2_S2048x2_0_0 := by
  show StableHlo.after hostOps0 (fun b => m (c, b)) (Proc.devRef .tc main_v1) = _
  after_results

/-- The second half of the weights. -/
theorem W1_v2 : W1 m c (Proc.devRef .tc main_v2)
    = extractStridedSlice S2048x2 ![2048, 0] (m ((c : Thread nD τ).loc main_arg2)) slices_S4096x2_S2048x2_2048_0 := by
  show StableHlo.after hostOps0 (fun b => m (c, b)) (Proc.devRef .tc main_v2) = _
  after_results

/-- No host operation before the region writes an argument. -/
theorem W1_arg0 : W1 m c (Proc.devRef .tc main_arg0) = m ((c : Thread nD τ).loc main_arg0) := by
  show StableHlo.after hostOps0 (fun b => m (c, b)) (Proc.devRef .tc main_arg0) = _
  after_results
theorem W1_arg1 : W1 m c (Proc.devRef .tc main_arg1) = m ((c : Thread nD τ).loc main_arg1) := by
  show StableHlo.after hostOps0 (fun b => m (c, b)) (Proc.devRef .tc main_arg1) = _
  after_results
theorem W1_arg2 : W1 m c (Proc.devRef .tc main_arg2) = m ((c : Thread nD τ).loc main_arg2) := by
  show StableHlo.after hostOps0 (fun b => m (c, b)) (Proc.devRef .tc main_arg2) = _
  after_results
theorem W1_arg3 : W1 m c (Proc.devRef .tc main_arg3) = m ((c : Thread nD τ).loc main_arg3) := by
  show StableHlo.after hostOps0 (fun b => m (c, b)) (Proc.devRef .tc main_arg3) = _
  after_results

/-! ## Across the region -/

/-- The table of turn lengths is no window's array: the region leaves it as it was. -/
theorem W2_v0 : W2 m c (Proc.devRef .tc main_v0) = W1 m c (Proc.devRef .tc main_v0) :=
  W2_of_ne m c main_v0 (by decide)

/-- The output array holds what the pipeline's write-backs leave. -/
theorem W2_v3 : W2 m c (Proc.devRef .tc main_v3) = (dat0 (V1 m) c).arrAt 4 (cfgM (V1 m)).N :=
  W2_arr m c 4

/-- The encoder output and the bias are input windows' arrays, never written; the mask and the weights are no window's array. -/
theorem W2_arg0 : W2 m c (Proc.devRef .tc main_arg0) = m ((c : Thread nD τ).loc main_arg0) :=
  (W2_arr m c 0).trans ((((dat0 (V1 m) c).arrAt_in 0 rfl _).trans (A_eq (V1 m) c 0)).trans (W1_arg0 m c))
theorem W2_arg1 : W2 m c (Proc.devRef .tc main_arg1) = m ((c : Thread nD τ).loc main_arg1) :=
  (W2_of_ne m c main_arg1 (by decide)).trans (W1_arg1 m c)
theorem W2_arg2 : W2 m c (Proc.devRef .tc main_arg2) = m ((c : Thread nD τ).loc main_arg2) :=
  (W2_of_ne m c main_arg2 (by decide)).trans (W1_arg2 m c)
theorem W2_arg3 : W2 m c (Proc.devRef .tc main_arg3) = m ((c : Thread nD τ).loc main_arg3) :=
  (W2_arr m c 3).trans ((((dat0 (V1 m) c).arrAt_in 3 rfl _).trans (A_eq (V1 m) c 3)).trans (W1_arg3 m c))

/-! ## After the region -/

/-- The result: the output array's sum from zero, divided by the normaliser computed from the turn lengths. -/
theorem W3_v13 : W3 m c (Proc.devRef .tc main_v13)
    = (Host.divf
        (Host.reduceAdd (W2 m c (Proc.devRef .tc main_v3) : (⟨S64x1x128, .f32⟩ : BufTy).Contents (Elt F))
          (constant S_ .f32 0x00000000#32) reducesTo_S64x1x128_S_d0_1_2 h_S_)
        (maximumf
          (Host.reduceAdd
            (mulf (mulf (sitofp .f32 (W2 m c (Proc.devRef .tc main_v0) : (⟨S64, .i32⟩ : BufTy).Contents (Elt F)))
                    (subf (sitofp .f32 (W2 m c (Proc.devRef .tc main_v0) : (⟨S64, .i32⟩ : BufTy).Contents (Elt F)))
                      (broadcastInDim S64 ![] bcast_S_S64 (constant S_ .f32 0x3F800000#32))))
                  (broadcastInDim S64 ![] bcast_S_S64 (constant S_ .f32 0x3F000000#32)))
            (constant S_ .f32 0x00000000#32) reducesTo_S64_S_d0 h_S_)
          (constant S_ .f32 0x3F800000#32)) : (⟨S_, .f32⟩ : BufTy).Contents (Elt F)) := by
  show StableHlo.after hostOps1 (W2 m c) (Proc.devRef .tc main_v13) = _
  after_results

/-- No host operation after the region writes an argument. -/
theorem W3_arg0 : W3 m c (Proc.devRef .tc main_arg0) = W2 m c (Proc.devRef .tc main_arg0) := by
  show StableHlo.after hostOps1 (W2 m c) (Proc.devRef .tc main_arg0) = _
  after_results
theorem W3_arg1 : W3 m c (Proc.devRef .tc main_arg1) = W2 m c (Proc.devRef .tc main_arg1) := by
  show StableHlo.after hostOps1 (W2 m c) (Proc.devRef .tc main_arg1) = _
  after_results
theorem W3_arg2 : W3 m c (Proc.devRef .tc main_arg2) = W2 m c (Proc.devRef .tc main_arg2) := by
  show StableHlo.after hostOps1 (W2 m c) (Proc.devRef .tc main_arg2) = _
  after_results
theorem W3_arg3 : W3 m c (Proc.devRef .tc main_arg3) = W2 m c (Proc.devRef .tc main_arg3) := by
  show StableHlo.after hostOps1 (W2 m c) (Proc.devRef .tc main_arg3) = _
  after_results

/-- Each argument's buffer at the last valuation holds its launch contents. -/
theorem W3_arg0_eq : W3 m c (Proc.devRef .tc main_arg0) = m ((c : Thread nD τ).loc main_arg0) := (W3_arg0 m c).trans (W2_arg0 m c)
theorem W3_arg1_eq : W3 m c (Proc.devRef .tc main_arg1) = m ((c : Thread nD τ).loc main_arg1) := (W3_arg1 m c).trans (W2_arg1 m c)
theorem W3_arg2_eq : W3 m c (Proc.devRef .tc main_arg2) = m ((c : Thread nD τ).loc main_arg2) := (W3_arg2 m c).trans (W2_arg2 m c)
theorem W3_arg3_eq : W3 m c (Proc.devRef .tc main_arg3) = m ((c : Thread nD τ).loc main_arg3) := (W3_arg3 m c).trans (W2_arg3 m c)

end Values

/-! ## Over the extended reals -/

/-- Over the extended reals the divisor is the specification's normaliser of the mask's row sums. -/
theorem W3_v13_ideal (m : (ℓ : Loc nD τ sig) → Buf (Elt Ideal) ℓ) (c : Dev nD) :
    W3 (F := Ideal) m c (Proc.devRef .tc main_v13)
    = (Host.divf (F := Ideal)
        (Host.reduceAdd (F := Ideal) (W2 m c (Proc.devRef .tc main_v3) : (⟨S64x1x128, .f32⟩ : BufTy).Contents (Elt Ideal))
          (constant (F := Ideal) S_ .f32 0x00000000#32) reducesTo_S64x1x128_S_d0_1_2 h_S_)
        (fun _ => Cert.Spec.den (Host.reduce IntOp.addi (m ((c : Thread nD τ).loc main_arg1)) (constantI S_ 32 0#32) reducesTo_S64x128_S64_d1 h_S_))
        : (⟨S_, .f32⟩ : BufTy).Contents (Elt Ideal)) := by
  rw [W3_v13, W2_v0, W1_v0]
  exact congrArg (Host.divf (F := Ideal) _) (Cert.KerDen.ker_den bcast_S_S64 reducesTo_S64_S_d0 h_S_ _)

/-! ## The frame -/

/-- At the compiled mesh, for any float values, from any memory with zero counters: every weakly fair execution of @main
    terminates, nothing faulting, and the four arguments' buffers end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_arg0_eq m c),
     (h c _ (mem_uc main_arg1 (by decide))).trans (W3_arg1_eq m c),
     (h c _ (mem_uc main_arg2 (by decide))).trans (W3_arg2_eq m c),
     (h c _ (mem_uc main_arg3 (by decide))).trans (W3_arg3_eq m c)⟩) (run_main m ρ)

end Cert.Kernel.Hand

end
-- ==== Proof.KIBody.lean ====
/-
  The body of the one pallas_call of `KernelIdeal`, at every grid point, for any float values: the proof data of the
  pipeline and its body obligation.

  The call runs over the 64 batches. Its windows: 0 the batch's [1, 128, 2048] block of the encoder output, 1 and 2
  the two [2048, 2] halves of the weights, 3 the bias, each fetched and only read; 4 the batch's [1, 1, 128] row of
  the result, written whole by the body's one store. The turn lengths are a prefetched table in scalar memory, of
  which the body loads the batch's word; the region hands the body the table whole and takes it back unchanged.
  The body also loads the output's staging buffer before it stores into it and uses nothing of what it read, so the
  buffer may hold anything on entry.

  Stated at a PARAMETER `V`, the TensorCore's buffer contents when the region is entered: what each input's staging
  buffer holds at a point is the window's block of `V`'s array there, and what the body leaves in the output's is the
  read-back of the pieces its run stores.
-/
import proofs.«404593_j6614249636365_1_alg».proof.Proof.Gen.KernelIdeal.Launch
import proofs.«404593_j6614249636365_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The prefetched table and the pipeline at its contents -/

/-- The table's contents when the region is entered (there is one device). -/
def tbl : pre0.Contents (Elt F) := fun j => V (0 : Dev nD) (pre0.ref j)

/-- On every device the table holds those contents. -/
theorem V_pre (c : Dev nD) (j : Fin 1) : V c (pre0.ref j) = tbl V j := by
  obtain rfl : c = 0 := Subsingleton.elim _ _; rfl

/-- No index map reads the table, so every contents is admissible. -/
abbrev adm0 : (pcfg0 (F := F)).Adm := ⟨tbl V, trivial⟩
/-- The pipeline at the table's contents. -/
abbrev cfgM : Pipeline.Cfg sig Λ₀ := cfg0 (adm0 V)

/-- The table as the body is handed it: its whole buffer as a memref. -/
abbrev tbM : Memref sig .tc .smem S64 .i32 := Memref.whole main_v0
abbrev htbM : tbM.IsWhole := Memref.isWhole_whole _
abbrev TbBuf (c : Dev nD) : Type := Buf (Elt F) (tbM.view.loc (c : Thread nD τ))
/-- The table's buffer on core `c`, whole at the full share, at `f`. -/
abbrev tbPt (c : Dev nD) (f : TbBuf (F := F) c) : sProp 𝕄 :=
  tbM.view.loc (c : Thread nD τ) ↦{fullShare} f

/-- The table held whole, as the one points-to it is. -/
theorem prefHeld_eq (c : Dev nD) :
    (Pipeline.prefHeld (Ix := Unit) (Name := ℕ) (U := UR sig nD τ) (Lvl := ℕ) pre0 c (fun _ => fullShare) (tbl V) : sProp 𝕄)
      = tbPt c (tbl V 0) := by
  unfold Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM V).W) (t : Fin (cfgM V).N) :
    (((cfgM V).win w).xblock ((cfgM V).grid.coords t)).Idx → Elt F ((cfgM V).win w).elt :=
  (((cfgM V).win w).blk t).view.read (Elt F) (V c (Pipeline.arrRef spec0 w))

/-- An input window's current staging buffer holds its block at every point, fetched there or not: where it is not
    fetched its block index has not moved. -/
theorem before_of_0 {c : Dev nD} (dat : Dat τ (Elt F) Unit ℕ (UR sig nD τ) ℕ (cfgM V) c) (hA : dat.A 0 = V c (Pipeline.arrRef spec0 0))
    (hafter : ∀ t, dat.after 0 t = iblk V c 0 t) (t : Fin (cfgM V).N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ (cfgM V) c) (hA : dat.A 1 = V c (Pipeline.arrRef spec0 1))
    (hafter : ∀ t, dat.after 1 t = iblk V c 1 t) (t : Fin (cfgM V).N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ (cfgM V) c) (hA : dat.A 2 = V c (Pipeline.arrRef spec0 2))
    (hafter : ∀ t, dat.after 2 t = iblk V c 2 t) (t : Fin (cfgM V).N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ (cfgM V) c) (hA : dat.A 3 = V c (Pipeline.arrRef spec0 3))
    (hafter : ∀ t, dat.after 3 t = iblk V c 3 t) (t : Fin (cfgM V).N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, and the body as the pipeline calls it there -/

abbrev ms0 (t : Fin (cfgM V).N) : Memref sig .tc .vmem S1x128x2048 .f32 := spec0_0.stage ((cfgM V).slots t 0)
abbrev hs0 (t : Fin (cfgM V).N) : (ms0 V t).IsWhole := hstage0_0 (((cfgM V).slots t 0).cast nbuf0_0)
abbrev ms1 (t : Fin (cfgM V).N) : Memref sig .tc .vmem S2048x2 .f32 := spec0_1.stage ((cfgM V).slots t 1)
abbrev hs1 (t : Fin (cfgM V).N) : (ms1 V t).IsWhole := hstage0_1 (((cfgM V).slots t 1).cast nbuf0_1)
abbrev ms2 (t : Fin (cfgM V).N) : Memref sig .tc .vmem S2048x2 .f32 := spec0_2.stage ((cfgM V).slots t 2)
abbrev hs2 (t : Fin (cfgM V).N) : (ms2 V t).IsWhole := hstage0_2 (((cfgM V).slots t 2).cast nbuf0_2)
abbrev ms3 (t : Fin (cfgM V).N) : Memref sig .tc .vmem S2 .f32 := spec0_3.stage ((cfgM V).slots t 3)
abbrev hs3 (t : Fin (cfgM V).N) : (ms3 V t).IsWhole := hstage0_3 (((cfgM V).slots t 3).cast nbuf0_3)
abbrev ms4 (t : Fin (cfgM V).N) : Memref sig .tc .vmem S1x1x128 .f32 := spec0_4.stage ((cfgM V).slots t 4)
abbrev hs4 (t : Fin (cfgM V).N) : (ms4 V t).IsWhole := hstage0_4 (((cfgM V).slots t 4).cast nbuf0_4)

/-- The kernel body at point `t`, on what the pipeline calls it with. -/
abbrev bodyAt (t : Fin (cfgM V).N) : Prog (TpuEff nD τ sig (Elt F) Λ₀ .tc) PUnit :=
  cc0__loss_kernel (grid0.coords t) (Memref.whole main_v0) (Memref.isWhole_whole _) (ms0 V t) (hs0 V t) (ms1 V t) (hs1 V t) (ms2 V t) (hs2 V t) (ms3 V t) (hs3 V t) (ms4 V t) (hs4 V t)

/-! ## The body's run on any staging memrefs -/

/-- One staging buffer of the output window, through which its contents are stated (the choice does not matter). -/
abbrev VO : View sig .tc .vmem S1x1x128 .f32 := (Memref.whole cc0_stg4_0 : Memref sig .tc .vmem S1x1x128 .f32).view

set_option maxHeartbeats 4000000 in
/-- The pieces the body's stores leave in the output's staging memref, WITH the proof that on whole staging memrefs — the
    four inputs' at their contents, the output's at anything, the table whole at its contents — the body runs to the
    continuation holding the inputs' and the table as they were and the output's buffer with those pieces written. -/
noncomputable def kernelRun (c : Dev nD) (i : grid0.Coords)
    (arg2 : Memref sig .tc .vmem S1x128x2048 .f32) (harg2 : arg2.IsWhole) (arg3 : Memref sig .tc .vmem S2048x2 .f32) (harg3 : arg3.IsWhole)
    (arg4 : Memref sig .tc .vmem S2048x2 .f32) (harg4 : arg4.IsWhole) (arg5 : Memref sig .tc .vmem S2 .f32) (harg5 : arg5.IsWhole)
    (arg6 : Memref sig .tc .vmem S1x1x128 .f32) (harg6 : arg6.IsWhole)
    (x0 : Vec F S1x128x2048 .f32) (x1 : Vec F S2048x2 .f32) (x2 : Vec F S2048x2 .f32) (x3 : Vec F S2 .f32) (xt : TbBuf (F := F) c) :
    { L : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ tbPt c xt
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L) ∗ tbPt c xt) -∗ K ⟨⟩))
          ⊢ wp frame (wpE (defs₀ (F := F)) Variants.none c none) E (cc0__loss_kernel i tbM htbM arg2 harg2 arg3 harg3 arg4 harg4 arg5 harg5 arg6 harg6) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, HT, Hk⟩
    obtain rfl := harg2.eq_unread hf0
    obtain rfl := harg3.eq_unread hf1
    obtain rfl := harg4.eq_unread hf2
    obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexact HT

/-- The run's pieces include a store of the whole block, so they cover it. -/
theorem cover (c : Dev nD) (i : grid0.Coords)
    (arg2 : Memref sig .tc .vmem S1x128x2048 .f32) (harg2 : arg2.IsWhole) (arg3 : Memref sig .tc .vmem S2048x2 .f32) (harg3 : arg3.IsWhole)
    (arg4 : Memref sig .tc .vmem S2048x2 .f32) (harg4 : arg4.IsWhole) (arg5 : Memref sig .tc .vmem S2 .f32) (harg5 : arg5.IsWhole)
    (arg6 : Memref sig .tc .vmem S1x1x128 .f32) (harg6 : arg6.IsWhole)
    (x0 : Vec F S1x128x2048 .f32) (x1 : Vec F S2048x2 .f32) (x2 : Vec F S2048x2 .f32) (x3 : Vec F S2 .f32) (xt : TbBuf (F := F) c) (y : S1x1x128.Idx) :
    ∃ pc ∈ (kernelRun c i arg2 harg2 arg3 harg3 arg4 harg4 arg5 harg5 arg6 harg6 x0 x1 x2 x3 xt).1, y ∈ pc.1.set :=
  View.cover_of_wholeMem (kernelRun c i arg2 harg2 arg3 harg3 arg4 harg4 arg5 harg5 arg6 harg6 x0 x1 x2 x3 xt).1 (by sl_whole_mem) y

/-- What the run leaves in the output's staging buffer: its pieces read back over anything. -/
def outBlk (c : Dev nD) (i : grid0.Coords)
    (arg2 : Memref sig .tc .vmem S1x128x2048 .f32) (harg2 : arg2.IsWhole) (arg3 : Memref sig .tc .vmem S2048x2 .f32) (harg3 : arg3.IsWhole)
    (arg4 : Memref sig .tc .vmem S2048x2 .f32) (harg4 : arg4.IsWhole) (arg5 : Memref sig .tc .vmem S2 .f32) (harg5 : arg5.IsWhole)
    (arg6 : Memref sig .tc .vmem S1x1x128 .f32) (harg6 : arg6.IsWhole)
    (x0 : Vec F S1x128x2048 .f32) (x1 : Vec F S2048x2 .f32) (x2 : Vec F S2048x2 .f32) (x3 : Vec F S2 .f32) (xt : TbBuf (F := F) c) : Vec F S1x1x128 .f32 :=
  VO.read (Elt F) (VO.writes (Elt F) VO.junk (kernelRun c i arg2 harg2 arg3 harg3 arg4 harg4 arg5 harg5 arg6 harg6 x0 x1 x2 x3 xt).1)

/-! ## What the output holds after each point, and the proof data -/

/-- What the output's staging buffer holds after the body at point `t`: the run's contents at the point's memrefs, the
    input windows' blocks there and the table. -/
def outsAt (c : Dev nD) (t : Fin (cfgM V).N) : Vec F S1x1x128 .f32 :=
  outBlk c (grid0.coords t) (ms0 V t) (hs0 V t) (ms1 V t) (hs1 V t) (ms2 V t) (hs2 V t) (ms3 V t) (hs3 V t) (ms4 V t) (hs4 V t)
    (iblk V c 0 t) (iblk V c 1 t) (iblk V c 2 t) (iblk V c 3 t) (tbl V 0)

/-- The proof data of the pipeline on core `c`: the arrays as the region finds them; after the body at point `t` each
    input's buffer at its block and the output's at `outsAt`; the invariant: the scoped rest, the generator register and
    the table whole; nothing owed; full shares. -/
def dat0 (c : Dev nD) : Dat τ (Elt F) Unit ℕ (UR sig nD τ) ℕ (cfgM V) c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outsAt V c t
  Φ _ := iprop(Pipeline.ΦA spec0 c ∗ tbPt c (tbl V 0))
  q _ := fullShare
  owed _ := 0

theorem A_eq (c : Dev nD) (w : Fin (cfgM V).W) : (dat0 V c).A w = V c (Pipeline.arrRef spec0 w) := by
  dsimp only [dat0]

theorem after_0 (c : Dev nD) (t : Fin (cfgM V).N) : (dat0 V c).after 0 t = iblk V c 0 t := by dsimp only [dat0]; try rfl
theorem after_1 (c : Dev nD) (t : Fin (cfgM V).N) : (dat0 V c).after 1 t = iblk V c 1 t := by dsimp only [dat0]; try rfl
theorem after_2 (c : Dev nD) (t : Fin (cfgM V).N) : (dat0 V c).after 2 t = iblk V c 2 t := by dsimp only [dat0]; try rfl
theorem after_3 (c : Dev nD) (t : Fin (cfgM V).N) : (dat0 V c).after 3 t = iblk V c 3 t := by dsimp only [dat0]; try rfl
theorem after_4 (c : Dev nD) (t : Fin (cfgM V).N) : (dat0 V c).after 4 t = outsAt V c t := by dsimp only [dat0]; try rfl

theorem before_0 (c : Dev nD) (t : Fin (cfgM V).N) (d) : (dat0 V c).before 0 t d = iblk V c 0 t :=
  before_of_0 V (dat0 V c) (A_eq V c 0) (after_0 V c) t d
theorem before_1 (c : Dev nD) (t : Fin (cfgM V).N) (d) : (dat0 V c).before 1 t d = iblk V c 1 t :=
  before_of_1 V (dat0 V c) (A_eq V c 1) (after_1 V c) t d
theorem before_2 (c : Dev nD) (t : Fin (cfgM V).N) (d) : (dat0 V c).before 2 t d = iblk V c 2 t :=
  before_of_2 V (dat0 V c) (A_eq V c 2) (after_2 V c) t d
theorem before_3 (c : Dev nD) (t : Fin (cfgM V).N) (d) : (dat0 V c).before 3 t d = iblk V c 3 t :=
  before_of_3 V (dat0 V c) (A_eq V c 3) (after_3 V c) t d

/-! ## The body obligation, at a generic point -/

/-- What the body is called with at point `t`, the windows one by one, -/
def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d))
    ∗ (∃ d, owns (c : Thread nD τ) (ms2 V t) fullShare ((dat0 V c).before 2 t d))
    ∗ (∃ d, owns (c : Thread nD τ) (ms3 V t) fullShare ((dat0 V c).before 3 t d))
    ∗ (∃ d, owns (c : Thread nD τ) (ms4 V t) fullShare ((dat0 V c).before 4 t d)))

/-- and what it returns. -/
def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t)
    ∗ owns (c : Thread nD τ) (ms2 V t) fullShare ((dat0 V c).after 2 t)
    ∗ owns (c : Thread nD τ) (ms3 V t) fullShare ((dat0 V c).after 3 t)
    ∗ owns (c : Thread nD τ) (ms4 V t) fullShare ((dat0 V c).after 4 t))

/-- The body at any point: the inputs' memrefs hold their blocks, so the run applies; the scoped rest, the generator
    register and the core's dues pass through unread; the table goes in and comes back. -/
theorem sound_body (c : Dev nD) (t : Fin (cfgM V).N) :
    bodyPre V c t ⊢ wp frame (wpE (defs₀ (F := F)) Variants.none c none) Set.univ (bodyAt V t) (fun _ => bodyPost V c t) := by
  unfold bodyPre bodyPost bodyAt
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4]
  rw [show (dat0 V c).Φ t.castSucc = iprop(Pipeline.ΦA spec0 c ∗ tbPt c (tbl V 0)) from rfl]
  unfold outsAt
  unfold outBlk
  iintro ⟨⟨HΦ, HT⟩, Ho, ⟨%d0, H0⟩, ⟨%d1, H1⟩, ⟨%d2, H2⟩, ⟨%d3, H3⟩, ⟨%d4, H4⟩⟩
  iapply ((kernelRun c (grid0.coords t) _ _ _ _ _ _ _ _ _ _ (iblk V c 0 t) (iblk V c 1 t) (iblk V c 2 t) (iblk V c 3 t) (tbl V 0)).2 Set.univ _)
  isplitl [H0]; · iexact H0
  isplitl [H1]; · iexact H1
  isplitl [H2]; · iexact H2
  isplitl [H3]; · iexact H3
  isplitl [H4]; · iexists _; iexact H4
  isplitl [HT]; · iexact HT
  iintro ⟨H0, H1, H2, H3, ⟨%e4, H4⟩, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover c _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KIRun.lean ====
/-
  The run of `KernelIdeal`'s @main, for any float values: four host operations (the turn lengths, the two halves of the
  weights), the pallas_call, fifteen host operations (the sum of the kernel's rows, the normaliser, their quotient).

  @main is read as three segments. Between them the core holds every unscoped buffer whole at a named valuation: the
  launch contents; after the first stretch; after the region, whose output array holds what its write-backs leave and
  every other buffer what it held (the table of turn lengths goes into the region whole and comes back unchanged, so
  the stretch after the region reads it again); after the second stretch. The conclusion names every unscoped buffer's
  final contents by that last valuation; the arguments' buffers are read back through it to their launch contents.
-/
import proofs.«404593_j6614249636365_1_alg».proof.Proof.KIBody
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the first stretch of host operations (the region's entry). -/
abbrev W1 : Dev nD → Valuation τ sig (Elt F) := fun c => StableHlo.after hostOps0 (W0 m c)
/-- The same read at the TensorCore's references (what the region's proof data take). -/
abbrev V1 : (c : Dev nD) → (b : Ref sig .tc) → Buf (Elt F) ((c : Thread nD τ).loc b) := fun c b => W1 m c b
/-- At the region's exit: its arrays at what the pipeline leaves, every other buffer as entered. -/
def W2 (c : Dev nD) : Valuation τ sig (Elt F) :=
  Pipeline.withArrays spec0 c (W1 m c) fun w => (dat0 (V1 m) c).arrAt w (cfgM (V1 m)).N
theorem W2_arr (c : Dev nD) (w : Fin (cfgM (V1 m)).W) :
    W2 m c (Proc.devRef .tc (Pipeline.arrRef spec0 w)) = (dat0 (V1 m) c).arrAt w (cfgM (V1 m)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF (c : Dev nD) (w : Fin (cfgM (V1 m)).W) : (dat0 (V1 m) c).arrAt w (cfgM (V1 m)).N = V2 m c (Pipeline.arrRef spec0 w) :=
  (W2_arr m c w).symm
theorem hrest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second stretch of host operations (the return). -/
abbrev W3 : Dev nD → Valuation τ sig (Elt F) := fun c => StableHlo.after hostOps1 (W2 m c)

/-! ## The proof data family and the thread state -/

/-- The prefetched table's admissible contents: what it holds when the region is entered. -/
abbrev adm : (p : Fin 1) → (pcfgs (F := F) p).Adm := fun _ => adm0 (V1 m)
/-- The one pipeline's proof data, at its region's entry contents. -/
def pdats : (p : Fin 1) → (c : Dev nD) → Dat τ (Elt F) Unit ℕ (UR sig nD τ) ℕ (Pipeline.pin (pcfgs (F := F)) (adm m) p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register at some state. -/
abbrev Tₙ (c : Dev nD) : sProp 𝕄 := iprop(StableHlo.held (c : Thread nD τ) (Pipeline.ucRefs τ sig) (W3 m c) ∗ ∃ r, prngReg c r)

/-- The table's words on core `c` when the region is entered are the admissible contents. -/
theorem hpf (c : Dev nD) : (fun k => V1 m c (pre0.ref k)) = tbl (V1 m) := funext (V_pre (V1 m) c)

/-! ## The region as a segment -/

set_option backward.isDefEq.respectTransparency.types false in
/-- The region over the thread state: entered from every unscoped buffer at `W1`, left at `W2`. Its arrays are split
    out of the unscoped buffers and put back at the exit contents; the table goes into the invariant whole beside the
    generator register and comes back; every other unscoped buffer bypasses the region. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop((∃ r, prngReg c r) ∗ tbPt c (tbl (V1 m) 0))
  Z c := Pipeline.unscopedRestP (Ix := Unit) (Name := ℕ) (U := UR sig nD τ) (Lvl := ℕ) pre0 spec0 c (V1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (V1 m c) fun _ => rfl
    rw [Pipeline.unscopedBufs_held, Pipeline.unscopedRest_split (launch0 (F := F)).pre c (V1 m c), hpf m c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ tbPt c (tbl (V1 m) 0)) from rfl, prefHeld_eq]; unfold Pipeline.ΦA
    iintro ⟨Hp, Ht, Hr⟩
    isplitr [Ht]
    · isplitl [Hr]; · iexact Hr
      iexact Hp
    · iexact Ht
  hout c := by
    rw [Pipeline.ownSems0_none, show (pdats m 0 c).Φ (Fin.last _) = iprop(Pipeline.ΦA spec0 c ∗ tbPt c (tbl (V1 m) 0)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (V1 m c) (V2 m c) ((pdats m 0 c).arrAt · (cfgM (V1 m)).N) (hF m c) (hrest m c)
    rw [Pipeline.unscopedBufs_held, Pipeline.unscopedRest_split (launch0 (F := F)).pre c (V1 m c), hpf m c, prefHeld_eq] at hjoin
    iintro ⟨Ha, HO, ⟨Hp, Ht⟩, Hrest⟩
    imodintro
    isplitl [Ha Hrest Ht]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) (adm m) (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- At the compiled mesh, for any float values, from any memory with zero counters: every weakly fair execution of
    @main on the TensorCores terminates, nothing faulting, and every final state has every unscoped buffer at the last
    valuation `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) (adm m) (pdats m) () (cellOf_inj (adm m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (StableHlo.after hostOps1 (W2 m c)) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.KITail.lean ====
/-
  The host operations of the kernel program's @main around its one region, as values.

  Before the region: the turn lengths are the row sums of the mask, the two windows of the weights are its two halves,
  and no operation writes an argument. Across the region: the table of turn lengths and the arguments come back as they
  went in, and the output array holds what the pipeline's write-backs leave. After the region: the result is the sum of
  the output array divided by the normaliser computed from the turn lengths; over the extended reals the normaliser is
  the specification's. The arguments' buffers end as launched.
-/
import proofs.«404593_j6614249636365_1_alg».proof.Proof.KIRun
import proofs.«404593_j6614249636365_1_alg».proof.Proof.KerDen
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Values

variable (m : (ℓ : Loc nD τ sig) → Buf (Elt F) ℓ) (c : Dev nD)

/-! ## Before the region -/

/-- The turn lengths: the mask's rows summed from zero. -/
theorem W1_v0 : W1 m c (Proc.devRef .tc main_v0)
    = Host.reduce IntOp.addi (m ((c : Thread nD τ).loc main_arg1)) (constantI S_ 32 0#32) reducesTo_S64x128_S64_d1 h_S_ := by
  show StableHlo.after hostOps0 (fun b => m (c, b)) (Proc.devRef .tc main_v0) = _
  after_results

/-- The first half of the weights. -/
theorem W1_v1 : W1 m c (Proc.devRef .tc main_v1)
    = extractStridedSlice S2048x2 ![0, 0] (m ((c : Thread nD τ).loc main_arg2)) slices_S4096x2_S2048x2_0_0 := by
  show StableHlo.after hostOps0 (fun b => m (c, b)) (Proc.devRef .tc main_v1) = _
  after_results

/-- The second half of the weights. -/
theorem W1_v2 : W1 m c (Proc.devRef .tc main_v2)
    = extractStridedSlice S2048x2 ![2048, 0] (m ((c : Thread nD τ).loc main_arg2)) slices_S4096x2_S2048x2_2048_0 := by
  show StableHlo.after hostOps0 (fun b => m (c, b)) (Proc.devRef .tc main_v2) = _
  after_results

/-- No host operation before the region writes an argument. -/
theorem W1_arg0 : W1 m c (Proc.devRef .tc main_arg0) = m ((c : Thread nD τ).loc main_arg0) := by
  show StableHlo.after hostOps0 (fun b => m (c, b)) (Proc.devRef .tc main_arg0) = _
  after_results
theorem W1_arg1 : W1 m c (Proc.devRef .tc main_arg1) = m ((c : Thread nD τ).loc main_arg1) := by
  show StableHlo.after hostOps0 (fun b => m (c, b)) (Proc.devRef .tc main_arg1) = _
  after_results
theorem W1_arg2 : W1 m c (Proc.devRef .tc main_arg2) = m ((c : Thread nD τ).loc main_arg2) := by
  show StableHlo.after hostOps0 (fun b => m (c, b)) (Proc.devRef .tc main_arg2) = _
  after_results
theorem W1_arg3 : W1 m c (Proc.devRef .tc main_arg3) = m ((c : Thread nD τ).loc main_arg3) := by
  show StableHlo.after hostOps0 (fun b => m (c, b)) (Proc.devRef .tc main_arg3) = _
  after_results

/-! ## Across the region -/

/-- The table of turn lengths is no window's array: the region leaves it as it was. -/
theorem W2_v0 : W2 m c (Proc.devRef .tc main_v0) = W1 m c (Proc.devRef .tc main_v0) :=
  W2_of_ne m c main_v0 (by decide)

/-- The output array holds what the pipeline's write-backs leave. -/
theorem W2_v3 : W2 m c (Proc.devRef .tc main_v3) = (dat0 (V1 m) c).arrAt 4 (cfgM (V1 m)).N :=
  W2_arr m c 4

/-- The encoder output and the bias are input windows' arrays, never written; the mask and the weights are no window's array. -/
theorem W2_arg0 : W2 m c (Proc.devRef .tc main_arg0) = m ((c : Thread nD τ).loc main_arg0) :=
  (W2_arr m c 0).trans ((((dat0 (V1 m) c).arrAt_in 0 rfl _).trans (A_eq (V1 m) c 0)).trans (W1_arg0 m c))
theorem W2_arg1 : W2 m c (Proc.devRef .tc main_arg1) = m ((c : Thread nD τ).loc main_arg1) :=
  (W2_of_ne m c main_arg1 (by decide)).trans (W1_arg1 m c)
theorem W2_arg2 : W2 m c (Proc.devRef .tc main_arg2) = m ((c : Thread nD τ).loc main_arg2) :=
  (W2_of_ne m c main_arg2 (by decide)).trans (W1_arg2 m c)
theorem W2_arg3 : W2 m c (Proc.devRef .tc main_arg3) = m ((c : Thread nD τ).loc main_arg3) :=
  (W2_arr m c 3).trans ((((dat0 (V1 m) c).arrAt_in 3 rfl _).trans (A_eq (V1 m) c 3)).trans (W1_arg3 m c))

/-! ## After the region -/

/-- The result: the output array's sum from zero, divided by the normaliser computed from the turn lengths. -/
theorem W3_v13 : W3 m c (Proc.devRef .tc main_v13)
    = (Host.divf
        (Host.reduceAdd (W2 m c (Proc.devRef .tc main_v3) : (⟨S64x1x128, .f32⟩ : BufTy).Contents (Elt F))
          (constant S_ .f32 0x00000000#32) reducesTo_S64x1x128_S_d0_1_2 h_S_)
        (maximumf
          (Host.reduceAdd
            (mulf (mulf (sitofp .f32 (W2 m c (Proc.devRef .tc main_v0) : (⟨S64, .i32⟩ : BufTy).Contents (Elt F)))
                    (subf (sitofp .f32 (W2 m c (Proc.devRef .tc main_v0) : (⟨S64, .i32⟩ : BufTy).Contents (Elt F)))
                      (broadcastInDim S64 ![] bcast_S_S64 (constant S_ .f32 0x3F800000#32))))
                  (broadcastInDim S64 ![] bcast_S_S64 (constant S_ .f32 0x3F000000#32)))
            (constant S_ .f32 0x00000000#32) reducesTo_S64_S_d0 h_S_)
          (constant S_ .f32 0x3F800000#32)) : (⟨S_, .f32⟩ : BufTy).Contents (Elt F)) := by
  show StableHlo.after hostOps1 (W2 m c) (Proc.devRef .tc main_v13) = _
  after_results

/-- No host operation after the region writes an argument. -/
theorem W3_arg0 : W3 m c (Proc.devRef .tc main_arg0) = W2 m c (Proc.devRef .tc main_arg0) := by
  show StableHlo.after hostOps1 (W2 m c) (Proc.devRef .tc main_arg0) = _
  after_results
theorem W3_arg1 : W3 m c (Proc.devRef .tc main_arg1) = W2 m c (Proc.devRef .tc main_arg1) := by
  show StableHlo.after hostOps1 (W2 m c) (Proc.devRef .tc main_arg1) = _
  after_results
theorem W3_arg2 : W3 m c (Proc.devRef .tc main_arg2) = W2 m c (Proc.devRef .tc main_arg2) := by
  show StableHlo.after hostOps1 (W2 m c) (Proc.devRef .tc main_arg2) = _
  after_results
theorem W3_arg3 : W3 m c (Proc.devRef .tc main_arg3) = W2 m c (Proc.devRef .tc main_arg3) := by
  show StableHlo.after hostOps1 (W2 m c) (Proc.devRef .tc main_arg3) = _
  after_results

/-- Each argument's buffer at the last valuation holds its launch contents. -/
theorem W3_arg0_eq : W3 m c (Proc.devRef .tc main_arg0) = m ((c : Thread nD τ).loc main_arg0) := (W3_arg0 m c).trans (W2_arg0 m c)
theorem W3_arg1_eq : W3 m c (Proc.devRef .tc main_arg1) = m ((c : Thread nD τ).loc main_arg1) := (W3_arg1 m c).trans (W2_arg1 m c)
theorem W3_arg2_eq : W3 m c (Proc.devRef .tc main_arg2) = m ((c : Thread nD τ).loc main_arg2) := (W3_arg2 m c).trans (W2_arg2 m c)
theorem W3_arg3_eq : W3 m c (Proc.devRef .tc main_arg3) = m ((c : Thread nD τ).loc main_arg3) := (W3_arg3 m c).trans (W2_arg3 m c)

end Values

/-! ## Over the extended reals -/

/-- Over the extended reals the divisor is the specification's normaliser of the mask's row sums. -/
theorem W3_v13_ideal (m : (ℓ : Loc nD τ sig) → Buf (Elt Ideal) ℓ) (c : Dev nD) :
    W3 (F := Ideal) m c (Proc.devRef .tc main_v13)
    = (Host.divf (F := Ideal)
        (Host.reduceAdd (F := Ideal) (W2 m c (Proc.devRef .tc main_v3) : (⟨S64x1x128, .f32⟩ : BufTy).Contents (Elt Ideal))
          (constant (F := Ideal) S_ .f32 0x00000000#32) reducesTo_S64x1x128_S_d0_1_2 h_S_)
        (fun _ => Cert.Spec.den (Host.reduce IntOp.addi (m ((c : Thread nD τ).loc main_arg1)) (constantI S_ 32 0#32) reducesTo_S64x128_S64_d1 h_S_))
        : (⟨S_, .f32⟩ : BufTy).Contents (Elt Ideal)) := by
  rw [W3_v13, W2_v0, W1_v0]
  exact congrArg (Host.divf (F := Ideal) _) (Cert.KerDen.ker_den bcast_S_S64 reducesTo_S64_S_d0 h_S_ _)

/-! ## The frame -/

/-- At the compiled mesh, for any float values, from any memory with zero counters: every weakly fair execution of @main
    terminates, nothing faulting, and the four arguments' buffers end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_arg0_eq m c),
     (h c _ (mem_uc main_arg1 (by decide))).trans (W3_arg1_eq m c),
     (h c _ (mem_uc main_arg2 (by decide))).trans (W3_arg2_eq m c),
     (h c _ (mem_uc main_arg3 (by decide))).trans (W3_arg3_eq m c)⟩) (run_main m ρ)

end Cert.KernelIdeal.Hand

end
-- ==== Proof.KIPiece.lean ====
/-
  What the body of the one pallas_call of `KernelIdeal` leaves in the output window's staging buffer, as a value.

  The body has one store, of the whole [1, 1, 128] block, so the pieces its run leaves read back as that store's
  payload. The payload's arguments are the word loaded from the prefetched table and the whole-block loads of the
  four input staging buffers; a whole-block load of a buffer reads the buffer's contents, and the loaded word is the
  table's entry at the batch's position, because the offset the body computes from the grid coordinate (a number
  below 64, cast through 32-bit words) is that coordinate.
-/
import proofs.«404593_j6614249636365_1_alg».proof.Proof.KIBody
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The zero offsets of a whole-block access -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The word the body loads from the table -/

/-- The word the body at point `i` loads from the table at contents `xt`: the one element of the table under the
    one-element rectangle at the offset the body computes from the point's coordinate. -/
def tword {c : Dev nD} (i : grid0.Coords) (xt : TbBuf (F := F) c) : Elt F .i32 :=
  tbM.view.readAt (Elt F) (Rect.unit (s := S64) (k0_off1 i) S1.size (k0_off1_inb i)).toLoadRect xt
    (Shape.Idx.first (numel1_S1.symm ▸ Nat.one_pos))

/-! ## The block the body leaves -/

set_option maxHeartbeats 4000000 in
/-- The body's one store covers the whole output block, so what the run leaves there is the store's payload; each of
    its whole-block loads of an input's staging buffer reads that buffer's contents. -/
theorem outBlk_eq (c : Dev nD) (i : grid0.Coords)
    (arg2 : Memref sig .tc .vmem S1x128x2048 .f32) (harg2 : arg2.IsWhole) (arg3 : Memref sig .tc .vmem S2048x2 .f32) (harg3 : arg3.IsWhole)
    (arg4 : Memref sig .tc .vmem S2048x2 .f32) (harg4 : arg4.IsWhole) (arg5 : Memref sig .tc .vmem S2 .f32) (harg5 : arg5.IsWhole)
    (arg6 : Memref sig .tc .vmem S1x1x128 .f32) (harg6 : arg6.IsWhole)
    (x0 : Vec F S1x128x2048 .f32) (x1 : Vec F S2048x2 .f32) (x2 : Vec F S2048x2 .f32) (x3 : Vec F S2 .f32) (xt : TbBuf (F := F) c) :
    outBlk c i arg2 harg2 arg3 harg3 arg4 harg4 arg5 harg5 arg6 harg6 x0 x1 x2 x3 xt
      = k0_pay1 (F := F) (tword i xt) (k0_pay8 x0 x1 x2 x3) (iota .tc S128x128 32 [0] iota_S128x128_d0_w32)
          (iota .tc S128x128 32 [1] iota_S128x128_d1_w32) k0_pay9 (k0_pay10 x0 x1 x2 x3) (Scalar.ofBits .f32 0x00000000#32) := by
  unfold outBlk
  rw [View.read_writes_eq_canon _ _ _ (cover c i arg2 harg2 arg3 harg3 arg4 harg4 arg5 harg5 arg6 harg6 x0 x1 x2 x3 xt)]
  unfold kernelRun
  dsimp only
  sl_unfold_words
  rw [View.canon_unit_zero (S := S1x1x128) hz3]
  simp only [View.readAt_eq_ld, Memref.IsWhole.read_unread, View.ld_unit_zero (S := S1x128x2048) hz3,
    View.ld_unit_zero (S := S2048x2) hz2, View.ld_unit_zero (S := S2) hz1]
  rfl

/-- The offset the body computes is the point's coordinate: a coordinate below 64 is its own 32-bit word. -/
theorem k0_off1_eq (i : grid0.Coords) : k0_off1 i 0 = (i 0).val := by
  have h : (i 0).val < 64 := (i 0).isLt
  show (BitVec.ofNat 32 (i 0).val).toNat = (i 0).val
  rw [BitVec.toNat_ofNat]
  exact Nat.mod_eq_of_lt (by omega)

/-- The loaded word is the table's entry at the point's coordinate. -/
theorem tword_eq {c : Dev nD} (i : grid0.Coords) (xt : TbBuf (F := F) c) :
    tword i xt = (xt : S64.Idx → Elt F .i32) (ix1 ⟨(i 0).val, (i 0).isLt⟩) := by
  unfold tword
  show (xt : S64.Idx → Elt F .i32) ((Rect.unit (s := S64) (k0_off1 i) S1.size (k0_off1_inb i)).emb _) = _
  congr 1
  funext a
  match a with
  | ⟨0, _⟩ =>
    apply Fin.ext
    show k0_off1 i 0 + 1 * 0 = (i 0).val
    rw [k0_off1_eq]; omega

/-! ## At a grid point -/

/-- What the output's staging buffer holds after the body at point `t`: the payload of the windows' blocks there
    and of the table's word at the point's coordinate. -/
theorem outsAt_eq (c : Dev nD) (t : Fin (cfgM V).N) :
    outsAt V c t
      = k0_pay1 (F := F) (tword (c := c) (grid0.coords t) (tbl V 0))
          (k0_pay8 (iblk V c 0 t) (iblk V c 1 t) (iblk V c 2 t) (iblk V c 3 t))
          (iota .tc S128x128 32 [0] iota_S128x128_d0_w32) (iota .tc S128x128 32 [1] iota_S128x128_d1_w32) k0_pay9
          (k0_pay10 (iblk V c 0 t) (iblk V c 1 t) (iblk V c 2 t) (iblk V c 3 t)) (Scalar.ofBits .f32 0x00000000#32) := by
  unfold outsAt
  exact outBlk_eq c (grid0.coords t) (ms0 V t) (hs0 V t) (ms1 V t) (hs1 V t) (ms2 V t) (hs2 V t) (ms3 V t) (hs3 V t)
    (ms4 V t) (hs4 V t) (iblk V c 0 t) (iblk V c 1 t) (iblk V c 2 t) (iblk V c 3 t) (tbl V 0)

/-- On the one-axis grid of 64 points, a point's coordinate is the point. -/
theorem coords0_val (t : Fin (cfgM V).N) : (grid0.coords t 0).val = t.val := by
  have h : t.val < 64 := t.isLt
  show t.val / grid0.stride 0 % 64 = t.val
  rw [show grid0.stride 0 = 1 from by decide, Nat.div_one]
  exact Nat.mod_eq_of_lt h

/-- So the word loaded at point `t` is the table's entry `t`. -/
theorem tword_at (c : Dev nD) (t : Fin (cfgM V).N) :
    tword (c := c) (grid0.coords t) (tbl V 0) = (tbl V 0 : S64.Idx → Elt F .i32) (ix1 ⟨t.val, t.isLt⟩) :=
  (tword_eq (c := c) (grid0.coords t) (tbl V 0)).trans
    (congrArg (fun j : Fin 64 => (tbl V 0 : S64.Idx → Elt F .i32) (ix1 j)) (Fin.ext (coords0_val V t)))

end Cert.KernelIdeal.Hand

end
-- ==== Proof.KIFinal.lean ====
/-
  What the pipeline's windows read and what its write-backs leave, index by index.

  The index maps do not read the table of turn lengths: window 0's block at point t is batch t of the
  [64, 128, 2048] array, windows 1, 2, 3 have one block, their whole array, at every point, and window 4's block at
  point t is row t of the [64, 1, 128] result. A block's coordinate in its array is, on each axis, the block index
  times the block's size plus the coordinate inside the block. So each input's block is a restriction of its array,
  and since the 64 rows of the result are written by 64 different points and tile it, row b of the result after the
  run is what point b left in the output's staging buffer.
-/
import proofs.«404593_j6614249636365_1_alg».proof.Proof.KIRun
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-- The index maps over the grid: windows 0 and 4 move with the point along the leading axis, windows 1, 2, 3 stay. -/
theorem idx_facts : ∀ t : Fin grid0.N,
    cc0_transform_0 (grid0.coords t) 0 = t.val ∧ cc0_transform_0 (grid0.coords t) 1 = 0 ∧ cc0_transform_0 (grid0.coords t) 2 = 0
    ∧ cc0_transform_1 (grid0.coords t) 0 = 0 ∧ cc0_transform_1 (grid0.coords t) 1 = 0
    ∧ cc0_transform_2 (grid0.coords t) 0 = 0 ∧ cc0_transform_2 (grid0.coords t) 1 = 0
    ∧ cc0_transform_3 (grid0.coords t) 0 = 0
    ∧ cc0_transform_4 (grid0.coords t) 0 = t.val ∧ cc0_transform_4 (grid0.coords t) 1 = 0 ∧ cc0_transform_4 (grid0.coords t) 2 = 0 := by
  decide +kernel

/-- Window 0's block at point `t` is batch `t` of the encoder output. -/
theorem iblk0_apply (c : Dev nD) (t : Fin (cfgM V).N) (b : Fin 64) (hb : t.val = b.val) (j : Fin 128) (d : Fin 2048) :
    (iblk V c 0 t : Vec F S1x128x2048 .f32) (ix3 0 j d) = (V c main_arg0 : Vec F S64x128x2048 .f32) (ix3 b j d) := by
  show V c main_arg0 ((((cfgM V).win 0).blk t).view.emb (ix3 0 j d)) = V c main_arg0 (ix3 b j d)
  obtain ⟨e0, e1, e2, -⟩ := idx_facts t
  refine congrArg _ ?_
  funext a; apply Fin.ext
  match a with
  | ⟨0, _⟩ => show cc0_transform_0 (grid0.coords t) 0 * 1 + 1 * 0 = b.val; omega
  | ⟨1, _⟩ => show cc0_transform_0 (grid0.coords t) 1 * 128 + 1 * j.val = j.val; omega
  | ⟨2, _⟩ => show cc0_transform_0 (grid0.coords t) 2 * 2048 + 1 * d.val = d.val; omega

/-- Window 1's block at every point is the whole first half of the weights. -/
theorem iblk1_apply (c : Dev nD) (t : Fin (cfgM V).N) (d : Fin 2048) (e : Fin 2) :
    (iblk V c 1 t : Vec F S2048x2 .f32) (ix2 d e) = (V c main_v1 : Vec F S2048x2 .f32) (ix2 d e) := by
  show V c main_v1 ((((cfgM V).win 1).blk t).view.emb (ix2 d e)) = V c main_v1 (ix2 d e)
  obtain ⟨-, -, -, e0, e1, -⟩ := idx_facts t
  refine congrArg _ ?_
  funext a; apply Fin.ext
  match a with
  | ⟨0, _⟩ => show cc0_transform_1 (grid0.coords t) 0 * 2048 + 1 * d.val = d.val; omega
  | ⟨1, _⟩ => show cc0_transform_1 (grid0.coords t) 1 * 2 + 1 * e.val = e.val; omega

/-- Window 2's block at every point is the whole second half of the weights. -/
theorem iblk2_apply (c : Dev nD) (t : Fin (cfgM V).N) (d : Fin 2048) (e : Fin 2) :
    (iblk V c 2 t : Vec F S2048x2 .f32) (ix2 d e) = (V c main_v2 : Vec F S2048x2 .f32) (ix2 d e) := by
  show V c main_v2 ((((cfgM V).win 2).blk t).view.emb (ix2 d e)) = V c main_v2 (ix2 d e)
  obtain ⟨-, -, -, -, -, e0, e1, -⟩ := idx_facts t
  refine congrArg _ ?_
  funext a; apply Fin.ext
  match a with
  | ⟨0, _⟩ => show cc0_transform_2 (grid0.coords t) 0 * 2048 + 1 * d.val = d.val; omega
  | ⟨1, _⟩ => show cc0_transform_2 (grid0.coords t) 1 * 2 + 1 * e.val = e.val; omega

/-- Window 3's block at every point is the whole bias. -/
theorem iblk3_apply (c : Dev nD) (t : Fin (cfgM V).N) (e : Fin 2) :
    (iblk V c 3 t : Vec F S2 .f32) (ix1 e) = (V c main_arg3 : Vec F S2 .f32) (ix1 e) := by
  show V c main_arg3 ((((cfgM V).win 3).blk t).view.emb (ix1 e)) = V c main_arg3 (ix1 e)
  obtain ⟨-, -, -, -, -, -, -, e0, -⟩ := idx_facts t
  refine congrArg _ ?_
  funext a; apply Fin.ext
  match a with
  | ⟨0, _⟩ => show cc0_transform_3 (grid0.coords t) 0 * 2 + 1 * e.val = e.val; omega

/-! ## The output array after the run -/

/-- The grid has as many points as the result has rows. -/
theorem N_eq : (cfgM V).N = 64 := N_0

/-- The grid point of row `b`. -/
def ptOf (b : Fin 64) : Fin (cfgM V).N := ⟨b.val, by rw [N_eq]; exact b.isLt⟩

/-- The result as one function of its index: row `b` is what point `b` left in the output's staging buffer. -/
def rowsOf (c : Dev nD) : S64x1x128.Idx → Elt F .f32 := fun i => outsAt V c (ptOf V (i 0)) (ix3 0 0 (i 2))

/-- At an index whose row is point `t`'s, it reads what point `t` left. -/
theorem rowsOf_eq (c : Dev nD) (t : Fin (cfgM V).N) (i : S64x1x128.Idx) (h0 : (i 0).val = t.val) :
    rowsOf V c i = outsAt V c t (ix3 0 0 (i 2)) := by
  obtain rfl : t = ptOf V (i 0) := Fin.ext h0.symm
  rfl

/-- The output window's index map and write-backs do not depend on the table's contents. -/
theorem index4 (a : (pcfg0 (F := F)).Adm) (t : Fin grid0.N) : ((cfg0 a).win 4).index t = cc0_transform_4 (grid0.coords t) := rfl

/-- Every point writes its block back: the block index moves at every step. -/
theorem flush4 (a : (pcfg0 (F := F)).Adm) (t : Fin grid0.N) : ((cfg0 a).win 4).flush t = true := by
  rw [Window.flush_eq_flushOf]
  show Window.flushOf grid0 true cc0_transform_4 t = true
  exact (by decide +kernel : ∀ t : Fin grid0.N, Window.flushOf grid0 true cc0_transform_4 t = true) t

/-- An index of the result is in point `t`'s block iff each coordinate is in the block's range on its axis. -/
theorem mem_blk4 (a : (pcfg0 (F := F)).Adm) (t : Fin grid0.N) (i : S64x1x128.Idx) :
    i ∈ (((cfg0 a).win 4).blk t).view.set ↔ ∀ x : Fin 3, ((cfg0 a).win 4).index t x * S1x1x128.size x ≤ (i x).val ∧ (i x).val < ((cfg0 a).win 4).index t x * S1x1x128.size x + S1x1x128.size x := by
  have h1 : (((cfg0 a).win 4).blk t).view.set = (((cfg0 a).win 4).rect t).set := View.set_slice_whole main_v3 _
  rw [h1]
  exact Rect.mem_set_unit

/-- What point `t` writes back is block `t` of the rows. -/
theorem flushed4_eq (c : Dev nD) (t : Fin (cfgM V).N) :
    (dat0 V c).flushed 4 t = (((cfgM V).win 4).blk t).view.read (Elt F) (rowsOf V c) := by
  show ((cfgM V).win 4).cut (grid0.coords t) ((dat0 V c).after 4 t) = _
  rw [after_4]
  refine funext fun (y : S1x1x128.Idx) => ?_
  show outsAt V c t (((cfgM V).win 4).xinj (grid0.coords t) y) = rowsOf V c ((((cfgM V).win 4).blk t).view.emb y)
  obtain ⟨-, -, -, -, -, -, -, -, e0, e1, e2⟩ := idx_facts t
  have y0 : (y 0).val < 1 := (y 0).isLt
  have y1 : (y 1).val < 1 := (y 1).isLt
  have h0 : cc0_transform_4 (grid0.coords t) 0 * 1 + 1 * (y 0).val = t.val := by omega
  refine Eq.trans ?_ (rowsOf_eq V c t ((((cfgM V).win 4).blk t).view.emb y) h0).symm
  refine congrArg _ ?_
  funext x; apply Fin.ext
  match x with
  | ⟨0, _⟩ => show (y 0).val = 0; omega
  | ⟨1, _⟩ => show (y 1).val = 0; omega
  | ⟨2, _⟩ => show (y 2).val = cc0_transform_4 (grid0.coords t) 2 * 128 + 1 * (y 2).val; omega

/-- Every index of the result is in the block of its row's point. -/
theorem cover4 (i : S64x1x128.Idx) :
    ∃ t : Fin (cfgM V).N, ((cfgM V).win 4).flush t = true ∧ i ∈ (((cfgM V).win 4).blk t).view.set := by
  refine ⟨ptOf V (i 0), flush4 (adm0 V) _, ?_⟩
  rw [mem_blk4]
  obtain ⟨-, -, -, -, -, -, -, -, e0, e1, e2⟩ := idx_facts (ptOf V (i 0))
  have e0' : cc0_transform_4 (grid0.coords (ptOf V (i 0))) 0 = (i 0).val := e0
  have i1 : (i 1).val < 1 := (i 1).isLt
  have i2 : (i 2).val < 128 := (i 2).isLt
  intro x
  match x with
  | ⟨0, _⟩ =>
    show cc0_transform_4 (grid0.coords (ptOf V (i 0))) 0 * 1 ≤ (i 0).val ∧ (i 0).val < cc0_transform_4 (grid0.coords (ptOf V (i 0))) 0 * 1 + 1
    omega
  | ⟨1, _⟩ =>
    show cc0_transform_4 (grid0.coords (ptOf V (i 0))) 1 * 1 ≤ (i 1).val ∧ (i 1).val < cc0_transform_4 (grid0.coords (ptOf V (i 0))) 1 * 1 + 1
    omega
  | ⟨2, _⟩ =>
    show cc0_transform_4 (grid0.coords (ptOf V (i 0))) 2 * 128 ≤ (i 2).val ∧ (i 2).val < cc0_transform_4 (grid0.coords (ptOf V (i 0))) 2 * 128 + 128
    omega

/-- The result after the run: row `b` is what point `b` left in the output's staging buffer. -/
theorem final_out (c : Dev nD) : ((dat0 V c).arrAt 4 (cfgM V).N : S64x1x128.Idx → Elt F .f32) = rowsOf V c :=
  (dat0 V c).arrAt_eq_of_cover 4 (rowsOf V c) (fun t _ => flushed4_eq V c t) (cover4 V)

/-- The same at an index by its coordinates. -/
theorem final_out_apply (c : Dev nD) (b : Fin 64) (k : Fin 128) :
    ((dat0 V c).arrAt 4 (cfgM V).N : S64x1x128.Idx → Elt F .f32) (ix3 b 0 k) = outsAt V c (ptOf V b) (ix3 0 0 k) := by
  rw [final_out]; rfl
end Cert.KernelIdeal.Hand

end
-- ==== Proof.KerPay.lean ====
import proofs.«404593_j6614249636365_1_alg».proof.Proof.Spec
import proofs.«404593_j6614249636365_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate

noncomputable section

namespace Cert.KerPay

open Idealize.ShloMosaic Idealize.ShloMosaic.ValueIdx Idealize.SL.Sem
open Cert.KernelIdeal Cert.KernelIdeal.Gen

variable [Facts]

/-! ## The block-level functions -/

/-- The projection of row `j` of the block by the first weights, onto class `c`. -/
def bleft (xb : Vec Ideal S1x128x2048 .f32) (wl : Vec Ideal S2048x2 .f32) (j : Fin 128) (c : Fin 2) : EReal :=
  ∑ d : Fin 2048, xb (ix3 0 j d) * wl (ix2 d c)

/-- The projection of row `k` of the block by the second weights, onto class `c`: the weight is the left factor. -/
def bright (xb : Vec Ideal S1x128x2048 .f32) (wr : Vec Ideal S2048x2 .f32) (k : Fin 128) (c : Fin 2) : EReal :=
  ∑ d : Fin 2048, wr (ix2 d c) * xb (ix3 0 k d)

/-- The logit of class `c` for the pair `(j, k)` of the block. -/
def blogit (xb : Vec Ideal S1x128x2048 .f32) (wl wr : Vec Ideal S2048x2 .f32) (bv : Vec Ideal S2 .f32)
    (j k : Fin 128) (c : Fin 2) : EReal :=
  bleft xb wl j c + bright xb wr k c + bv (ix1 c)

/-- The loss of the pair `(j, k)`: minus the log-probability of its label, which is 1 exactly when `k = j - 1`. -/
def bnll (xb : Vec Ideal S1x128x2048 .f32) (wl wr : Vec Ideal S2048x2 .f32) (bv : Vec Ideal S2 .f32)
    (j k : Fin 128) : EReal :=
  if k.val + 1 = j.val then
    0 - (blogit xb wl wr bv j k 1 - Cert.Spec.lse (blogit xb wl wr bv j k 0) (blogit xb wl wr bv j k 1))
  else
    0 - (blogit xb wl wr bv j k 0 - Cert.Spec.lse (blogit xb wl wr bv j k 0) (blogit xb wl wr bv j k 1))

/-- The pair's contribution: its loss when it counts for turn length `t`, else zero. -/
def bterm (t : BitVec 32) (xb : Vec Ideal S1x128x2048 .f32) (wl wr : Vec Ideal S2048x2 .f32) (bv : Vec Ideal S2 .f32)
    (j k : Fin 128) : EReal :=
  if Cert.Spec.counted t j k then bnll xb wl wr bv j k else 0

/-! ## The two matrix products read at an index -/

/-- The block with its unit axis dropped reads, at `(j, d)`, the block at `(0, j, d)`. -/
theorem pay2_apply (xb : Vec Ideal S1x128x2048 .f32) (j : Fin 128) (d : Fin 2048) :
    k0_pay2 (F := Ideal) xb (ix2 j d) = xb (ix3 0 j d) := by
  unfold k0_pay2
  exact shapeCast_1ab_ab_apply xb shapeCasts_S1x128x2048_S128x2048 j d

theorem lhs_dot1_0 (i : S128x2.Idx) (q : dot_S128x2048_S2048x2_S128x2_1_0_0_1_n_n.contr.Idx) :
    (dot_S128x2048_S2048x2_S128x2_1_0_0_1_n_n.lhsIdx i q 0).val = (i 0).val := by
  unfold DotDims.lhsIdx
  rw [dif_neg (show ¬(0 : Fin S128x2048.rank) ∈ dot_S128x2048_S2048x2_S128x2_1_0_0_1_n_n.lhsBatch by decide), dif_pos (show (0 : Fin S128x2048.rank) ∈ dot_S128x2048_S2048x2_S128x2_1_0_0_1_n_n.lhsNonContracting by decide)]
  rfl
theorem lhs_dot1_1 (i : S128x2.Idx) (q : dot_S128x2048_S2048x2_S128x2_1_0_0_1_n_n.contr.Idx) :
    (dot_S128x2048_S2048x2_S128x2_1_0_0_1_n_n.lhsIdx i q 1).val = (q ⟨0, by decide⟩).val :=
  dot_S128x2048_S2048x2_S128x2_1_0_0_1_n_n.lhsIdx_val_of_single rfl i q
theorem rhs_dot1_0 (i : S128x2.Idx) (q : dot_S128x2048_S2048x2_S128x2_1_0_0_1_n_n.contr.Idx) :
    (dot_S128x2048_S2048x2_S128x2_1_0_0_1_n_n.rhsIdx i q 0).val = (q ⟨0, by decide⟩).val :=
  dot_S128x2048_S2048x2_S128x2_1_0_0_1_n_n.rhsIdx_val_of_single rfl i q
theorem rhs_dot1_1 (i : S128x2.Idx) (q : dot_S128x2048_S2048x2_S128x2_1_0_0_1_n_n.contr.Idx) :
    (dot_S128x2048_S2048x2_S128x2_1_0_0_1_n_n.rhsIdx i q 1).val = (i 1).val := by
  unfold DotDims.rhsIdx
  rw [dif_neg (show ¬(1 : Fin S2048x2.rank) ∈ dot_S128x2048_S2048x2_S128x2_1_0_0_1_n_n.rhsBatch by decide), dif_pos (show (1 : Fin S2048x2.rank) ∈ dot_S128x2048_S2048x2_S128x2_1_0_0_1_n_n.rhsNonContracting by decide)]
  rfl

/-- The first product at `(j, c)`: the sum over the feature axis of the block's row `j` times the first weights' column `c`. -/
theorem pay3_apply (xb : Vec Ideal S1x128x2048 .f32) (wl : Vec Ideal S2048x2 .f32) (j : Fin 128) (c : Fin 2) :
    k0_pay3 (F := Ideal) xb wl (ix2 j c) = bleft xb wl j c := by
  unfold k0_pay3 bleft
  simp only [matmul]
  rw [shapeCast_self]
  refine (Ideal.matmul_constant_zero_apply _ _ _ _ _).trans ?_
  rw [← Equiv.sum_comp (contrEquiv1 dot_S128x2048_S2048x2_S128x2_1_0_0_1_n_n 2048 rfl rfl).symm]
  refine Finset.sum_congr rfl fun d _ => ?_
  have hk := contrEquiv1_symm_val dot_S128x2048_S2048x2_S128x2_1_0_0_1_n_n 2048 rfl rfl d
  have el : dot_S128x2048_S2048x2_S128x2_1_0_0_1_n_n.lhsIdx (ix2 j c) ((contrEquiv1 dot_S128x2048_S2048x2_S128x2_1_0_0_1_n_n 2048 rfl rfl).symm d) = ix2 j d := funext fun a => Fin.ext (by
    match a with
    | ⟨0, _⟩ => exact lhs_dot1_0 _ _
    | ⟨1, _⟩ => exact (lhs_dot1_1 _ _).trans hk)
  have er : dot_S128x2048_S2048x2_S128x2_1_0_0_1_n_n.rhsIdx (ix2 j c) ((contrEquiv1 dot_S128x2048_S2048x2_S128x2_1_0_0_1_n_n 2048 rfl rfl).symm d) = ix2 d c := funext fun a => Fin.ext (by
    match a with
    | ⟨0, _⟩ => exact (rhs_dot1_0 _ _).trans hk
    | ⟨1, _⟩ => exact rhs_dot1_1 _ _)
  rw [el, er, pay2_apply]

theorem lhs_dot2_0 (i : S2x128.Idx) (q : dot_S2048x2_S128x2048_S2x128_0_1_1_0_n_n.contr.Idx) :
    (dot_S2048x2_S128x2048_S2x128_0_1_1_0_n_n.lhsIdx i q 0).val = (q ⟨0, by decide⟩).val :=
  dot_S2048x2_S128x2048_S2x128_0_1_1_0_n_n.lhsIdx_val_of_single rfl i q
theorem lhs_dot2_1 (i : S2x128.Idx) (q : dot_S2048x2_S128x2048_S2x128_0_1_1_0_n_n.contr.Idx) :
    (dot_S2048x2_S128x2048_S2x128_0_1_1_0_n_n.lhsIdx i q 1).val = (i 0).val := by
  unfold DotDims.lhsIdx
  rw [dif_neg (show ¬(1 : Fin S2048x2.rank) ∈ dot_S2048x2_S128x2048_S2x128_0_1_1_0_n_n.lhsBatch by decide), dif_pos (show (1 : Fin S2048x2.rank) ∈ dot_S2048x2_S128x2048_S2x128_0_1_1_0_n_n.lhsNonContracting by decide)]
  rfl
theorem rhs_dot2_0 (i : S2x128.Idx) (q : dot_S2048x2_S128x2048_S2x128_0_1_1_0_n_n.contr.Idx) :
    (dot_S2048x2_S128x2048_S2x128_0_1_1_0_n_n.rhsIdx i q 0).val = (i 1).val := by
  unfold DotDims.rhsIdx
  rw [dif_neg (show ¬(0 : Fin S128x2048.rank) ∈ dot_S2048x2_S128x2048_S2x128_0_1_1_0_n_n.rhsBatch by decide), dif_pos (show (0 : Fin S128x2048.rank) ∈ dot_S2048x2_S128x2048_S2x128_0_1_1_0_n_n.rhsNonContracting by decide)]
  rfl
theorem rhs_dot2_1 (i : S2x128.Idx) (q : dot_S2048x2_S128x2048_S2x128_0_1_1_0_n_n.contr.Idx) :
    (dot_S2048x2_S128x2048_S2x128_0_1_1_0_n_n.rhsIdx i q 1).val = (q ⟨0, by decide⟩).val :=
  dot_S2048x2_S128x2048_S2x128_0_1_1_0_n_n.rhsIdx_val_of_single rfl i q

/-- The second product at `(c, k)`: the sum over the feature axis of the second weights' column `c` times the block's row `k`. -/
theorem pay4_apply (xb : Vec Ideal S1x128x2048 .f32) (wr : Vec Ideal S2048x2 .f32) (c : Fin 2) (k : Fin 128) :
    k0_pay4 (F := Ideal) xb wr (ix2 c k) = bright xb wr k c := by
  unfold k0_pay4 bright
  simp only [matmul]
  rw [shapeCast_self]
  refine (Ideal.matmul_constant_zero_apply _ _ _ _ _).trans ?_
  rw [← Equiv.sum_comp (contrEquiv1 dot_S2048x2_S128x2048_S2x128_0_1_1_0_n_n 2048 rfl rfl).symm]
  refine Finset.sum_congr rfl fun d _ => ?_
  have hk := contrEquiv1_symm_val dot_S2048x2_S128x2048_S2x128_0_1_1_0_n_n 2048 rfl rfl d
  have el : dot_S2048x2_S128x2048_S2x128_0_1_1_0_n_n.lhsIdx (ix2 c k) ((contrEquiv1 dot_S2048x2_S128x2048_S2x128_0_1_1_0_n_n 2048 rfl rfl).symm d) = ix2 d c := funext fun a => Fin.ext (by
    match a with
    | ⟨0, _⟩ => exact (lhs_dot2_0 _ _).trans hk
    | ⟨1, _⟩ => exact lhs_dot2_1 _ _)
  have er : dot_S2048x2_S128x2048_S2x128_0_1_1_0_n_n.rhsIdx (ix2 c k) ((contrEquiv1 dot_S2048x2_S128x2048_S2x128_0_1_1_0_n_n 2048 rfl rfl).symm d) = ix2 k d := funext fun a => Fin.ext (by
    match a with
    | ⟨0, _⟩ => exact rhs_dot2_0 _ _
    | ⟨1, _⟩ => exact (rhs_dot2_1 _ _).trans hk)
  rw [el, er, pay2_apply]

/-! ## Columns, rows and the bias -/

/-- A `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `o` of the bias, cut out as a one-element vector and extracted. -/
theorem bias_apply (bv : Vec Ideal S2 .f32) (o : Fin 2) (h : S2.Slices ![o.val] S1) (hp : ∀ a, (![0] : Fin 1 → Nat) a < S1.size a) :
    extractAt ![0] (extractStridedSlice S1 ![o.val] bv h) hp = bv (ix1 o) := by
  unfold extractAt
  refine extractStridedSlice_apply ![o.val] bv h _ (ix1 o) fun a => ?_
  match a with
  | ⟨0, _⟩ => rfl

/-- The class-0 logits at `(j, k)`. -/
theorem pay5_apply (xb : Vec Ideal S1x128x2048 .f32) (wl wr : Vec Ideal S2048x2 .f32) (bv : Vec Ideal S2 .f32) (j k : Fin 128) :
    k0_pay5 (F := Ideal) xb wl wr bv (ix2 j k) = blogit xb wl wr bv j k 0 := by
  unfold k0_pay5 blogit
  simp only [addf_apply, broadcast_apply]
  rw [broadcastTo_a1_ab_apply, broadcastTo_1b_ab_apply,
    slice2_axis1_apply 0 _ slices_S128x2_o0_0_S128x1 j 0 0 rfl,
    slice2_axis0_apply 0 _ slices_S2x128_o0_0_S1x128 0 k 0 rfl,
    pay3_apply, pay4_apply]
  exact congrArg _ (bias_apply bv 0 slices_S2_o0_S1 inpos_S1_p0)

/-- The class-1 logits at `(j, k)`. -/
theorem pay6_apply (xb : Vec Ideal S1x128x2048 .f32) (wl wr : Vec Ideal S2048x2 .f32) (bv : Vec Ideal S2 .f32) (j k : Fin 128) :
    k0_pay6 (F := Ideal) xb wl wr bv (ix2 j k) = blogit xb wl wr bv j k 1 := by
  unfold k0_pay6 blogit
  simp only [addf_apply, broadcast_apply]
  rw [broadcastTo_a1_ab_apply, broadcastTo_1b_ab_apply,
    slice2_axis1_apply 1 _ slices_S128x2_o0_1_S128x1 j 0 1 rfl,
    slice2_axis0_apply 1 _ slices_S2x128_o1_0_S1x128 0 k 1 rfl,
    pay3_apply, pay4_apply]
  exact congrArg _ (bias_apply bv 1 slices_S2_o1_S1 inpos_S1_p0)

/-! ## The log-sum-exp and the two signed log-probabilities -/

/-- The log-sum-exp of the two logits at `(j, k)`. -/
theorem pay7_apply (xb : Vec Ideal S1x128x2048 .f32) (wl wr : Vec Ideal S2048x2 .f32) (bv : Vec Ideal S2 .f32) (j k : Fin 128) :
    k0_pay7 (F := Ideal) xb wl wr bv (ix2 j k)
      = Cert.Spec.lse (blogit xb wl wr bv j k 0) (blogit xb wl wr bv j k 1) := by
  rw [← pay5_apply, ← pay6_apply]
  rfl

/-- The class-0 log-probability at `(j, k)`. -/
theorem pay8_apply (xb : Vec Ideal S1x128x2048 .f32) (wl wr : Vec Ideal S2048x2 .f32) (bv : Vec Ideal S2 .f32) (j k : Fin 128) :
    k0_pay8 (F := Ideal) xb wl wr bv (ix2 j k)
      = blogit xb wl wr bv j k 0 - Cert.Spec.lse (blogit xb wl wr bv j k 0) (blogit xb wl wr bv j k 1) := by
  rw [← pay7_apply, ← pay5_apply]
  rfl

/-- Minus the class-1 log-probability at `(j, k)`. -/
theorem pay10_apply (xb : Vec Ideal S1x128x2048 .f32) (wl wr : Vec Ideal S2048x2 .f32) (bv : Vec Ideal S2 .f32) (j k : Fin 128) :
    k0_pay10 (F := Ideal) xb wl wr bv (ix2 j k)
      = 0 - (blogit xb wl wr bv j k 1 - Cert.Spec.lse (blogit xb wl wr bv j k 0) (blogit xb wl wr bv j k 1)) := by
  rw [← pay7_apply, ← pay6_apply]
  unfold k0_pay10
  show Ideal.ofBits .f32 0x00000000#32 - _ = _
  rw [Ideal.ofBits_zero_f32]
  rfl

/-! ## The label and the mask -/

/-- For rows below 128, the word of `k` is the word of `j` less one exactly when `k + 1 = j` (at `j = 0` the
    difference wraps to the all-ones word, which is no row). -/
theorem word_pred_iff (j k : Fin 128) :
    BitVec.ofNat 32 k.val = BitVec.ofNat 32 j.val - 1#32 ↔ k.val + 1 = j.val := by
  have hj := j.isLt
  have hk := k.isLt
  rw [← BitVec.toNat_inj]
  simp only [BitVec.toNat_sub, BitVec.toNat_ofNat]
  omega

/-- The label mask at `(j, k)` is set exactly when `k + 1 = j`. -/
theorem pay9_apply (j k : Fin 128) :
    k0_pay9 (ix2 j k) = 1#1 ↔ k.val + 1 = j.val := by
  unfold k0_pay9
  show IntOp.cmpi .eq (iota .tc S128x128 32 [1] iota_S128x128_d1_w32 (ix2 j k))
      (IntOp.subi (iota .tc S128x128 32 [0] iota_S128x128_d0_w32 (ix2 j k)) 1#32) = 1#1 ↔ _
  rw [iota_single_apply, iota_single_apply, StableHlo.Predicate.cmpi_eq_iff]
  exact word_pred_iff j k

/-- The conjunction of the two signed comparisons is set exactly when the pair counts. -/
theorem mask_iff (t : BitVec 32) (j k : Fin 128) :
    IntOp.andi (IntOp.cmpi .slt (BitVec.ofNat 32 k.val) (BitVec.ofNat 32 j.val)) (IntOp.cmpi .slt (BitVec.ofNat 32 j.val) t) = 1#1
      ↔ Cert.Spec.counted t j k := by
  show BitVec.ofBool ((BitVec.ofNat 32 k.val).slt (BitVec.ofNat 32 j.val)) &&& BitVec.ofBool ((BitVec.ofNat 32 j.val).slt t) = 1#1
    ↔ k.val < j.val ∧ (BitVec.ofNat 32 j.val).slt t = true
  have h1 := StableHlo.Predicate.slt_ofNat_iff k.val j.val (by have := k.isLt; omega) (by have := j.isLt; omega)
  rw [StableHlo.Predicate.ofBool_eq_one_iff] at h1
  rw [← h1]
  generalize (BitVec.ofNat 32 k.val).slt (BitVec.ofNat 32 j.val) = p
  generalize (BitVec.ofNat 32 j.val).slt t = q
  revert p q
  decide

/-! ## The masked loss at a pair, and the lane sum -/

/-- What the kernel adds up, at `(j, k)`: the pair's loss when it counts, else zero. -/
theorem summand_apply (t : BitVec 32) (xb : Vec Ideal S1x128x2048 .f32) (wl wr : Vec Ideal S2048x2 .f32) (bv : Vec Ideal S2 .f32)
    (j k : Fin 128) :
    Scalar.select
      (IntOp.andi
        (IntOp.cmpi .slt (iota .tc S128x128 32 [1] iota_S128x128_d1_w32 (ix2 j k)) (iota .tc S128x128 32 [0] iota_S128x128_d0_w32 (ix2 j k)))
        (IntOp.cmpi .slt (iota .tc S128x128 32 [0] iota_S128x128_d0_w32 (ix2 j k)) t))
      (Scalar.select (k0_pay9 (ix2 j k)) (k0_pay10 (F := Ideal) xb wl wr bv (ix2 j k))
        (Ideal.ofBits .f32 0x00000000#32 - k0_pay8 (F := Ideal) xb wl wr bv (ix2 j k)))
      (Ideal.ofBits .f32 0x00000000#32)
    = bterm t xb wl wr bv j k := by
  rw [iota_single_apply, iota_single_apply, Ideal.ofBits_zero_f32, pay10_apply, pay8_apply]
  show Scalar.select (IntOp.andi (IntOp.cmpi .slt (BitVec.ofNat 32 k.val) (BitVec.ofNat 32 j.val))
      (IntOp.cmpi .slt (BitVec.ofNat 32 j.val) t)) _ _ = _
  unfold bterm bnll
  by_cases hc : Cert.Spec.counted t j k
  · rw [(mask_iff t j k).mpr hc, select_one, if_pos hc]
    by_cases hl : k.val + 1 = j.val
    · rw [(pay9_apply j k).mpr hl, select_one, if_pos hl]
    · rw [eq_zero_of_ne_one (fun h => hl ((pay9_apply j k).mp h)), select_zero, if_neg hl]
  · rw [eq_zero_of_ne_one (fun h => hc ((mask_iff t j k).mp h)), select_zero, if_neg hc]

/-- What the kernel body stores, at lane `k`: the sum over the rows `j` of the pairs' contributions. -/
theorem pay_apply (t : BitVec 32) (xb : Vec Ideal S1x128x2048 .f32) (wl wr : Vec Ideal S2048x2 .f32) (bv : Vec Ideal S2 .f32)
    (k : Fin 128) :
    k0_pay1 (F := Ideal) t (k0_pay8 xb wl wr bv) (iota .tc S128x128 32 [0] iota_S128x128_d0_w32)
        (iota .tc S128x128 32 [1] iota_S128x128_d1_w32) k0_pay9 (k0_pay10 xb wl wr bv) (Scalar.ofBits .f32 0x00000000#32) (ix3 0 0 k)
      = ∑ j : Fin 128, bterm t xb wl wr bv j k := by
  unfold k0_pay1
  refine (shapeCast_ab_1ab_apply _ shapeCasts_S1x128_S1x1x128 0 0 k).trans ?_
  refine (shapeCast_a_1a_apply _ shapeCasts_S128_S1x128 0 k).trans ?_
  refine (Ideal.multiReduction_add_single _ _ reduces_S128x128_S128 _ _ (ix1 k)).trans ?_
  refine Finset.sum_congr rfl fun j _ => ?_
  have hl : reduces_S128x128_S128.lift (ix1 k) j = ix2 j k := funext fun a => Fin.ext (by
    match a with
    | ⟨0, _⟩ => rfl
    | ⟨1, _⟩ => rfl)
  rw [hl]
  exact summand_apply t xb wl wr bv j k

end Cert.KerPay

end
-- ==== Proof.KINum.lean ====
/-
  The sum of the kernel's output array is the specification's numerator.

  After the last grid point the output array holds, at lane `k` of batch `b`, what the body stored at point `b`: the
  sum over the rows `j` of the masked losses of the pairs `(j, k)`, computed from the point's blocks and the word
  loaded from the table. The blocks read the arrays: window 0's block is batch `b` of the encoder output, windows 1 and
  2 are the two halves of the weights (the host's slices at row offsets 0 and 2048), window 3 is the bias, and the word
  is the batch's turn length. So each entry is `∑ j, term b j k` of the specification, and the host's sum over all
  64 · 1 · 128 entries from zero is `∑ b, ∑ k, ∑ j, term b j k`.
-/
import proofs.«404593_j6614249636365_1_alg».proof.Proof.KIRun
import proofs.«404593_j6614249636365_1_alg».proof.Proof.KIPiece
import proofs.«404593_j6614249636365_1_alg».proof.Proof.KITail
import proofs.«404593_j6614249636365_1_alg».proof.Proof.KIFinal
import proofs.«404593_j6614249636365_1_alg».proof.Proof.KerPay
import proofs.«404593_j6614249636365_1_alg».proof.Proof.Spec
import Idealize.ShloMosaic.PureOps.Ideal.Laws
import Idealize.ShloMosaic.Lib.Pipeline.Value
import Idealize.ShloMosaic.Lib.ValueIdx
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Num

/-! ## The block-level functions are the specification's, where the blocks read the arrays -/

section Blocks

variable (x : Cert.Spec.SX.Idx → EReal) (w : Cert.Spec.SW.Idx → EReal) (β : Cert.Spec.SB.Idx → EReal)
  (xb : Vec Ideal S1x128x2048 .f32) (wl wr : Vec Ideal S2048x2 .f32) (bv : Vec Ideal S2 .f32) (b : Fin 64)
  (hx : ∀ (j : Fin 128) (d : Fin 2048), xb (ix3 0 j d) = x (ix3 b j d))
  (hl : ∀ (d : Fin 2048) (e : Fin 2), wl (ix2 d e) = w (ix2 (Cert.Spec.wlo d) e))
  (hr : ∀ (d : Fin 2048) (e : Fin 2), wr (ix2 d e) = w (ix2 (Cert.Spec.whi d) e))
  (hβ : ∀ e : Fin 2, bv (ix1 e) = β (ix1 e))

include hx hl in
/-- The first projection of a block that is batch `b` of the array, by a first-weights block that is the rows below 2048. -/
theorem bleft_eq (j : Fin 128) (e : Fin 2) : Cert.KerPay.bleft xb wl j e = Cert.Spec.left x w b j e := by
  unfold Cert.KerPay.bleft Cert.Spec.left
  exact Finset.sum_congr rfl fun d _ => by rw [hx, hl]

include hx hr in
/-- The second projection, by a second-weights block that is the rows from 2048 on; the block-level product has the
    weight on the left. -/
theorem bright_eq (k : Fin 128) (e : Fin 2) : Cert.KerPay.bright xb wr k e = Cert.Spec.right x w b k e := by
  unfold Cert.KerPay.bright Cert.Spec.right
  exact Finset.sum_congr rfl fun d _ => by rw [hx, hr, mul_comm]

include hx hl hr hβ in
theorem blogit_eq (j k : Fin 128) (e : Fin 2) :
    Cert.KerPay.blogit xb wl wr bv j k e = Cert.Spec.logit x w β b j k e := by
  unfold Cert.KerPay.blogit Cert.Spec.logit
  rw [bleft_eq x w xb wl b hx hl, bright_eq x w xb wr b hx hr, hβ]

include hx hl hr hβ in
theorem bnll_eq (j k : Fin 128) : Cert.KerPay.bnll xb wl wr bv j k = Cert.Spec.nll x w β b j k := by
  unfold Cert.KerPay.bnll Cert.Spec.nll
  simp only [blogit_eq x w β xb wl wr bv b hx hl hr hβ]

include hx hl hr hβ in
/-- A pair's contribution at block level, at the batch's turn length, is the specification's. -/
theorem bterm_eq (tl : Cert.Spec.ST.Idx → BitVec 32) (t : BitVec 32) (ht : t = tl (ix1 b)) (j k : Fin 128) :
    Cert.KerPay.bterm t xb wl wr bv j k = Cert.Spec.term x w β tl b j k := by
  unfold Cert.KerPay.bterm Cert.Spec.term
  rw [bnll_eq x w β xb wl wr bv b hx hl hr hβ, ht]

end Blocks

/-! ## The host's sum of a [64, 1, 128] array into a scalar -/

/-- A rank-3 index set is the product of its three coordinate ranges, -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The host's sum over every axis, from zero: the sum over the batches and the lanes. -/
theorem total_apply (y : S64x1x128.Idx → EReal) (i : S_.Idx) :
    Host.reduceAdd (F := Ideal) y (constant (F := Ideal) S_ .f32 0x00000000#32) reducesTo_S64x1x128_S_d0_1_2 h_S_ i
      = ∑ b : Fin 64, ∑ k : Fin 128, y (ix3 b 0 k) := by
  rw [hostReduceAdd_apply]
  refine (Ideal.hostReduceAdd_total reducesTo_S64x1x128_S_d0_1_2 (fun b => b.elim0) y _ i).trans ?_
  rw [constant_apply, Ideal.ofBits_zero_f32, zero_add, sum_idx3]
  refine Finset.sum_congr rfl fun b _ => ?_
  rw [Fin.sum_univ_one]

/-! ## At the region's entry contents -/

section AtPoint

variable (m : (ℓ : Loc nD τ sig) → Buf (Elt Ideal) ℓ) (c : Dev nD)

/-- The arrays the specification is stated over: the encoder output, the weights, the bias, and the turn lengths the
    host computes before the region. -/
abbrev aX : Cert.Spec.SX.Idx → EReal := m ((c : Thread nD τ).loc main_arg0)
abbrev aW : Cert.Spec.SW.Idx → EReal := m ((c : Thread nD τ).loc main_arg2)
abbrev aB : Cert.Spec.SB.Idx → EReal := m ((c : Thread nD τ).loc main_arg3)
abbrev aT : Cert.Spec.ST.Idx → BitVec 32 := W1 m c (Proc.devRef .tc main_v0)

/-- The input windows' blocks at a point, at their literal types, and the word loaded there. -/
abbrev bX (t : Fin (cfgM (V1 m)).N) : Vec Ideal S1x128x2048 .f32 := iblk (V1 m) c 0 t
abbrev bL (t : Fin (cfgM (V1 m)).N) : Vec Ideal S2048x2 .f32 := iblk (V1 m) c 1 t
abbrev bR (t : Fin (cfgM (V1 m)).N) : Vec Ideal S2048x2 .f32 := iblk (V1 m) c 2 t
abbrev bB (t : Fin (cfgM (V1 m)).N) : Vec Ideal S2 .f32 := iblk (V1 m) c 3 t
abbrev bT (t : Fin (cfgM (V1 m)).N) : BitVec 32 := tword (c := c) (grid0.coords t) (tbl (V1 m) 0)

/-- Window 0's block at point `t` is batch `t` of the encoder output as launched: no host operation before the region
    writes it. -/
theorem bX_apply (t : Fin (cfgM (V1 m)).N) (b : Fin 64) (hb : t.val = b.val) (j : Fin 128) (d : Fin 2048) :
    bX m c t (ix3 0 j d) = aX m c (ix3 b j d) :=
  (iblk0_apply (V1 m) c t b hb j d).trans (congrFun (W1_arg0 m c) (ix3 b j d))

/-- Window 1's block is the rows below 2048 of the weights: the host's slice at offset 0. -/
theorem bL_apply (t : Fin (cfgM (V1 m)).N) (d : Fin 2048) (e : Fin 2) :
    bL m c t (ix2 d e) = aW m c (ix2 (Cert.Spec.wlo d) e) := by
  refine (iblk1_apply (V1 m) c t d e).trans ?_
  refine (congrFun (W1_v1 m c) (ix2 d e)).trans ?_
  exact extractStridedSlice_apply ![0, 0] _ slices_S4096x2_S2048x2_0_0 (ix2 d e) (ix2 (Cert.Spec.wlo d) e) (fun a => match a with
    | ⟨0, _⟩ => by show d.val = 0 + d.val; omega
    | ⟨1, _⟩ => by show e.val = 0 + e.val; omega)

/-- Window 2's block is the rows from 2048 on: the host's slice at offset 2048. -/
theorem bR_apply (t : Fin (cfgM (V1 m)).N) (d : Fin 2048) (e : Fin 2) :
    bR m c t (ix2 d e) = aW m c (ix2 (Cert.Spec.whi d) e) := by
  refine (iblk2_apply (V1 m) c t d e).trans ?_
  refine (congrFun (W1_v2 m c) (ix2 d e)).trans ?_
  exact extractStridedSlice_apply ![2048, 0] _ slices_S4096x2_S2048x2_2048_0 (ix2 d e) (ix2 (Cert.Spec.whi d) e) (fun a => match a with
    | ⟨0, _⟩ => by show 2048 + d.val = 2048 + d.val; rfl
    | ⟨1, _⟩ => by show e.val = 0 + e.val; omega)

/-- Window 3's block is the bias as launched. -/
theorem bB_apply (t : Fin (cfgM (V1 m)).N) (e : Fin 2) :
    bB m c t (ix1 e) = aB m c (ix1 e) :=
  (iblk3_apply (V1 m) c t e).trans (congrFun (W1_arg3 m c) (ix1 e))

/-- The word loaded at point `t` is the turn length of batch `t`. -/
theorem bT_eq (t : Fin (cfgM (V1 m)).N) (b : Fin 64) (hb : t.val = b.val) : bT m c t = aT m c (ix1 b) := by
  refine (tword_at (V1 m) c t).trans ?_
  obtain rfl : c = 0 := Subsingleton.elim _ _
  show (W1 m 0 (Proc.devRef .tc main_v0) : S64.Idx → BitVec 32) (ix1 ⟨t.val, t.isLt⟩) = W1 m 0 (Proc.devRef .tc main_v0) (ix1 b)
  exact congrArg _ (congrArg ix1 (Fin.ext hb))

/-- An entry of the output array after the last point: lane `k` of batch `b` is the sum over the rows `j` of the
    specification's contributions of the pairs `(j, k)`. -/
theorem entry (b : Fin 64) (k : Fin 128) :
    ((dat0 (V1 m) c).arrAt 4 (cfgM (V1 m)).N : S64x1x128.Idx → EReal) (ix3 b 0 k)
      = ∑ j : Fin 128, Cert.Spec.term (aX m c) (aW m c) (aB m c) (aT m c) b j k := by
  refine (final_out_apply (V1 m) c b k).trans ?_
  refine (congrFun (outsAt_eq (V1 m) c (ptOf (V1 m) b)) (ix3 0 0 k)).trans ?_
  refine (Cert.KerPay.pay_apply (bT m c (ptOf (V1 m) b)) (bX m c (ptOf (V1 m) b)) (bL m c (ptOf (V1 m) b)) (bR m c (ptOf (V1 m) b))
    (bB m c (ptOf (V1 m) b)) k).trans ?_
  exact Finset.sum_congr rfl fun j _ =>
    bterm_eq (aX m c) (aW m c) (aB m c) (bX m c (ptOf (V1 m) b)) (bL m c (ptOf (V1 m) b)) (bR m c (ptOf (V1 m) b))
      (bB m c (ptOf (V1 m) b)) b
      (fun j d => bX_apply m c (ptOf (V1 m) b) b rfl j d) (fun d e => bL_apply m c (ptOf (V1 m) b) d e)
      (fun d e => bR_apply m c (ptOf (V1 m) b) d e) (fun e => bB_apply m c (ptOf (V1 m) b) e)
      (aT m c) (bT m c (ptOf (V1 m) b)) (bT_eq m c (ptOf (V1 m) b) b rfl) j k

end AtPoint

end Num

/-! ## The sum of the kernel's output array -/

/-- The host's sum of the output array the region leaves is the specification's numerator, over the arrays as launched
    and the turn lengths the host computes before the region. -/
theorem ker_num (m : (ℓ : Loc nD τ sig) → Buf (Elt Ideal) ℓ) (c : Dev nD) :
    Host.reduceAdd (F := Ideal) (W2 m c (Proc.devRef .tc main_v3)) (constant (F := Ideal) S_ .f32 0x00000000#32)
        reducesTo_S64x1x128_S_d0_1_2 h_S_
      = fun _ => Cert.Spec.num (m ((c : Thread nD τ).loc main_arg0)) (m ((c : Thread nD τ).loc main_arg2))
          (m ((c : Thread nD τ).loc main_arg3)) (W1 m c (Proc.devRef .tc main_v0)) := by
  funext i
  rw [W2_v3]
  refine (Num.total_apply _ i).trans ?_
  unfold Cert.Spec.num
  exact Finset.sum_congr rfl fun b _ => Finset.sum_congr rfl fun k _ => Num.entry m c b k

end Cert.KernelIdeal.Hand

end
-- ==== Proof.LibTRef.lean ====
/-
  A typed reference's two transports — contents at the value's type to contents of the buffer and back — cancel.
-/
import Idealize.ShloMosaic.Lib.StableHlo

namespace Idealize.ShloMosaic.StableHlo.TRef

variable {sig : RefSig} {Val : EltTy → Type} {T : BufTy}

/-- Reading back through a typed reference what was put through it is the identity: both are the transport along
    the one equation `ref.ty = T`, in opposite directions. -/
theorem ofBuf_toBuf (x : TRef sig T) (v : T.Contents Val) : x.ofBuf (x.toBuf v) = v := by
  unfold TRef.ofBuf TRef.toBuf
  simp

/-- The other way round. -/
theorem toBuf_ofBuf (x : TRef sig T) (v : x.ref.ty.Contents Val) : x.toBuf (x.ofBuf v) = v := by
  unfold TRef.ofBuf TRef.toBuf
  simp

end Idealize.ShloMosaic.StableHlo.TRef
-- ==== Proof.RefLogp.lean ====
/-
  The reference's logits and its log-softmax, read at an index, over the extended reals.

  The reference slices the weights into their two halves, contracts the encoder output against each
  half, broadcasts the two projections over the pair axes and adds them and the bias: that is the
  specification's `logit`.  It then takes the two-way log-softmax along the class axis, in the shifted
  form `(l - m) - log (exp (l₀ - m) + exp (l₁ - m))` with `m = max l₀ l₁`.
-/
import proofs.«404593_j6614249636365_1_alg».proof.Proof.Spec
import proofs.«404593_j6614249636365_1_alg».proof.Proof.RefRead
import Idealize.ShloMosaic.PureOps.Ideal.Laws
import Idealize.ShloMosaic.PureOps.Reduce
import Idealize.ShloMosaic.Lib.ValueIdx

noncomputable section

namespace Cert.RefLogp

open Idealize.ShloMosaic Idealize.ShloMosaic.ValueIdx Cert.ReferenceIdeal Cert.ReferenceIdeal.Gen Cert.ReferenceIdeal.ReadP

variable [Cert.ReferenceIdeal.Facts]

variable (x0 : (⟨S64x128x2048, .f32⟩ : BufTy).Contents (Elt Ideal))
  (x2 : (⟨S4096x2, .f32⟩ : BufTy).Contents (Elt Ideal))
  (x3 : (⟨S2, .f32⟩ : BufTy).Contents (Elt Ideal))

/-- The first contraction is the projection by the first half of the weights. -/
theorem ref_left (b : Fin 64) (j : Fin 128) (c : Fin 2) :
    val_main_v2 (F := Ideal) x0 x2 (ix3 b j c) = Cert.Spec.left x0 x2 b j c := by
  rw [val_main_v2_apply]
  unfold Cert.Spec.left
  refine Finset.sum_congr rfl fun d _ => ?_
  rw [val_main_v1_apply]
  have e1 : lidx_main_v2 (ix3 b j c) d = ix3 b j d :=
    funext fun a => Fin.ext (by match a with | ⟨0, _⟩ => rfl | ⟨1, _⟩ => rfl | ⟨2, _⟩ => rfl)
  have e2 : idx_main_v1 (ridx_main_v2 (ix3 b j c) d) = ix2 (Cert.Spec.wlo d) c :=
    funext fun a => Fin.ext (by match a with | ⟨0, _⟩ => rfl | ⟨1, _⟩ => rfl)
  rw [e1, e2]

/-- The second contraction is the projection by the second half of the weights. -/
theorem ref_right (b : Fin 64) (k : Fin 128) (c : Fin 2) :
    val_main_v4 (F := Ideal) x0 x2 (ix3 b k c) = Cert.Spec.right x0 x2 b k c := by
  rw [val_main_v4_apply]
  unfold Cert.Spec.right
  refine Finset.sum_congr rfl fun d _ => ?_
  rw [val_main_v3_apply]
  have e1 : lidx_main_v4 (ix3 b k c) d = ix3 b k d :=
    funext fun a => Fin.ext (by match a with | ⟨0, _⟩ => rfl | ⟨1, _⟩ => rfl | ⟨2, _⟩ => rfl)
  have e2 : idx_main_v3 (ridx_main_v4 (ix3 b k c) d) = ix2 (Cert.Spec.whi d) c :=
    funext fun a => Fin.ext (by match a with | ⟨0, _⟩ => rfl | ⟨1, _⟩ => rfl)
  rw [e1, e2]

/-- The first projection, broadcast over the second row of the pair. -/
theorem ref_v7 (b : Fin 64) (j k : Fin 128) (c : Fin 2) :
    val_main_v7 (F := Ideal) x0 x2 (ix4 b j k c) = Cert.Spec.left x0 x2 b j c := by
  rw [val_main_v7_apply, val_main_v5_apply, ← ref_left]
  congr 1
  exact funext fun a => Fin.ext (by match a with | ⟨0, _⟩ => rfl | ⟨1, _⟩ => rfl | ⟨2, _⟩ => rfl)

/-- The second projection, broadcast over the first row of the pair. -/
theorem ref_v8 (b : Fin 64) (j k : Fin 128) (c : Fin 2) :
    val_main_v8 (F := Ideal) x0 x2 (ix4 b j k c) = Cert.Spec.right x0 x2 b k c := by
  rw [val_main_v8_apply, val_main_v6_apply, ← ref_right]
  congr 1
  exact funext fun a => Fin.ext (by match a with | ⟨0, _⟩ => rfl | ⟨1, _⟩ => rfl | ⟨2, _⟩ => rfl)

/-- The bias, broadcast over batch and pair. -/
theorem ref_v11 (b : Fin 64) (j k : Fin 128) (c : Fin 2) :
    val_main_v11 (F := Ideal) x3 (ix4 b j k c) = x3 (ix1 c) := by
  rw [val_main_v11_apply, val_main_v10_apply]
  congr 1
  exact funext fun a => Fin.ext (by match a with | ⟨0, _⟩ => rfl)

/-- The reference's logits are the specification's. -/
theorem ref_logit (b : Fin 64) (j k : Fin 128) (c : Fin 2) :
    val_main_v12 (F := Ideal) x0 x2 x3 (ix4 b j k c) = Cert.Spec.logit x0 x2 x3 b j k c := by
  rw [val_main_v12_apply, val_main_v9_apply, ref_v7, ref_v8, ref_v11]
  rfl

/-- The bit pattern of negative infinity is the least extended real. -/
theorem ofBits_neg_inf : Ideal.ofBits .f32 0xFF800000#32 = (⊥ : EReal) := by
  simp [Ideal.ofBits, Ideal.ieee]

/-- A maximum folded over a two-element axis. -/
theorem fold_max_fin2 (init : EReal) (g : Fin 2 → EReal) :
    (Finset.univ : Finset (Fin 2)).fold (FloatOps.maximumf (F := Ideal) (φ := .f32)) init g
      = max init (max (g 0) (g 1)) := by
  simp only [Fin.univ_succ, Finset.fold_cons, Finset.fold_map, Finset.univ_unique, Finset.fold_singleton]
  show max (g 0) (max (g 1) init) = _
  rw [max_comm (g 1) init, ← max_assoc, max_comm (g 0) init, max_assoc]

/-- The maximum over the class axis, from negative infinity, is the larger of the two logits. -/
theorem ref_rmax (b : Fin 64) (j k : Fin 128) :
    val_main_call0_v0 (F := Ideal) x0 x2 x3 (ix3 b j k)
      = max (Cert.Spec.logit x0 x2 x3 b j k 0) (Cert.Spec.logit x0 x2 x3 b j k 1) := by
  have hR : S64x128x128x2.Reduces [3] S64x128x128 := by decide
  have e (c : Fin 2) : hR.lift (ix3 b j k) c = ix4 b j k c :=
    funext fun a => Fin.ext (by match a with | ⟨0, _⟩ => rfl | ⟨1, _⟩ => rfl | ⟨2, _⟩ => rfl | ⟨3, _⟩ => rfl)
  unfold val_main_call0_v0
  rw [Host.reduce_eq_fold_single (FloatOps.maximumf (F := Ideal) (φ := .f32)) _ _
    reducesTo_S64x128x128x2_S64x128x128_d3 hR h_S_]
  refine (fold_max_fin2 _ _).trans ?_
  rw [val_main_call0_cst_apply, Ideal.ofBits_def, ofBits_neg_inf, max_bot_left]
  show max (val_main_v12 (F := Ideal) x0 x2 x3 (hR.lift (ix3 b j k) (0 : Fin 2))) (val_main_v12 (F := Ideal) x0 x2 x3 (hR.lift (ix3 b j k) (1 : Fin 2))) = _
  rw [e 0, e 1, ref_logit, ref_logit]

/-- The shift: the maximum against negative infinity changes nothing, and the broadcasts read it back at every class. -/
theorem ref_m (b : Fin 64) (j k : Fin 128) (c : Fin 2) :
    val_main_call0_v4 (F := Ideal) x0 x2 x3 (ix4 b j k c)
      = max (Cert.Spec.logit x0 x2 x3 b j k 0) (Cert.Spec.logit x0 x2 x3 b j k 1) := by
  have ei : idx_main_call0_v3 (idx_main_call0_v4 (ix4 b j k c)) = ix3 b j k :=
    funext fun a => Fin.ext (by match a with | ⟨0, _⟩ => rfl | ⟨1, _⟩ => rfl | ⟨2, _⟩ => rfl)
  rw [val_main_call0_v4_apply, val_main_call0_v3_apply, ei, val_main_call0_v2_apply, val_main_call0_v1_apply,
    val_main_call0_cst_0_apply, Ideal.maximumf_def, Ideal.ofBits_def, ofBits_neg_inf, max_bot_left, ref_rmax]

/-- The shifted logit. -/
theorem ref_shift (b : Fin 64) (j k : Fin 128) (c : Fin 2) :
    val_main_call0_v5 (F := Ideal) x0 x2 x3 (ix4 b j k c)
      = Cert.Spec.logit x0 x2 x3 b j k c
        - max (Cert.Spec.logit x0 x2 x3 b j k 0) (Cert.Spec.logit x0 x2 x3 b j k 1) := by
  rw [val_main_call0_v5_apply, Ideal.subf_def, ref_logit, ref_m]

/-- The sum over the class axis of the exponentials of the shifted logits. -/
theorem ref_sumexp (b : Fin 64) (j k : Fin 128) :
    val_main_call0_v7 (F := Ideal) x0 x2 x3 (ix3 b j k)
      = Ideal.exp (Cert.Spec.logit x0 x2 x3 b j k 0
          - max (Cert.Spec.logit x0 x2 x3 b j k 0) (Cert.Spec.logit x0 x2 x3 b j k 1))
        + Ideal.exp (Cert.Spec.logit x0 x2 x3 b j k 1
          - max (Cert.Spec.logit x0 x2 x3 b j k 0) (Cert.Spec.logit x0 x2 x3 b j k 1)) := by
  have e (c : Fin 2) : idx_main_call0_v7 (ix3 b j k) c = ix4 b j k c :=
    funext fun a => Fin.ext (by match a with | ⟨0, _⟩ => rfl | ⟨1, _⟩ => rfl | ⟨2, _⟩ => rfl | ⟨3, _⟩ => rfl)
  rw [val_main_call0_v7_apply, val_main_call0_cst_1_apply, Ideal.ofBits_def, Ideal.ofBits_zero_f32, zero_add,
    Fin.sum_univ_two, e 0, e 1, val_main_call0_v6_apply, val_main_call0_v6_apply, Ideal.hostUnary_exp_def,
    Ideal.hostUnary_exp_def, ref_shift, ref_shift]

/-- The reference's log-softmax at a class: the shifted logit less the logarithm of the sum of the two exponentials. -/
theorem ref_logp (b : Fin 64) (j k : Fin 128) (c : Fin 2) :
    val_main_v35 (F := Ideal) x0 x2 x3 (ix4 b j k c)
      = (Cert.Spec.logit x0 x2 x3 b j k c
          - max (Cert.Spec.logit x0 x2 x3 b j k 0) (Cert.Spec.logit x0 x2 x3 b j k 1))
        - Ideal.log (Ideal.exp (Cert.Spec.logit x0 x2 x3 b j k 0
              - max (Cert.Spec.logit x0 x2 x3 b j k 0) (Cert.Spec.logit x0 x2 x3 b j k 1))
            + Ideal.exp (Cert.Spec.logit x0 x2 x3 b j k 1
              - max (Cert.Spec.logit x0 x2 x3 b j k 0) (Cert.Spec.logit x0 x2 x3 b j k 1))) := by
  have ei : idx_main_call0_v8 (idx_main_call0_v10 (ix4 b j k c)) = ix3 b j k :=
    funext fun a => Fin.ext (by match a with | ⟨0, _⟩ => rfl | ⟨1, _⟩ => rfl | ⟨2, _⟩ => rfl)
  rw [val_main_v35_apply, Ideal.subf_def, ref_shift, val_main_call0_v10_apply, val_main_call0_v9_apply,
    Ideal.hostUnary_log_def, val_main_call0_v8_apply, ei, ref_sumexp]

end Cert.RefLogp

end
-- ==== Proof.RefPick.lean ====
/-
  The reference's take along the class axis, read at an index. For a batch `b` and a pair of rows `(j, k)` the label
  word is 1 when `k + 1 = j` and 0 otherwise (at `j = 0` the word `j - 1` wraps to all ones, which is no row number);
  a label is never negative, so the take's index normalisation leaves it, and it always passes the range test
  `0 ≤ idx ≤ 1`, so the select after the gather keeps the gathered value. The gather has three batching axes, on which
  it reads the result's own coordinates, and one collapsed axis, on which it reads the start index clamped into
  `[0, 1]`: the label. Hence the picked value at `(b, j, k)` is the two-class array at `(b, j, k, label)`.
-/
import proofs.«404593_j6614249636365_1_alg».proof.Proof.Spec
import proofs.«404593_j6614249636365_1_alg».proof.Proof.RefRead
import Idealize.ShloMosaic.PureOps.Reduce
import Idealize.ShloMosaic.Lib.ValueIdx
import Idealize.ShloMosaic.Lib.ReduceAll

noncomputable section

namespace Cert.RefPick

open Idealize.ShloMosaic Idealize.ShloMosaic.ValueIdx
open Cert.ReferenceIdeal Cert.ReferenceIdeal.ReadP

variable [Cert.ReferenceIdeal.Facts]

/-! ## The gather of the take, read at an index -/

abbrev gd := gather_S64x128x128x2_S64x128x128x1x1_S64x128x128x1_n_3_012_012_3_4_1111

theorem idx_val_congr {s : Shape} (i : s.Idx) {X Y : Fin s.rank} (h : X = Y) : (i X).val = (i Y).val := by
  subst h; rfl

/-- On the three batching axes the gather reads the result's own coordinate. -/
theorem gather_batch (idx : IVec S64x128x128x1x1 32) (y : S64x128x128x1.Idx) :
    (gd.operandIdx y idx 0).val = (y 0).val ∧ (gd.operandIdx y idx 1).val = (y 1).val ∧
      (gd.operandIdx y idx 2).val = (y 2).val := by
  refine ⟨?_, ?_, ?_⟩
  · have hb : (0 : Fin 4) ∈ gd.operandBatchingDims := by decide
    show gd.start _ idx 0 + gd.batchCoord _ 0 + gd.offCoord _ 0 = _
    rw [gd.start_batching _ _ _ hb, gd.offCoord_eq_zero _ _ (fun h => ((gd.mem_sKept _).1 h).2 hb)]
    unfold GatherDims.batchCoord
    rw [dif_pos hb]
    unfold GatherDims.siCoord
    simp only [Fin.val_cast, Nat.zero_add, Nat.add_zero]
    exact idx_val_congr y rfl
  · have hb : (1 : Fin 4) ∈ gd.operandBatchingDims := by decide
    show gd.start _ idx 1 + gd.batchCoord _ 1 + gd.offCoord _ 1 = _
    rw [gd.start_batching _ _ _ hb, gd.offCoord_eq_zero _ _ (fun h => ((gd.mem_sKept _).1 h).2 hb)]
    unfold GatherDims.batchCoord
    rw [dif_pos hb]
    unfold GatherDims.siCoord
    simp only [Fin.val_cast, Nat.zero_add, Nat.add_zero]
    exact idx_val_congr y rfl
  · have hb : (2 : Fin 4) ∈ gd.operandBatchingDims := by decide
    show gd.start _ idx 2 + gd.batchCoord _ 2 + gd.offCoord _ 2 = _
    rw [gd.start_batching _ _ _ hb, gd.offCoord_eq_zero _ _ (fun h => ((gd.mem_sKept _).1 h).2 hb)]
    unfold GatherDims.batchCoord
    rw [dif_pos hb]
    unfold GatherDims.siCoord
    simp only [Fin.val_cast, Nat.zero_add, Nat.add_zero]
    exact idx_val_congr y rfl

/-- The start-indices index the gather reads for result index `(b, j, k, 0)`: the same coordinates, and component 0. -/
theorem gather_siIdx (b : Fin 64) (j k : Fin 128) (c : Fin gd.startIndexMap.length) :
    gd.siIdx (ix4 b j k (0 : Fin 1)) c = ix5 b j k (0 : Fin 1) (0 : Fin 1) := by
  funext a
  refine Fin.ext ?_
  match a with
  | ⟨0, _⟩ =>
    unfold GatherDims.siIdx
    rw [dif_neg (by show ¬ ((0 : Nat) = 4); omega)]
    unfold GatherDims.siCoord
    simp only [Fin.val_cast]
    exact idx_val_congr (ix4 b j k (0 : Fin 1)) (Y := 0) rfl
  | ⟨1, _⟩ =>
    unfold GatherDims.siIdx
    rw [dif_neg (by show ¬ ((1 : Nat) = 4); omega)]
    unfold GatherDims.siCoord
    simp only [Fin.val_cast]
    exact idx_val_congr (ix4 b j k (0 : Fin 1)) (Y := 1) rfl
  | ⟨2, _⟩ =>
    unfold GatherDims.siIdx
    rw [dif_neg (by show ¬ ((2 : Nat) = 4); omega)]
    unfold GatherDims.siCoord
    simp only [Fin.val_cast]
    exact idx_val_congr (ix4 b j k (0 : Fin 1)) (Y := 2) rfl
  | ⟨3, _⟩ =>
    unfold GatherDims.siIdx
    rw [dif_neg (by show ¬ ((3 : Nat) = 4); omega)]
    unfold GatherDims.siCoord
    simp only [Fin.val_cast]
    exact idx_val_congr (ix4 b j k (0 : Fin 1)) (Y := 3) rfl
  | ⟨4, _⟩ =>
    unfold GatherDims.siIdx
    rw [dif_pos (by show (4 : Nat) = 4; rfl)]
    have := c.isLt
    have hl : gd.startIndexMap.length = 1 := rfl
    show c.val = 0
    omega

/-- On the gathered axis the operand index is the start index read signed and clamped into `[0, 1]`. -/
theorem gather_last (idx : IVec S64x128x128x1x1 32) (b : Fin 64) (j k : Fin 128) :
    (gd.operandIdx (ix4 b j k (0 : Fin 1)) idx 3).val = min (idx (ix5 b j k 0 0)).toInt.toNat 1 := by
  have hb : (3 : Fin 4) ∉ gd.operandBatchingDims := by decide
  have hk : (3 : Fin 4) ∉ gd.sKept := by decide
  have hm : (3 : Fin 4) ∈ gd.startIndexMap := by decide
  show gd.start _ idx 3 + gd.batchCoord _ 3 + gd.offCoord _ 3 = _
  rw [gd.batchCoord_eq_zero _ _ hb, gd.offCoord_eq_zero _ _ hk]
  unfold GatherDims.start
  rw [dif_pos hm, gather_siIdx]
  rfl

/-! ## The labels -/

/-- Words: `k = j - 1` for row numbers below 128 says `k + 1 = j` (at `j = 0` the difference wraps to the all-ones
    word, which is no row number). -/
theorem word_eq_iff (j k : Fin 128) :
    (BitVec.ofNat 32 k.val == BitVec.ofNat 32 j.val - 1#32) = decide (k.val + 1 = j.val) := by
  have hj := j.isLt
  have hk := k.isLt
  rw [Bool.eq_iff_iff]
  simp only [beq_iff_eq, decide_eq_true_eq]
  rw [← BitVec.toNat_inj]
  simp only [BitVec.toNat_sub, BitVec.toNat_ofNat]
  omega

/-- The label word of the pair `(j, k)`: 1 when `k + 1 = j`, else 0. -/
theorem label_word (j k : Fin 128) :
    val_main_v34 (F := Ideal) (ix2 j k) = if k.val + 1 = j.val then 1#32 else 0#32 := by
  rw [val_main_v34_apply, val_main_v33_apply, val_main_v31_apply, val_main_v16_apply, val_main_v15_apply,
    val_main_v32_apply, val_main_v30_apply, val_main_v14_apply, val_main_v13_apply, val_main_v29_apply,
    val_main_c_0_apply]
  show (BitVec.ofBool (BitVec.ofNat 32 k.val == BitVec.ofNat 32 j.val - 1#32)).setWidth 32 = _
  rw [word_eq_iff]
  by_cases h : k.val + 1 = j.val
  · rw [if_pos h, decide_eq_true h]; rfl
  · rw [if_neg h, decide_eq_false h]; rfl

/-- The labels broadcast over the batches, at `(b, j, k, 0)`. -/
theorem label_bcast (b : Fin 64) (j k : Fin 128) :
    val_main_v37 (F := Ideal) (ix4 b j k (0 : Fin 1)) = if k.val + 1 = j.val then 1#32 else 0#32 := by
  rw [val_main_v37_apply, val_main_v36_apply]
  exact label_word j k

/-! ## The index normalisation and the range test of the take -/

/-- The label is not negative, so the normalised index is the label itself. -/
theorem norm_idx (b : Fin 64) (j k : Fin 128) :
    val_main_call1_v4 (F := Ideal) (ix4 b j k (0 : Fin 1)) = if k.val + 1 = j.val then 1#32 else 0#32 := by
  rw [val_main_call1_v4_apply, val_main_call1_v1_apply, val_main_call1_v0_apply, val_main_call1_c_apply, label_bcast]
  by_cases h : k.val + 1 = j.val
  · rw [if_pos h, show IntOp.cmpi .slt 1#32 0#32 = 0#1 from by decide, select_zero]
  · rw [if_neg h, show IntOp.cmpi .slt 0#32 0#32 = 0#1 from by decide, select_zero]

/-- The reshape to rank 5 reads `(b, j, k, 0)` at every `(b, j, k, c, e)`. -/
theorem idx_v5 (b : Fin 64) (j k : Fin 128) (c e : Fin 1) :
    idx_main_call1_v5 (ix5 b j k c e) = ix4 b j k (0 : Fin 1) := by
  have hb := b.isLt
  have hj := j.isLt
  have hk := k.isLt
  have hc := c.isLt
  have he := e.isLt
  funext a
  refine Fin.ext ?_
  match a with
  | ⟨0, _⟩ => show ((((b.val * 128 + j.val) * 128 + k.val) * 1 + c.val) * 1 + e.val) / 16384 = b.val; omega
  | ⟨1, _⟩ => show ((((b.val * 128 + j.val) * 128 + k.val) * 1 + c.val) * 1 + e.val) / 128 % 128 = j.val; omega
  | ⟨2, _⟩ => show ((((b.val * 128 + j.val) * 128 + k.val) * 1 + c.val) * 1 + e.val) / 1 % 128 = k.val; omega
  | ⟨3, _⟩ => rfl

/-- The start index of the gather at `(b, j, k, c, e)`: the label. -/
theorem start_idx (b : Fin 64) (j k : Fin 128) (c e : Fin 1) :
    val_main_call1_v5 (F := Ideal) (ix5 b j k c e) = if k.val + 1 = j.val then 1#32 else 0#32 := by
  rw [val_main_call1_v5_apply, idx_v5, norm_idx]

/-- Every start index passes the range test `0 ≤ idx ≤ 1`. -/
theorem in_range (i : S64x128x128x1x1.Idx) : val_main_call1_v11 (F := Ideal) i = 1#1 := by
  obtain ⟨b, j, k, c, e, rfl⟩ : ∃ (b : Fin 64) (j k : Fin 128) (c e : Fin 1), i = ix5 b j k c e :=
    ⟨i 0, i 1, i 2, i 3, i 4, eq_ix5 i⟩
  rw [val_main_call1_v11_apply, val_main_call1_v7_apply, val_main_call1_v10_apply, val_main_call1_v6_apply,
    val_main_call1_c_2_apply, val_main_call1_v9_apply, val_main_call1_v8_apply, val_main_call1_c_1_apply, start_idx]
  by_cases h : k.val + 1 = j.val
  · rw [if_pos h]; decide
  · rw [if_neg h]; decide

/-- A left fold by `and` from 1 over words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from by decide]
    exact foldl_andi_one f hf l

/-- The reduction by `and` of the range test over the last axis is 1 everywhere. -/
theorem all_in_range (i : S64x128x128x1.Idx) : val_main_call1_v12 (F := Ideal) i = 1#1 := by
  unfold val_main_call1_v12
  rw [Host.reduce_eq_foldl]
  exact foldl_andi_one _ in_range _

/-! ## The take, the select on the range test, the reshape -/

/-- The gather at `(b, j, k, 0)` reads the two-class array at the label's class. -/
theorem gather_pick (x0 : (⟨S64x128x2048, .f32⟩ : BufTy).Contents (Elt Ideal)) (x2 : (⟨S4096x2, .f32⟩ : BufTy).Contents (Elt Ideal))
    (x3 : (⟨S2, .f32⟩ : BufTy).Contents (Elt Ideal)) (b : Fin 64) (j k : Fin 128) :
    val_main_call1_v13 (F := Ideal) x0 x2 x3 (ix4 b j k (0 : Fin 1))
      = val_main_v35 (F := Ideal) x0 x2 x3 (ix4 b j k (if k.val + 1 = j.val then (1 : Fin 2) else 0)) := by
  unfold val_main_call1_v13 Host.gather
  congr 1
  funext a
  refine Fin.ext ?_
  obtain ⟨h0, h1, h2⟩ := gather_batch (val_main_call1_v5 (F := Ideal)) (ix4 b j k (0 : Fin 1))
  match a with
  | ⟨0, _⟩ => exact h0
  | ⟨1, _⟩ => exact h1
  | ⟨2, _⟩ => exact h2
  | ⟨3, _⟩ =>
    refine (gather_last (val_main_call1_v5 (F := Ideal)) b j k).trans ?_
    rw [start_idx]
    by_cases h : k.val + 1 = j.val
    · rw [if_pos h, if_pos h]; show min (1#32).toInt.toNat 1 = 1; decide
    · rw [if_neg h, if_neg h]; show min (0#32).toInt.toNat 1 = 0; decide

/-- The reshape to rank 3 reads `(b, j, k, 0)` at `(b, j, k)`. -/
theorem idx_v39 (b : Fin 64) (j k : Fin 128) : idx_main_v39 (ix3 b j k) = ix4 b j k (0 : Fin 1) := by
  have hb := b.isLt
  have hj := j.isLt
  have hk := k.isLt
  funext a
  refine Fin.ext ?_
  match a with
  | ⟨0, _⟩ => show ((b.val * 128 + j.val) * 128 + k.val) / 16384 = b.val; omega
  | ⟨1, _⟩ => show ((b.val * 128 + j.val) * 128 + k.val) / 128 % 128 = j.val; omega
  | ⟨2, _⟩ => show ((b.val * 128 + j.val) * 128 + k.val) / 1 % 128 = k.val; omega
  | ⟨3, _⟩ => rfl

/-- THE PICK: the reference's take along the class axis, reshaped, at `(b, j, k)` is the two-class array at the pair's
    label: class 1 when `k + 1 = j`, class 0 otherwise. -/
theorem ref_pick (x0 : (⟨S64x128x2048, .f32⟩ : BufTy).Contents (Elt Ideal)) (x2 : (⟨S4096x2, .f32⟩ : BufTy).Contents (Elt Ideal))
    (x3 : (⟨S2, .f32⟩ : BufTy).Contents (Elt Ideal)) (b : Fin 64) (j k : Fin 128) :
    val_main_v39 (F := Ideal) x0 x2 x3 (ix3 b j k)
      = val_main_v35 (F := Ideal) x0 x2 x3 (ix4 b j k (if k.val + 1 = j.val then (1 : Fin 2) else 0)) := by
  rw [val_main_v39_apply, idx_v39, val_main_v38_apply, all_in_range, select_one, gather_pick]

end Cert.RefPick

end
-- ==== Proof.RefValid.lean ====
/-
  The reference's mask of counted pairs, read at one pair of rows.

  The mask is the conjunction of two signed comparisons of words: the column index below the row index
  (both indices are below 128, so the signed order of the words is the order of the numbers), and the row
  index below the batch's turn length (the comparison the specification itself names).
-/
import proofs.«404593_j6614249636365_1_alg».proof.Proof.Spec
import proofs.«404593_j6614249636365_1_alg».proof.Proof.RefRead
import Idealize.ShloMosaic.Lib.ValueIdx
import Idealize.ShloMosaic.Lib.StableHlo.Predicate

noncomputable section

namespace Cert.RefValid

open Cert.ReferenceIdeal Cert.ReferenceIdeal.ReadP Idealize.ShloMosaic Idealize.ShloMosaic.ValueIdx
open Idealize.ShloMosaic.StableHlo.Predicate

variable [Cert.ReferenceIdeal.Facts]

/-- The row index as a word, on the column shape `[128, 1]`. -/
theorem v14_at (j : Fin 128) (z : Fin 1) :
    val_main_v14 (F := Ideal) (ix2 j z) = BitVec.ofNat 32 j.val := by
  rw [val_main_v14_apply, val_main_v13_apply]

/-- The column index as a word, on `[128, 128]`. -/
theorem v17_at (j k : Fin 128) :
    val_main_v17 (F := Ideal) (ix2 j k) = BitVec.ofNat 32 k.val := by
  rw [val_main_v17_apply, val_main_v16_apply, val_main_v15_apply]

/-- The row index as a word, on `[128, 128]`. -/
theorem v18_at (j k : Fin 128) :
    val_main_v18 (F := Ideal) (ix2 j k) = BitVec.ofNat 32 j.val := by
  rw [val_main_v18_apply, val_main_v14_apply, val_main_v13_apply]

/-- The first comparison: column below row. -/
theorem v19_at (j k : Fin 128) :
    val_main_v19 (F := Ideal) (ix2 j k)
      = IntOp.cmpi .slt (BitVec.ofNat 32 k.val) (BitVec.ofNat 32 j.val) := by
  rw [val_main_v19_apply, v17_at, v18_at]

/-- The row index as a word, on `[64, 128, 1]`. -/
theorem v22_at (b : Fin 64) (j : Fin 128) (z : Fin 1) :
    val_main_v22 (F := Ideal) (ix3 b j z) = BitVec.ofNat 32 j.val := by
  rw [val_main_v22_apply, val_main_v21_apply, val_main_v14_apply, val_main_v13_apply]

/-- The batch's turn length, on `[64, 128, 1]`. -/
theorem v23_at (x1 : (⟨S64x128, .i32⟩ : BufTy).Contents (Elt Ideal)) (b : Fin 64) (j : Fin 128) (z : Fin 1) :
    val_main_v23 (F := Ideal) x1 (ix3 b j z) = val_main_v0 (F := Ideal) x1 (ix1 b) := by
  rw [val_main_v23_apply, val_main_v20_apply]
  exact congrArg (val_main_v0 (F := Ideal) x1) (funext fun a => match a with | ⟨0, _⟩ => rfl)

/-- The second comparison: row below the turn length. -/
theorem v24_at (x1 : (⟨S64x128, .i32⟩ : BufTy).Contents (Elt Ideal)) (b : Fin 64) (j : Fin 128) (z : Fin 1) :
    val_main_v24 (F := Ideal) x1 (ix3 b j z)
      = IntOp.cmpi .slt (BitVec.ofNat 32 j.val) (val_main_v0 (F := Ideal) x1 (ix1 b)) := by
  rw [val_main_v24_apply, v22_at, v23_at]

/-- The first comparison broadcast over the batches. -/
theorem v26_at (b : Fin 64) (j k : Fin 128) :
    val_main_v26 (F := Ideal) (ix3 b j k)
      = IntOp.cmpi .slt (BitVec.ofNat 32 k.val) (BitVec.ofNat 32 j.val) := by
  rw [val_main_v26_apply, val_main_v25_apply, ← v19_at j k]
  exact congrArg (val_main_v19 (F := Ideal)) (funext fun a => match a with | ⟨0, _⟩ => rfl | ⟨1, _⟩ => rfl)

/-- The second comparison broadcast over the columns. -/
theorem v27_at (x1 : (⟨S64x128, .i32⟩ : BufTy).Contents (Elt Ideal)) (b : Fin 64) (j k : Fin 128) :
    val_main_v27 (F := Ideal) x1 (ix3 b j k)
      = IntOp.cmpi .slt (BitVec.ofNat 32 j.val) (val_main_v0 (F := Ideal) x1 (ix1 b)) := by
  rw [val_main_v27_apply, ← v24_at x1 b j 0]
  exact congrArg (val_main_v24 (F := Ideal) x1)
    (funext fun a => match a with | ⟨0, _⟩ => rfl | ⟨1, _⟩ => rfl | ⟨2, _⟩ => rfl)

/-- The conjunction of the two comparisons is the specification's `counted`. -/
theorem andi_slt (t : BitVec 32) (j k : Fin 128) :
    IntOp.andi (IntOp.cmpi .slt (BitVec.ofNat 32 k.val) (BitVec.ofNat 32 j.val))
        (IntOp.cmpi .slt (BitVec.ofNat 32 j.val) t)
      = if Cert.Spec.counted t j k then 1#1 else 0#1 := by
  have hk : k.val < 2 ^ 31 := by have := k.isLt; omega
  have hj : j.val < 2 ^ 31 := by have := j.isLt; omega
  have h1 := slt_ofNat_iff k.val j.val hk hj
  rw [ofBool_eq_one_iff] at h1
  show BitVec.ofBool ((BitVec.ofNat 32 k.val).slt (BitVec.ofNat 32 j.val))
      &&& BitVec.ofBool ((BitVec.ofNat 32 j.val).slt t) = _
  by_cases hkj : k.val < j.val
  · rw [h1.mpr hkj]
    cases hq : (BitVec.ofNat 32 j.val).slt t
    · have hn : ¬ Cert.Spec.counted t j k := fun h => by
        have h' : k.val < j.val ∧ (BitVec.ofNat 32 j.val).slt t = true := h
        rw [hq] at h'
        exact Bool.noConfusion h'.2
      rw [if_neg hn]; rfl
    · have hp : Cert.Spec.counted t j k := And.intro hkj hq
      rw [if_pos hp]; rfl
  · have hf : (BitVec.ofNat 32 k.val).slt (BitVec.ofNat 32 j.val) = false := by
      cases h : (BitVec.ofNat 32 k.val).slt (BitVec.ofNat 32 j.val)
      · rfl
      · exact absurd (h1.mp h) hkj
    have hn : ¬ Cert.Spec.counted t j k := fun h => by
      have h' : k.val < j.val ∧ (BitVec.ofNat 32 j.val).slt t = true := h
      exact hkj h'.1
    rw [hf, if_neg hn]
    cases (BitVec.ofNat 32 j.val).slt t <;> rfl

/-- The reference's mask at the pair `(j, k)` of batch `b`: one exactly when the pair counts. -/
theorem ref_valid (x1 : (⟨S64x128, .i32⟩ : BufTy).Contents (Elt Ideal)) (b : Fin 64) (j k : Fin 128) :
    val_main_v28 (F := Ideal) x1 (ix3 b j k)
      = (if Cert.Spec.counted (val_main_v0 (F := Ideal) x1 (ix1 b)) j k then 1#1 else 0#1) := by
  rw [val_main_v28_apply, v26_at, v27_at, andi_slt]

/-- The mask is one exactly on the counted pairs. -/
theorem ref_valid_iff (x1 : (⟨S64x128, .i32⟩ : BufTy).Contents (Elt Ideal)) (b : Fin 64) (j k : Fin 128) :
    val_main_v28 (F := Ideal) x1 (ix3 b j k) = 1#1
      ↔ Cert.Spec.counted (val_main_v0 (F := Ideal) x1 (ix1 b)) j k := by
  rw [ref_valid]
  by_cases h : Cert.Spec.counted (val_main_v0 (F := Ideal) x1 (ix1 b)) j k
  · rw [if_pos h]; exact ⟨fun _ => h, fun _ => rfl⟩
  · rw [if_neg h]; exact ⟨fun e => absurd e (by decide), fun e => absurd e h⟩

/-- A select on the mask is the `if` on the counted pairs. -/
theorem ref_valid_select (x1 : (⟨S64x128, .i32⟩ : BufTy).Contents (Elt Ideal)) (b : Fin 64) (j k : Fin 128)
    (u v : EReal) :
    Scalar.select (val_main_v28 (F := Ideal) x1 (ix3 b j k)) u v
      = if Cert.Spec.counted (val_main_v0 (F := Ideal) x1 (ix1 b)) j k then u else v := by
  rw [ref_valid]
  by_cases h : Cert.Spec.counted (val_main_v0 (F := Ideal) x1 (ix1 b)) j k
  · rw [if_pos h, if_pos h, select_one]
  · rw [if_neg h, if_neg h, select_zero]

end Cert.RefValid

end
-- ==== Proof.RefNum.lean ====
/-
  The reference's numerator is the specification's numerator.

  Given the readings of the reference's log-probabilities, of its label pick and of its validity mask,
  the reference's masked sum of the pairs' losses is `Cert.Spec.num`.  The steps: a logit at real
  arguments is a real; the shifted log-sum-exp at real arguments is the coercion of a real identity;
  the negated picked log-probability is the pair's loss; the select by the validity bit is the pair's
  term; the sum over the rank-3 index set is the triple sum over its coordinates.
-/
import proofs.«404593_j6614249636365_1_alg».proof.Proof.Spec
import proofs.«404593_j6614249636365_1_alg».proof.Proof.RefRead
import Idealize.ShloMosaic.PureOps.Ideal.Laws
import Idealize.ShloMosaic.Lib.ValueIdx
import Mathlib.Data.EReal.Basic
import Mathlib.Data.EReal.Operations
import Mathlib.Analysis.SpecialFunctions.Log.Basic

noncomputable section

namespace Cert.RefNum

open Cert.ReferenceIdeal Cert.ReferenceIdeal.ReadP
open Idealize.ShloMosaic Idealize.ShloMosaic.ValueIdx

variable [Cert.ReferenceIdeal.Facts]

/-- A finite sum of reals is a real. -/
theorem sum_real {ι : Type*} (s : Finset ι) (f : ι → EReal) (h : ∀ i, ∃ r : ℝ, f i = (r : EReal)) :
    ∃ r : ℝ, ∑ i ∈ s, f i = (r : EReal) := by
  classical
  refine Finset.induction_on s ⟨0, by simp⟩ ?_
  intro a s ha ih
  obtain ⟨r, hr⟩ := h a
  obtain ⟨q, hq⟩ := ih
  exact ⟨r + q, by rw [Finset.sum_insert ha, hr, hq, EReal.coe_add]⟩

/-- A product of two reals is a real. -/
theorem mul_real {u v : EReal} (hu : ∃ r : ℝ, u = (r : EReal)) (hv : ∃ r : ℝ, v = (r : EReal)) :
    ∃ r : ℝ, u * v = (r : EReal) := by
  obtain ⟨r, rfl⟩ := hu
  obtain ⟨q, rfl⟩ := hv
  exact ⟨r * q, by rw [EReal.coe_mul]⟩

/-- A sum of two reals is a real. -/
theorem add_real {u v : EReal} (hu : ∃ r : ℝ, u = (r : EReal)) (hv : ∃ r : ℝ, v = (r : EReal)) :
    ∃ r : ℝ, u + v = (r : EReal) := by
  obtain ⟨r, rfl⟩ := hu
  obtain ⟨q, rfl⟩ := hv
  exact ⟨r + q, by rw [EReal.coe_add]⟩

/-- At real arguments every logit is a real. -/
theorem logit_real (x0 : Cert.Spec.SX.Idx → EReal) (x2 : Cert.Spec.SW.Idx → EReal) (x3 : Cert.Spec.SB.Idx → EReal)
    (h0 : ∀ i, ∃ r : ℝ, x0 i = (r : EReal)) (h2 : ∀ i, ∃ r : ℝ, x2 i = (r : EReal))
    (h3 : ∀ i, ∃ r : ℝ, x3 i = (r : EReal)) (b : Fin 64) (j k : Fin 128) (c : Fin 2) :
    ∃ r : ℝ, Cert.Spec.logit x0 x2 x3 b j k c = (r : EReal) := by
  unfold Cert.Spec.logit Cert.Spec.left Cert.Spec.right
  exact add_real (add_real (sum_real _ _ fun d => mul_real (h0 _) (h2 _))
    (sum_real _ _ fun d => mul_real (h0 _) (h2 _))) (h3 _)

/-- The shifted log-sum-exp at real arguments: `a - m - L = a - (m + L)` under the coercion. -/
theorem lse_shift (l l₀ l₁ : ℝ) :
    ((l : EReal) - max (l₀ : EReal) (l₁ : EReal))
        - Ideal.log (Ideal.exp ((l₀ : EReal) - max (l₀ : EReal) (l₁ : EReal))
                      + Ideal.exp ((l₁ : EReal) - max (l₀ : EReal) (l₁ : EReal)))
      = (l : EReal) - Cert.Spec.lse (l₀ : EReal) (l₁ : EReal) := by
  unfold Cert.Spec.lse
  have hmax : max (l₀ : EReal) (l₁ : EReal) = ((max l₀ l₁ : ℝ) : EReal) :=
    (EReal.coe_strictMono.monotone.map_max (a := l₀) (b := l₁)).symm
  have hpos : ¬ (Real.exp (l₀ - max l₀ l₁) + Real.exp (l₁ - max l₀ l₁) ≤ 0) :=
    not_le.mpr (add_pos (Real.exp_pos _) (Real.exp_pos _))
  rw [hmax, ← EReal.coe_sub, ← EReal.coe_sub, ← EReal.coe_sub, Ideal.exp_coe, Ideal.exp_coe,
    ← EReal.coe_add, Ideal.log_coe, if_neg hpos, ← EReal.coe_sub, ← EReal.coe_add, ← EReal.coe_sub]
  congr 1
  ring

/-- The negated picked log-probability is the pair's loss. -/
theorem ref_nll (x0 : (⟨S64x128x2048, .f32⟩ : BufTy).Contents (Elt Ideal))
    (x2 : (⟨S4096x2, .f32⟩ : BufTy).Contents (Elt Ideal)) (x3 : (⟨S2, .f32⟩ : BufTy).Contents (Elt Ideal))
    (hlogp : ∀ (b : Fin 64) (j k : Fin 128) (c : Fin 2), val_main_v35 (F := Ideal) x0 x2 x3 (ix4 b j k c)
      = (Cert.Spec.logit x0 x2 x3 b j k c - max (Cert.Spec.logit x0 x2 x3 b j k 0) (Cert.Spec.logit x0 x2 x3 b j k 1))
        - Ideal.log (Ideal.exp (Cert.Spec.logit x0 x2 x3 b j k 0 - max (Cert.Spec.logit x0 x2 x3 b j k 0) (Cert.Spec.logit x0 x2 x3 b j k 1))
                    + Ideal.exp (Cert.Spec.logit x0 x2 x3 b j k 1 - max (Cert.Spec.logit x0 x2 x3 b j k 0) (Cert.Spec.logit x0 x2 x3 b j k 1))))
    (hpick : ∀ (b : Fin 64) (j k : Fin 128), val_main_v39 (F := Ideal) x0 x2 x3 (ix3 b j k)
      = val_main_v35 (F := Ideal) x0 x2 x3 (ix4 b j k (if k.val + 1 = j.val then (1 : Fin 2) else 0)))
    (h0 : ∀ i, ∃ r : ℝ, x0 i = (r : EReal)) (h2 : ∀ i, ∃ r : ℝ, x2 i = (r : EReal))
    (h3 : ∀ i, ∃ r : ℝ, x3 i = (r : EReal)) (b : Fin 64) (j k : Fin 128) :
    val_main_v40 (F := Ideal) x0 x2 x3 (ix3 b j k) = Cert.Spec.nll x0 x2 x3 b j k := by
  rw [val_main_v40_apply, Ideal.hostNegf_def, Ideal.negf_def, hpick, hlogp]
  obtain ⟨r0, hr0⟩ := logit_real x0 x2 x3 h0 h2 h3 b j k 0
  obtain ⟨r1, hr1⟩ := logit_real x0 x2 x3 h0 h2 h3 b j k 1
  unfold Cert.Spec.nll
  by_cases hk : k.val + 1 = j.val
  · rw [if_pos hk, if_pos hk, hr0, hr1, lse_shift, zero_sub]
  · rw [if_neg hk, if_neg hk, hr0, hr1, lse_shift, zero_sub]

/-- The select by the validity bit is the pair's term. -/
theorem ref_term (x0 : (⟨S64x128x2048, .f32⟩ : BufTy).Contents (Elt Ideal))
    (x1 : (⟨S64x128, .i32⟩ : BufTy).Contents (Elt Ideal))
    (x2 : (⟨S4096x2, .f32⟩ : BufTy).Contents (Elt Ideal)) (x3 : (⟨S2, .f32⟩ : BufTy).Contents (Elt Ideal))
    (hlogp : ∀ (b : Fin 64) (j k : Fin 128) (c : Fin 2), val_main_v35 (F := Ideal) x0 x2 x3 (ix4 b j k c)
      = (Cert.Spec.logit x0 x2 x3 b j k c - max (Cert.Spec.logit x0 x2 x3 b j k 0) (Cert.Spec.logit x0 x2 x3 b j k 1))
        - Ideal.log (Ideal.exp (Cert.Spec.logit x0 x2 x3 b j k 0 - max (Cert.Spec.logit x0 x2 x3 b j k 0) (Cert.Spec.logit x0 x2 x3 b j k 1))
                    + Ideal.exp (Cert.Spec.logit x0 x2 x3 b j k 1 - max (Cert.Spec.logit x0 x2 x3 b j k 0) (Cert.Spec.logit x0 x2 x3 b j k 1))))
    (hpick : ∀ (b : Fin 64) (j k : Fin 128), val_main_v39 (F := Ideal) x0 x2 x3 (ix3 b j k)
      = val_main_v35 (F := Ideal) x0 x2 x3 (ix4 b j k (if k.val + 1 = j.val then (1 : Fin 2) else 0)))
    (hvalid : ∀ (b : Fin 64) (j k : Fin 128), val_main_v28 (F := Ideal) x1 (ix3 b j k)
      = (if Cert.Spec.counted (val_main_v0 (F := Ideal) x1 (ix1 b)) j k then 1#1 else 0#1))
    (h0 : ∀ i, ∃ r : ℝ, x0 i = (r : EReal)) (h2 : ∀ i, ∃ r : ℝ, x2 i = (r : EReal))
    (h3 : ∀ i, ∃ r : ℝ, x3 i = (r : EReal)) (b : Fin 64) (j k : Fin 128) :
    val_main_v43 (F := Ideal) x0 x1 x2 x3 (ix3 b j k)
      = Cert.Spec.term x0 x2 x3 (val_main_v0 (F := Ideal) x1) b j k := by
  rw [val_main_v43_apply, hvalid, ref_nll x0 x2 x3 hlogp hpick h0 h2 h3, val_main_call2_v1_apply,
    val_main_call2_v0_apply, val_main_cst_apply, Ideal.ofBits_def, Ideal.ofBits_zero_f32]
  unfold Cert.Spec.term Scalar.select
  by_cases hc : Cert.Spec.counted (val_main_v0 (F := Ideal) x1 (ix1 b)) j k
  · rw [if_pos hc, if_pos hc, if_pos (show (1#1 : BitVec 1) = 1 from rfl)]
  · rw [if_neg hc, if_neg hc, if_neg (show ¬ (0#1 : BitVec 1) = 1 by decide)]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The reference's masked sum of the pairs' losses is the specification's numerator. -/
theorem ref_num (x0 : (⟨S64x128x2048, .f32⟩ : BufTy).Contents (Elt Ideal))
    (x1 : (⟨S64x128, .i32⟩ : BufTy).Contents (Elt Ideal))
    (x2 : (⟨S4096x2, .f32⟩ : BufTy).Contents (Elt Ideal)) (x3 : (⟨S2, .f32⟩ : BufTy).Contents (Elt Ideal))
    (hlogp : ∀ (b : Fin 64) (j k : Fin 128) (c : Fin 2), val_main_v35 (F := Ideal) x0 x2 x3 (ix4 b j k c)
      = (Cert.Spec.logit x0 x2 x3 b j k c - max (Cert.Spec.logit x0 x2 x3 b j k 0) (Cert.Spec.logit x0 x2 x3 b j k 1))
        - Ideal.log (Ideal.exp (Cert.Spec.logit x0 x2 x3 b j k 0 - max (Cert.Spec.logit x0 x2 x3 b j k 0) (Cert.Spec.logit x0 x2 x3 b j k 1))
                    + Ideal.exp (Cert.Spec.logit x0 x2 x3 b j k 1 - max (Cert.Spec.logit x0 x2 x3 b j k 0) (Cert.Spec.logit x0 x2 x3 b j k 1))))
    (hpick : ∀ (b : Fin 64) (j k : Fin 128), val_main_v39 (F := Ideal) x0 x2 x3 (ix3 b j k)
      = val_main_v35 (F := Ideal) x0 x2 x3 (ix4 b j k (if k.val + 1 = j.val then (1 : Fin 2) else 0)))
    (hvalid : ∀ (b : Fin 64) (j k : Fin 128), val_main_v28 (F := Ideal) x1 (ix3 b j k)
      = (if Cert.Spec.counted (val_main_v0 (F := Ideal) x1 (ix1 b)) j k then 1#1 else 0#1))
    (h0 : ∀ i, ∃ r : ℝ, x0 i = (r : EReal)) (h2 : ∀ i, ∃ r : ℝ, x2 i = (r : EReal))
    (h3 : ∀ i, ∃ r : ℝ, x3 i = (r : EReal)) :
    val_main_v44 (F := Ideal) x0 x1 x2 x3
      = fun _ => Cert.Spec.num x0 x2 x3 (val_main_v0 (F := Ideal) x1) := by
  funext i
  rw [val_main_v44_apply, val_main_cst_2_apply, Ideal.ofBits_def, Ideal.ofBits_zero_f32, zero_add, sum_idx3]
  unfold Cert.Spec.num
  refine Finset.sum_congr rfl fun b _ => ?_
  refine Finset.sum_comm.trans ?_
  refine Finset.sum_congr rfl fun k _ => Finset.sum_congr rfl fun j _ => ?_
  exact ref_term x0 x1 x2 x3 hlogp hpick hvalid h0 h2 h3 b j k

end Cert.RefNum

end
-- ==== Proof.RefDen.lean ====
/-
  The reference's normaliser. The mask holds only the words 0 and 1, so a batch's turn length is the number of ones in
  its row of the mask, a number between 0 and 128. The reference widens the 0/1 indicator of the counted pairs to
  32-bit words and adds them all up: the number of counted triples (batch, row, row). For a turn length t between 0 and
  128 the pairs (j, k) with k < j < t number 0 + 1 + … + (t - 1) = t (t - 1) / 2, so the count is the sum over the
  batches of t_b (t_b - 1) / 2, far below 2 ^ 31; its signed maximum with 1, read as an integer and then as a real, is
  the normaliser of the specification.
-/
import proofs.«404593_j6614249636365_1_alg».proof.Proof.Spec
import proofs.«404593_j6614249636365_1_alg».proof.Proof.RefRead
import Idealize.ShloMosaic.PureOps.Reduce
import Idealize.ShloMosaic.Lib.ValueIdx
import Idealize.ShloMosaic.Lib.ReduceAll
import Idealize.ShloMosaic.Lib.IndicatorCount
import Mathlib.Algebra.BigOperators.Intervals
import Mathlib.Algebra.BigOperators.Fin
import Mathlib.Data.EReal.Operations

noncomputable section

namespace Cert.RefDen

open Idealize.ShloMosaic Idealize.ShloMosaic.ValueIdx
open Cert.ReferenceIdeal Cert.ReferenceIdeal.Gen Cert.ReferenceIdeal.ReadP

/-! ## Words -/

/-- A small natural number, as a 32-bit word, reads back as itself, signed. -/
theorem toInt_ofNat_small (n : ℕ) (h : n < 2 ^ 31) : (BitVec.ofNat 32 n).toInt = (n : ℤ) := by
  rw [BitVec.toInt_eq_toNat_cond, BitVec.toNat_ofNat]
  have e : n % 2 ^ 32 = n := Nat.mod_eq_of_lt (by omega)
  rw [e, if_pos (by omega)]

/-- Signed comparison of two small natural numbers, as words, is their comparison. -/
theorem slt_ofNat_small (a b : ℕ) (ha : a < 2 ^ 31) (hb : b < 2 ^ 31) :
    (BitVec.ofNat 32 a).slt (BitVec.ofNat 32 b) = true ↔ a < b := by
  simp only [BitVec.slt, decide_eq_true_eq, toInt_ofNat_small a ha, toInt_ofNat_small b hb]
  omega

/-- The signed maximum of a small natural number, as a word, with 1. -/
theorem toInt_maxsi_one (n : ℕ) (h : n < 2 ^ 31) :
    (IntOp.maxsi (BitVec.ofNat 32 n) 1#32).toInt = ((max n 1 : ℕ) : ℤ) := by
  have h1 : (1#32 : BitVec 32) = BitVec.ofNat 32 1 := rfl
  unfold IntOp.maxsi
  rw [h1]
  by_cases c : 1 < n
  · rw [if_pos ((slt_ofNat_small 1 n (by omega) h).2 c), toInt_ofNat_small n h, max_eq_left (by omega)]
  · rw [if_neg (fun e => c ((slt_ofNat_small 1 n (by omega) h).1 e)), toInt_ofNat_small 1 (by omega),
      max_eq_right (by omega)]

/-- A fold by addition, from zero, of words that are 0 or 1 is the number of the ones. -/
theorem fold_addi_bits {ι : Type} (x : ι → BitVec 32) (hx : ∀ k, x k = 0#32 ∨ x k = 1#32) (S : Finset ι) :
    S.fold IntOp.addi (0#32) x = BitVec.ofNat 32 (S.filter fun k => x k = 1#32).card := by
  have e : x = fun k => ((x k).setWidth 1).setWidth 32 := funext fun k => by
    rcases hx k with h | h <;> rw [h] <;> decide
  have f : ∀ k, ((x k).setWidth 1 = 1#1) ↔ x k = 1#32 := fun k => by
    rcases hx k with h | h <;> rw [h] <;> decide
  rw [show S.fold IntOp.addi (0#32) x = S.fold IntOp.addi (0#32) (fun k => ((x k).setWidth 1).setWidth 32) from by rw [← e],
    IndicatorCount.fold_addi_setWidth_eq_card (fun k => (x k).setWidth 1) S]
  congr 2
  exact Finset.filter_congr fun k _ => f k

/-! ## Counting -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over an initial segment, written with a test. -/
theorem sum_range_ite_lt (N m : ℕ) (h : m ≤ N) (f : ℕ → ℕ) :
    ∑ k ∈ Finset.range N, (if k < m then f k else 0) = ∑ k ∈ Finset.range m, f k := by
  rw [← Finset.sum_filter]
  congr 1
  ext k
  simp only [Finset.mem_filter, Finset.mem_range]
  omega

/-- The pairs (j, k) of rows below 128 with k < j < n number 0 + 1 + … + (n - 1). -/
theorem pairs_count (n : ℕ) (hn : n ≤ 128) :
    ∑ j : Fin 128, ∑ k : Fin 128, (if k.val < j.val ∧ j.val < n then 1 else 0) = ∑ j ∈ Finset.range n, j := by
  have h1 : ∀ j : Fin 128, ∑ k : Fin 128, (if k.val < j.val ∧ j.val < n then 1 else 0) = if j.val < n then j.val else 0 := by
    intro j
    by_cases hj : j.val < n
    · simp only [hj, and_true, if_true]
      rw [Fin.sum_univ_eq_sum_range (fun k => if k < j.val then 1 else 0) 128,
        sum_range_ite_lt 128 j.val (by have := j.isLt; omega) (fun _ => 1)]
      simp
    · simp only [hj, and_false, if_false]
      exact Finset.sum_const_zero
  rw [Finset.sum_congr rfl fun j _ => h1 j, Fin.sum_univ_eq_sum_range (fun j => if j < n then j else 0) 128,
    sum_range_ite_lt 128 n hn (fun j => j)]

/-- 0 + 1 + … + (n - 1), as a real number, is n (n - 1) / 2. -/
theorem gauss_real (n : ℕ) : ((∑ j ∈ Finset.range n, j : ℕ) : ℝ) = (n : ℝ) * ((n : ℝ) - 1) * (1 / 2) := by
  have h := Finset.sum_range_id_mul_two n
  have h' : ((∑ j ∈ Finset.range n, j : ℕ) : ℝ) * 2 = (n : ℝ) * ((n : ℝ) - 1) := by
    rcases n with _ | m
    · simp
    · have := congrArg (Nat.cast (R := ℝ)) h
      push_cast at this ⊢
      rw [this]
      simp
  rw [← h']
  ring

/-- 0 + 1 + … + (n - 1) for n ≤ 128 is at most 8128. -/
theorem gauss_le (n : ℕ) (hn : n ≤ 128) : ∑ j ∈ Finset.range n, j ≤ 8128 := by
  have h := Finset.sum_range_id_mul_two n
  have : n * (n - 1) ≤ 128 * 127 := Nat.mul_le_mul hn (by omega)
  omega

/-! ## Casts -/

/-- A finite sum of natural numbers, cast to the extended reals term by term. -/
theorem coe_sum_nat {ι : Type} (S : Finset ι) (f : ι → ℕ) :
    ∑ b ∈ S, (((f b : ℕ) : ℝ) : EReal) = (((∑ b ∈ S, f b : ℕ) : ℝ) : EReal) := by
  induction S using Finset.cons_induction with
  | empty => simp
  | cons a S ha ih => rw [Finset.sum_cons, Finset.sum_cons, ih, Nat.cast_add, EReal.coe_add]

/-- The maximum of a natural number with 1, cast to the extended reals. -/
theorem coe_max_nat (N : ℕ) : max (((N : ℕ) : ℝ) : EReal) 1 = (((max N 1 : ℕ) : ℝ) : EReal) := by
  have hg : Monotone fun n : ℕ => ((n : ℝ) : EReal) := fun a b h => EReal.coe_le_coe_iff.2 (Nat.cast_le.2 h)
  have h1 : (1 : EReal) = (((1 : ℕ) : ℝ) : EReal) := by simp
  rw [h1]
  exact (hg.map_max (a := N) (b := 1)).symm

/-! ## The reference's stages -/

variable [Cert.ReferenceIdeal.Facts]

theorem hRed : S64x128.Reduces [1] S64 := by decide

/-- The number of ones in row b of the mask. -/
def ones (x1 : (⟨S64x128, .i32⟩ : BufTy).Contents (Elt Ideal)) (b : Fin 64) : ℕ :=
  (Finset.univ.filter fun k : Fin (S64x128.size 1) => x1 (hRed.lift (ix1 b) k) = 1#32).card

theorem ones_le (x1 : (⟨S64x128, .i32⟩ : BufTy).Contents (Elt Ideal)) (b : Fin 64) : ones x1 b ≤ 128 := by
  unfold ones
  refine (Finset.card_le_univ _).trans ?_
  rw [Fintype.card_fin]
  exact le_refl _

/-- A batch's turn length is the number of ones in its row of the mask. -/
theorem v0_eq (x1 : (⟨S64x128, .i32⟩ : BufTy).Contents (Elt Ideal)) (hm : ∀ i, x1 i = 0#32 ∨ x1 i = 1#32) (b : Fin 64) :
    val_main_v0 (F := Ideal) x1 (ix1 b) = BitVec.ofNat 32 (ones x1 b) := by
  unfold val_main_v0
  rw [Host.reduce_eq_fold_single IntOp.addi x1 _ reducesTo_S64x128_S64_d1 hRed h_S_ (ix1 b)]
  show Finset.fold IntOp.addi (0#32) (x1 ∘ hRed.lift (ix1 b)) Finset.univ = _
  rw [fold_addi_bits (x1 ∘ hRed.lift (ix1 b)) (fun k => hm _) Finset.univ]
  rfl

/-- The reference's count is the number of indices at which the indicator is 1. -/
theorem v42_eq (x1 : (⟨S64x128, .i32⟩ : BufTy).Contents (Elt Ideal)) (i : S_.Idx) :
    val_main_v42 (F := Ideal) x1 i
      = BitVec.ofNat 32 (Finset.univ.filter fun k : S64x128x128.Idx => val_main_v28 (F := Ideal) x1 k = 1#1).card := by
  unfold val_main_v42
  rw [Host.reduce_eq_fold]
  have hall : (Finset.univ.filter fun k : S64x128x128.Idx => reducesTo_S64x128x128_S_d0_1_2.drop k = i) = Finset.univ :=
    Finset.filter_true_of_mem fun k _ => funext fun a => a.elim0
  rw [hall]
  show Finset.fold IntOp.addi (0#32) (fun k => (val_main_v28 (F := Ideal) x1 k).setWidth 32) Finset.univ = _
  rw [IndicatorCount.fold_addi_setWidth_eq_card]

/-- The number of counted triples is the sum over the batches of 0 + 1 + … + (t_b - 1). -/
theorem count_eq (x1 : (⟨S64x128, .i32⟩ : BufTy).Contents (Elt Ideal)) (hm : ∀ i, x1 i = 0#32 ∨ x1 i = 1#32)
    (hvalid : ∀ (b : Fin 64) (j k : Fin 128), val_main_v28 (F := Ideal) x1 (ix3 b j k)
      = (if Cert.Spec.counted (val_main_v0 (F := Ideal) x1 (ix1 b)) j k then 1#1 else 0#1)) :
    (Finset.univ.filter fun k : S64x128x128.Idx => val_main_v28 (F := Ideal) x1 k = 1#1).card
      = ∑ b : Fin 64, ∑ j ∈ Finset.range (ones x1 b), j := by
  rw [Finset.card_filter, sum_idx3]
  refine Finset.sum_congr rfl fun b _ => ?_
  rw [← pairs_count (ones x1 b) (ones_le x1 b)]
  refine Finset.sum_congr rfl fun j _ => Finset.sum_congr rfl fun k _ => ?_
  rw [hvalid b j k, v0_eq x1 hm b]
  have hc : Cert.Spec.counted (BitVec.ofNat 32 (ones x1 b)) j k ↔ (k.val < j.val ∧ j.val < ones x1 b) := by
    unfold Cert.Spec.counted
    rw [slt_ofNat_small j.val (ones x1 b) (by have := j.isLt; omega) (by have := ones_le x1 b; omega)]
  by_cases c : Cert.Spec.counted (BitVec.ofNat 32 (ones x1 b)) j k
  · rw [if_pos c, if_pos rfl, if_pos (hc.1 c)]
  · rw [if_neg c, if_neg (by decide), if_neg (fun h => c (hc.2 h))]

/-- The reference's normaliser is the specification's. -/
theorem ref_den (x1 : (⟨S64x128, .i32⟩ : BufTy).Contents (Elt Ideal)) (hm : ∀ i, x1 i = 0#32 ∨ x1 i = 1#32)
    (hvalid : ∀ (b : Fin 64) (j k : Fin 128), val_main_v28 (F := Ideal) x1 (ix3 b j k)
      = (if Cert.Spec.counted (val_main_v0 (F := Ideal) x1 (ix1 b)) j k then 1#1 else 0#1)) :
    val_main_v46 (F := Ideal) x1 = fun _ => Cert.Spec.den (val_main_v0 (F := Ideal) x1) := by
  funext i
  rw [val_main_v46_apply, val_main_v45_apply, val_main_c_3_apply, v42_eq, count_eq x1 hm hvalid]
  have hNle : (∑ b : Fin 64, ∑ j ∈ Finset.range (ones x1 b), j) < 2 ^ 31 := by
    have h := Finset.sum_le_card_nsmul (Finset.univ : Finset (Fin 64)) (fun b => ∑ j ∈ Finset.range (ones x1 b), j) 8128
      fun b _ => gauss_le _ (ones_le x1 b)
    rw [Finset.card_univ, Fintype.card_fin, smul_eq_mul] at h
    omega
  show (((IntOp.maxsi (BitVec.ofNat 32 (∑ b : Fin 64, ∑ j ∈ Finset.range (ones x1 b), j)) 1#32).toInt : ℝ) : EReal) = _
  rw [toInt_maxsi_one _ hNle]
  unfold Cert.Spec.den
  have ht : ∀ b : Fin 64, Cert.Spec.tlen (val_main_v0 (F := Ideal) x1) b * (Cert.Spec.tlen (val_main_v0 (F := Ideal) x1) b - 1)
        * (((1 / 2 : ℝ)) : EReal) = (((∑ j ∈ Finset.range (ones x1 b), j : ℕ) : ℝ) : EReal) := by
    intro b
    unfold Cert.Spec.tlen
    rw [v0_eq x1 hm b, toInt_ofNat_small _ (by have := ones_le x1 b; omega), gauss_real, Int.cast_natCast,
      EReal.coe_mul, EReal.coe_mul, EReal.coe_sub, EReal.coe_one]
  rw [Finset.sum_congr rfl fun b _ => ht b, coe_sum_nat, coe_max_nat, Int.cast_natCast]

end Cert.RefDen

end
-- ==== Proof.RefValue.lean ====
/-
  The reference's result as the specification's quotient: its numerator is the sum of the counted pairs' losses
  (for finite float arguments: the shifted log-sum-exp is the unshifted one only on the reals), its denominator the
  normaliser (for a mask of zeros and ones: only then is the number of counted pairs the closed form in the turn lengths).
-/
import proofs.«404593_j6614249636365_1_alg».proof.Proof.RefLogp
import proofs.«404593_j6614249636365_1_alg».proof.Proof.RefPick
import proofs.«404593_j6614249636365_1_alg».proof.Proof.RefValid
import proofs.«404593_j6614249636365_1_alg».proof.Proof.RefNum
import proofs.«404593_j6614249636365_1_alg».proof.Proof.RefDen

noncomputable section

namespace Cert.RefValue

open Idealize.ShloMosaic Idealize.ShloMosaic.ValueIdx Cert.ReferenceIdeal Cert.ReferenceIdeal.ReadP

variable [Cert.ReferenceIdeal.Facts]

/-- The reference's last stage, at Ideal, for finite floats and a mask of zeros and ones. -/
theorem ref_result (x0 : (⟨S64x128x2048, .f32⟩ : BufTy).Contents (Elt Ideal)) (x1 : (⟨S64x128, .i32⟩ : BufTy).Contents (Elt Ideal))
    (x2 : (⟨S4096x2, .f32⟩ : BufTy).Contents (Elt Ideal)) (x3 : (⟨S2, .f32⟩ : BufTy).Contents (Elt Ideal))
    (h0 : ∀ i, ∃ r : ℝ, x0 i = (r : EReal)) (hm : ∀ i, x1 i = 0#32 ∨ x1 i = 1#32)
    (h2 : ∀ i, ∃ r : ℝ, x2 i = (r : EReal)) (h3 : ∀ i, ∃ r : ℝ, x3 i = (r : EReal)) :
    val_main_v47 (F := Ideal) x0 x1 x2 x3
      = Host.divf (F := Ideal) (φ := .f32) (s := S_) (fun _ => Cert.Spec.num x0 x2 x3 (val_main_v0 (F := Ideal) x1)) (fun _ => Cert.Spec.den (val_main_v0 (F := Ideal) x1)) := by
  unfold val_main_v47
  rw [Cert.RefNum.ref_num x0 x1 x2 x3 (fun b j k c => Cert.RefLogp.ref_logp x0 x2 x3 b j k c) (fun b j k => Cert.RefPick.ref_pick x0 x2 x3 b j k)
      (fun b j k => Cert.RefValid.ref_valid x1 b j k) h0 h2 h3,
    Cert.RefDen.ref_den x1 hm (fun b j k => Cert.RefValid.ref_valid x1 b j k)]

end Cert.RefValue

end
-- ==== Proof.PreDecode.lean ====
import proofs.«404593_j6614249636365_1_alg».proof.Pre_finite_inputs
import Idealize.ShloMosaic.PureOps.Ideal
import Idealize.ShloMosaic.Lib.ReduceAll
import Idealize.ShloMosaic.Lib.StableHlo.Predicate
import Idealize.ShloMosaic.Lib.ValueIdx

/-
  The precondition, read back. The printed predicate is the conjunction of four "all elements" tests: for each of
  the three float arrays, |x| < +∞ at every element; for the mask, (word = 0) or (word = 1) at every element.
  If the conjunction is 1 then each test is 1, a test by `and` over all axes that is 1 holds at every element,
  and an extended real whose absolute value is below +∞ is a real number.
-/

namespace Cert.PreDecode

open Idealize.ShloMosaic Cert.Pre_finite_inputs

/-- The scalar shape has exactly one index. -/
instance : Subsingleton S_.Idx := ⟨fun a b => funext fun d => d.elim0⟩

/-- An extended real `x` with `max x (-x) < +∞` is a real: both infinities have absolute value `+∞`. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Facts]

/-- If the precondition holds, the three float arrays are finite and the mask holds only 0 and 1. -/
theorem decode (a0 : FVec Ideal S64x128x2048 .f32) (a1 : IVec S64x128 32) (a2 : FVec Ideal S4096x2 .f32) (a3 : FVec Ideal S2 .f32)
    (h : Cert.Pre_finite_inputs.fn (F := Ideal) a0 a1 a2 a3 = fun _ => 1#1) :
    (∀ i, ∃ r : ℝ, a0 i = (r : EReal)) ∧ (∀ i, a1 i = 0#32 ∨ a1 i = 1#32) ∧ (∀ i, ∃ r : ℝ, a2 i = (r : EReal)) ∧ (∀ i, ∃ r : ℝ, a3 i = (r : EReal)) := by
  -- the predicate at its one index, then its four conjuncts
  have h0 := congrFun h ValueIdx.ix0
  dsimp only [fn, fn_part1] at h0
  obtain ⟨h123, hm⟩ := IntOp.andi_eq_one.1 h0
  obtain ⟨h12, h3⟩ := IntOp.andi_eq_one.1 h123
  obtain ⟨h1, h2⟩ := IntOp.andi_eq_one.1 h12
  have e0 : ∀ i, ∃ r : ℝ, a0 i = (r : EReal) := fun i => by
    have := Host.reduce_andi_all _ _ _ _ _ h1 i
    exact real_of_abs_lt _ this
  have e2 : ∀ i, ∃ r : ℝ, a2 i = (r : EReal) := fun i => by
    have := Host.reduce_andi_all _ _ _ _ _ h2 i
    exact real_of_abs_lt _ this
  have e3 : ∀ i, ∃ r : ℝ, a3 i = (r : EReal) := fun i => by
    have := Host.reduce_andi_all _ _ _ _ _ h3 i
    exact real_of_abs_lt _ this
  have e1 : ∀ i, a1 i = 0#32 ∨ a1 i = 1#32 := fun i => by
    have := Host.reduce_andi_all _ _ _ _ _ hm i
    rcases IntOp.ori_eq_one.1 this with h | h
    · exact Or.inl (IntOp.cmpi_eq.1 h)
    · exact Or.inr (IntOp.cmpi_eq.1 h)
  exact ⟨e0, e1, e2, e3⟩

end Cert.PreDecode
-- ==== Proof.lean ====
/-
  The certificate's proof: the kernel (a Pallas call over the 64 batches that, per batch, projects the encoder rows by
  the two halves of the weights, forms the two logits of every pair of rows (j, k), takes the negative log-probability
  of the pair's label under the two-way softmax, masks the pairs with k < j < turn length and sums over j; then, on the
  host, sums the rows and divides by ∑ t (t - 1) / 2 over the batches' turn lengths t, at least 1) against the jnp
  reference (the same logits as a [64, 128, 128, 2] array, log_softmax, the label's entry by take_along_axis, the
  masked sum divided by the NUMBER of masked pairs, at least 1).

  Over the extended reals the two agree under the stated domain — finite floats, and a mask of zeros and ones:
  * the loss of a pair: the kernel writes logit − (m + log (e^{l₀−m} + e^{l₁−m})), the reference (logit − m) − log (…);
    equal on the reals (the logits are finite sums of finite products), not at the infinities;
  * the sums: the kernel adds over j inside the call and over (batch, k) on the host, the reference over all
    (batch, j, k) at once — one sum, by commutativity alone;
  * the normaliser: a batch's turn length t is the number of ones in its mask row, so 0 ≤ t ≤ 128, and the pairs
    k < j < t number t (t − 1) / 2; summed over the batches that is the reference's count. (For a mask entry outside
    {0, 1} the two normalisers differ: the domain is needed.)
  The three frames: each program runs to its end from any memory, nothing faulting, its arguments unchanged — the two
  kernel programs by the launch of @main as host stretch, region, host stretch (the table of turn lengths is handed to
  the region whole and read again by the stretch after it), the reference by its run as a list of host operations.
-/
import proofs.«404593_j6614249636365_1_alg».proof.Defs
import proofs.«404593_j6614249636365_1_alg».proof.Proof.Gen.Kernel
import proofs.«404593_j6614249636365_1_alg».proof.Proof.Gen.KernelIdeal
import proofs.«404593_j6614249636365_1_alg».proof.Proof.Gen.ReferenceIdeal
import proofs.«404593_j6614249636365_1_alg».proof.Proof.Gen.Pre_finite_inputs
import proofs.«404593_j6614249636365_1_alg».proof.Proof.KTail
import proofs.«404593_j6614249636365_1_alg».proof.Proof.KITail
import proofs.«404593_j6614249636365_1_alg».proof.Proof.KINum
import proofs.«404593_j6614249636365_1_alg».proof.Proof.RefReadEq
import proofs.«404593_j6614249636365_1_alg».proof.Proof.RefValue
import proofs.«404593_j6614249636365_1_alg».proof.Proof.PreDecode
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments unchanged. -/
theorem frame_k : Cert.frame_Kernel := fun m ρ _ => Cert.Kernel.Hand.frame (F := Bits) m ρ

/-- The idealized kernel program runs and leaves its arguments unchanged. -/
theorem frame_ki : Cert.frame_KernelIdeal := fun m ρ _ => Cert.KernelIdeal.Hand.frame (F := Ideal) m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The common result: the specification's quotient of the argument arrays. -/
def result (x0 : Cert.Spec.SX.Idx → EReal) (x1 : (⟨2, ![64, 128]⟩ : Shape).Idx → BitVec 32) (x2 : Cert.Spec.SW.Idx → EReal) (x3 : Cert.Spec.SB.Idx → EReal) :
    (⟨0, ![]⟩ : Shape).Idx → EReal :=
  Host.divf (F := Ideal) (φ := .f32) (s := ⟨0, ![]⟩)
    (fun _ => Cert.Spec.num x0 x2 x3 (Cert.ReferenceIdeal.ReadP.val_main_v0 (F := Ideal) x1))
    (fun _ => Cert.Spec.den (Cert.ReferenceIdeal.ReadP.val_main_v0 (F := Ideal) x1))

/-- From memories agreeing on finite float arguments and a mask of zeros and ones, both idealized programs end with
    the specification's quotient as their result. -/
theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · -- the kernel: the last valuation at the result's buffer, the tail read at Ideal, the array's sum
    refine (θ_run Cert.KernelIdeal.defs _ _).mono (fun r h c => ⟨?_, ?_, ?_, ?_, ?_⟩) (Cert.KernelIdeal.Hand.run_main (F := Ideal) m ρ)
    · refine (h c _ (Cert.KernelIdeal.Hand.mem_uc Cert.KernelIdeal.main_v13 (by decide))).trans ?_
      rw [Cert.KernelIdeal.Hand.W3_v13_ideal m c, Cert.KernelIdeal.Hand.ker_num m c, Cert.KernelIdeal.Hand.W1_v0 m c]
      rfl
    · exact (h c _ (Cert.KernelIdeal.Hand.mem_uc Cert.KernelIdeal.main_arg0 (by decide))).trans (Cert.KernelIdeal.Hand.W3_arg0_eq m c)
    · exact (h c _ (Cert.KernelIdeal.Hand.mem_uc Cert.KernelIdeal.main_arg1 (by decide))).trans (Cert.KernelIdeal.Hand.W3_arg1_eq m c)
    · exact (h c _ (Cert.KernelIdeal.Hand.mem_uc Cert.KernelIdeal.main_arg2 (by decide))).trans (Cert.KernelIdeal.Hand.W3_arg2_eq m c)
    · exact (h c _ (Cert.KernelIdeal.Hand.mem_uc Cert.KernelIdeal.main_arg3 (by decide))).trans (Cert.KernelIdeal.Hand.W3_arg3_eq m c)
  · -- the reference: its run's term is its last stage, which is the quotient on the stated domain
    refine (θ_run Cert.ReferenceIdeal.defs _ _).mono (fun r h c => ⟨(h c).1.trans ?_, (h c).2⟩)
      (Cert.ReferenceIdeal.ValueP.run (F := Ideal) m' ρ')
    obtain ⟨h0, hm, h2, h3⟩ := Cert.PreDecode.decode _ _ _ _ (hpre c)
    rw [Cert.ReferenceIdeal.ReadP.val_main_v47_eq, (hagree c).1, (hagree c).2.1, (hagree c).2.2.1, (hagree c).2.2.2]
    exact Cert.RefValue.ref_result _ _ _ _ h0 hm h2 h3

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
